-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v158) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x9216 : Shape := ⟨2, ![4, 9216]⟩
abbrev S4x64x96x96 : Shape := ⟨4, ![4, 64, 96, 96]⟩
abbrev S4x64x192x192 : Shape := ⟨4, ![4, 64, 192, 192]⟩
abbrev S4x128x96x96 : Shape := ⟨4, ![4, 128, 96, 96]⟩
abbrev S_ : Shape := ⟨0, ![]⟩

class Facts : Prop where
  bcast_S_S4x64x96x96 : S_.BroadcastsInDim S4x64x96x96 (![] : Fin 0 → Fin S4x64x96x96.rank)
  reducesTo_S4x64x96x96_S_d0_1_2_3 : S4x64x96x96.ReducesTo [0, 1, 2, 3] S_
  h_S_ : 0 < S_.numel
  bcast_S_S4x64x192x192 : S_.BroadcastsInDim S4x64x192x192 (![] : Fin 0 → Fin S4x64x192x192.rank)
  reducesTo_S4x64x192x192_S_d0_1_2_3 : S4x64x192x192.ReducesTo [0, 1, 2, 3] S_
  bcast_S_S4x128x96x96 : S_.BroadcastsInDim S4x128x96x96 (![] : Fin 0 → Fin S4x128x96x96.rank)
  reducesTo_S4x128x96x96_S_d0_1_2_3 : S4x128x96x96.ReducesTo [0, 1, 2, 3] S_
  bcast_S_S4x9216 : S_.BroadcastsInDim S4x9216 (![] : Fin 0 → Fin S4x9216.rank)
  reducesTo_S4x9216_S_d0_1 : S4x9216.ReducesTo [0, 1] S_

variable [Facts]

def fn_part1 {F : FTy → Type} [FloatOps F] (main_arg0 : IVec S4x9216 32) (main_v13 : IVec S_ 1) (main_v15 : IVec S4x9216 1) (main_c_5 : IVec S_ 1) : IVec S_ 1 :=
  let main_v16 : IVec S_ 1 := (fun x v => Host.reduce IntOp.andi x v reducesTo_S4x9216_S_d0_1 h_S_) main_v15 main_c_5
  let main_v17 : IVec S_ 1 := andi main_v13 main_v16
  let main_c_6 : IVec S_ 32 := constantI S_ 32 9216#32
  let main_v18 : IVec S4x9216 32 := broadcastInDim S4x9216 ![] bcast_S_S4x9216 main_c_6
  let main_v19 : IVec S4x9216 1 := cmpi .slt main_arg0 main_v18
  let main_c_7 : IVec S_ 1 := constantI S_ 1 1#1
  let main_v20 : IVec S_ 1 := (fun x v => Host.reduce IntOp.andi x v reducesTo_S4x9216_S_d0_1 h_S_) main_v19 main_c_7
  let main_v21 : IVec S_ 1 := andi main_v17 main_v20
  main_v21

def fn {F : FTy → Type} [FloatOps F] (main_arg0 : IVec S4x9216 32) (main_arg1 : FVec F S4x64x96x96 .f32) (main_arg2 : FVec F S4x64x192x192 .f32) (main_arg3 : FVec F S4x128x96x96 .f32) : IVec S_ 1 :=
  let main_v0 : FVec F S4x64x96x96 .f32 := Host.absf main_arg1
  let main_cst : FVec F S_ .f32 := constant S_ .f32 0x7F800000#32
  let main_v1 : FVec F S4x64x96x96 .f32 := broadcastInDim S4x64x96x96 ![] bcast_S_S4x64x96x96 main_cst
  let main_v2 : IVec S4x64x96x96 1 := cmpf .olt main_v0 main_v1
  let main_c : IVec S_ 1 := constantI S_ 1 1#1
  let main_v3 : IVec S_ 1 := (fun x v => Host.reduce IntOp.andi x v reducesTo_S4x64x96x96_S_d0_1_2_3 h_S_) main_v2 main_c
  let main_v4 : FVec F S4x64x192x192 .f32 := Host.absf main_arg2
  let main_cst_0 : FVec F S_ .f32 := constant S_ .f32 0x7F800000#32
  let main_v5 : FVec F S4x64x192x192 .f32 := broadcastInDim S4x64x192x192 ![] bcast_S_S4x64x192x192 main_cst_0
  let main_v6 : IVec S4x64x192x192 1 := cmpf .olt main_v4 main_v5
  let main_c_1 : IVec S_ 1 := constantI S_ 1 1#1
  let main_v7 : IVec S_ 1 := (fun x v => Host.reduce IntOp.andi x v reducesTo_S4x64x192x192_S_d0_1_2_3 h_S_) main_v6 main_c_1
  let main_v8 : IVec S_ 1 := andi main_v3 main_v7
  let main_v9 : FVec F S4x128x96x96 .f32 := Host.absf main_arg3
  let main_cst_2 : FVec F S_ .f32 := constant S_ .f32 0x7F800000#32
  let main_v10 : FVec F S4x128x96x96 .f32 := broadcastInDim S4x128x96x96 ![] bcast_S_S4x128x96x96 main_cst_2
  let main_v11 : IVec S4x128x96x96 1 := cmpf .olt main_v9 main_v10
  let main_c_3 : IVec S_ 1 := constantI S_ 1 1#1
  let main_v12 : IVec S_ 1 := (fun x v => Host.reduce IntOp.andi x v reducesTo_S4x128x96x96_S_d0_1_2_3 h_S_) main_v11 main_c_3
  let main_v13 : IVec S_ 1 := andi main_v8 main_v12
  let main_c_4 : IVec S_ 32 := constantI S_ 32 0#32
  let main_v14 : IVec S4x9216 32 := broadcastInDim S4x9216 ![] bcast_S_S4x9216 main_c_4
  let main_v15 : IVec S4x9216 1 := cmpi .sge main_arg0 main_v14
  let main_c_5 : IVec S_ 1 := constantI S_ 1 1#1
  fn_part1 (F := F) main_arg0 main_v13 main_v15 main_c_5
-- ==== Kernel.lean ====
abbrev S4x9216 : Shape := ⟨2, ![4, 9216]⟩
abbrev S4x64x96x96 : Shape := ⟨4, ![4, 64, 96, 96]⟩
abbrev S4x64x192x192 : Shape := ⟨4, ![4, 64, 192, 192]⟩
abbrev S4x128x96x96 : Shape := ⟨4, ![4, 128, 96, 96]⟩
abbrev S_ : Shape := ⟨0, ![]⟩
abbrev S4x128x98x98 : Shape := ⟨4, ![4, 128, 98, 98]⟩
abbrev S96 : Shape := ⟨1, ![96]⟩
abbrev S96x1 : Shape := ⟨2, ![96, 1]⟩
abbrev S3 : Shape := ⟨1, ![3]⟩
abbrev S1x3 : Shape := ⟨2, ![1, 3]⟩
abbrev S96x3 : Shape := ⟨2, ![96, 3]⟩
abbrev S96x3x1 : Shape := ⟨3, ![96, 3, 1]⟩
abbrev S4x128x96x3x98 : Shape := ⟨5, ![4, 128, 96, 3, 98]⟩
abbrev S4x128x96x3x96x3 : Shape := ⟨6, ![4, 128, 96, 3, 96, 3]⟩
abbrev S4x128x3x3x96x96 : Shape := ⟨6, ![4, 128, 3, 3, 96, 96]⟩
abbrev S4x1152x9216 : Shape := ⟨3, ![4, 1152, 9216]⟩
abbrev S4x64x196x196 : Shape := ⟨4, ![4, 64, 196, 196]⟩
abbrev S6 : Shape := ⟨1, ![6]⟩
abbrev S1x6 : Shape := ⟨2, ![1, 6]⟩
abbrev S96x6 : Shape := ⟨2, ![96, 6]⟩
abbrev S96x6x1 : Shape := ⟨3, ![96, 6, 1]⟩
abbrev S4x64x96x6x196 : Shape := ⟨5, ![4, 64, 96, 6, 196]⟩
abbrev S4x64x96x6x96x6 : Shape := ⟨6, ![4, 64, 96, 6, 96, 6]⟩
abbrev S4x64x6x6x96x96 : Shape := ⟨6, ![4, 64, 6, 6, 96, 96]⟩
abbrev S4x2304x9216 : Shape := ⟨3, ![4, 2304, 9216]⟩
abbrev S4x1x9216 : Shape := ⟨3, ![4, 1, 9216]⟩
abbrev S1x1152x2304 : Shape := ⟨3, ![1, 1152, 2304]⟩
abbrev S1x1x1152 : Shape := ⟨3, ![1, 1, 1152]⟩
abbrev S1x1152x1152 : Shape := ⟨3, ![1, 1152, 1152]⟩
abbrev S1152x1152 : Shape := ⟨2, ![1152, 1152]⟩
abbrev S1152 : Shape := ⟨1, ![1152]⟩
abbrev S2304x1152 : Shape := ⟨2, ![2304, 1152]⟩
abbrev S1x1152 : Shape := ⟨2, ![1, 1152]⟩
abbrev S1152x2304 : Shape := ⟨2, ![1152, 2304]⟩
abbrev S96x3x1x1 : Shape := ⟨4, ![96, 3, 1, 1]⟩
abbrev S1x1x96x3 : Shape := ⟨4, ![1, 1, 96, 3]⟩
abbrev S96x3x96x3 : Shape := ⟨4, ![96, 3, 96, 3]⟩
abbrev S96x3x96x3x1 : Shape := ⟨5, ![96, 3, 96, 3, 1]⟩
abbrev S96x3x96x3x2 : Shape := ⟨5, ![96, 3, 96, 3, 2]⟩
abbrev S96x6x1x1 : Shape := ⟨4, ![96, 6, 1, 1]⟩
abbrev S1x1x96x6 : Shape := ⟨4, ![1, 1, 96, 6]⟩
abbrev S96x6x96x6 : Shape := ⟨4, ![96, 6, 96, 6]⟩
abbrev S96x6x96x6x1 : Shape := ⟨5, ![96, 6, 96, 6, 1]⟩
abbrev S96x6x96x6x2 : Shape := ⟨5, ![96, 6, 96, 6, 2]⟩

abbrev nBuf : Space → Nat
  | .hbm => 195
  | .vmem => 14
  | .smem => 0
  | _ => 0

abbrev hbmTy0_0 (i : Nat) : BufTy := match i % 128 with
  | 0 => ⟨S4x9216, .i32⟩
  | 1 => ⟨S4x64x96x96, .f32⟩
  | 2 => ⟨S4x64x192x192, .f32⟩
  | 3 => ⟨S4x128x96x96, .f32⟩
  | 4 => ⟨S_, .i32⟩
  | 5 => ⟨S_, .f32⟩
  | 6 => ⟨S4x128x98x98, .f32⟩
  | 7 => ⟨S96, .i32⟩
  | 8 => ⟨S_, .i32⟩
  | 9 => ⟨S96, .i32⟩
  | 10 => ⟨S96, .i32⟩
  | 11 => ⟨S96x1, .i32⟩
  | 12 => ⟨S3, .i32⟩
  | 13 => ⟨S1x3, .i32⟩
  | 14 => ⟨S96x3, .i32⟩
  | 15 => ⟨S96x3, .i32⟩
  | 16 => ⟨S96x3, .i32⟩
  | 17 => ⟨S96, .i32⟩
  | 18 => ⟨S_, .i32⟩
  | 19 => ⟨S96, .i32⟩
  | 20 => ⟨S96, .i32⟩
  | 21 => ⟨S96x1, .i32⟩
  | 22 => ⟨S3, .i32⟩
  | 23 => ⟨S1x3, .i32⟩
  | 24 => ⟨S96x3, .i32⟩
  | 25 => ⟨S96x3, .i32⟩
  | 26 => ⟨S96x3, .i32⟩
  | 27 => ⟨S_, .i32⟩
  | 28 => ⟨S96x3, .i32⟩
  | 29 => ⟨S96x3, .i1⟩
  | 30 => ⟨S_, .i32⟩
  | 31 => ⟨S96x3, .i32⟩
  | 32 => ⟨S96x3, .i32⟩
  | 33 => ⟨S96x3, .i32⟩
  | 34 => ⟨S96x3x1, .i32⟩
  | 35 => ⟨S4x128x96x3x98, .f32⟩
  | 36 => ⟨S_, .i32⟩
  | 37 => ⟨S96x3, .i32⟩
  | 38 => ⟨S96x3, .i1⟩
  | 39 => ⟨S_, .i32⟩
  | 40 => ⟨S96x3, .i32⟩
  | 41 => ⟨S96x3, .i32⟩
  | 42 => ⟨S96x3, .i32⟩
  | 43 => ⟨S96x3x1, .i32⟩
  | 44 => ⟨S4x128x96x3x96x3, .f32⟩
  | 45 => ⟨S4x128x3x3x96x96, .f32⟩
  | 46 => ⟨S4x1152x9216, .f32⟩
  | 47 => ⟨S_, .i32⟩
  | 48 => ⟨S_, .f32⟩
  | 49 => ⟨S4x64x196x196, .f32⟩
  | 50 => ⟨S96, .i32⟩
  | 51 => ⟨S_, .i32⟩
  | 52 => ⟨S96, .i32⟩
  | 53 => ⟨S96, .i32⟩
  | 54 => ⟨S96x1, .i32⟩
  | 55 => ⟨S6, .i32⟩
  | 56 => ⟨S1x6, .i32⟩
  | 57 => ⟨S96x6, .i32⟩
  | 58 => ⟨S96x6, .i32⟩
  | 59 => ⟨S96x6, .i32⟩
  | 60 => ⟨S96, .i32⟩
  | 61 => ⟨S_, .i32⟩
  | 62 => ⟨S96, .i32⟩
  | 63 => ⟨S96, .i32⟩
  | 64 => ⟨S96x1, .i32⟩
  | 65 => ⟨S6, .i32⟩
  | 66 => ⟨S1x6, .i32⟩
  | 67 => ⟨S96x6, .i32⟩
  | 68 => ⟨S96x6, .i32⟩
  | 69 => ⟨S96x6, .i32⟩
  | 70 => ⟨S_, .i32⟩
  | 71 => ⟨S96x6, .i32⟩
  | 72 => ⟨S96x6, .i1⟩
  | 73 => ⟨S_, .i32⟩
  | 74 => ⟨S96x6, .i32⟩
  | 75 => ⟨S96x6, .i32⟩
  | 76 => ⟨S96x6, .i32⟩
  | 77 => ⟨S96x6x1, .i32⟩
  | 78 => ⟨S4x64x96x6x196, .f32⟩
  | 79 => ⟨S_, .i32⟩
  | 80 => ⟨S96x6, .i32⟩
  | 81 => ⟨S96x6, .i1⟩
  | 82 => ⟨S_, .i32⟩
  | 83 => ⟨S96x6, .i32⟩
  | 84 => ⟨S96x6, .i32⟩
  | 85 => ⟨S96x6, .i32⟩
  | 86 => ⟨S96x6x1, .i32⟩
  | 87 => ⟨S4x64x96x6x96x6, .f32⟩
  | 88 => ⟨S4x64x6x6x96x96, .f32⟩
  | 89 => ⟨S4x2304x9216, .f32⟩
  | 90 => ⟨S4x1152x9216, .bf16⟩
  | 91 => ⟨S4x2304x9216, .bf16⟩
  | 92 => ⟨S4x1x9216, .i32⟩
  | 93 => ⟨S4x1152x9216, .f32⟩
  | 94 => ⟨S4x2304x9216, .f32⟩
  | 95 => ⟨S4x128x3x3x96x96, .f32⟩
  | 96 => ⟨S4x128x96x3x96x3, .f32⟩
  | 97 => ⟨S96, .i32⟩
  | 98 => ⟨S_, .i32⟩
  | 99 => ⟨S96, .i32⟩
  | 100 => ⟨S96, .i32⟩
  | 101 => ⟨S96x1, .i32⟩
  | 102 => ⟨S3, .i32⟩
  | 103 => ⟨S1x3, .i32⟩
  | 104 => ⟨S96x3, .i32⟩
  | 105 => ⟨S96x3, .i32⟩
  | 106 => ⟨S96x3, .i32⟩
  | 107 => ⟨S96, .i32⟩
  | 108 => ⟨S_, .i32⟩
  | 109 => ⟨S96, .i32⟩
  | 110 => ⟨S96, .i32⟩
  | 111 => ⟨S96x1, .i32⟩
  | 112 => ⟨S3, .i32⟩
  | 113 => ⟨S1x3, .i32⟩
  | 114 => ⟨S96x3, .i32⟩
  | 115 => ⟨S96x3, .i32⟩
  | 116 => ⟨S96x3, .i32⟩
  | 117 => ⟨S_, .f32⟩
  | 118 => ⟨S4x128x98x98, .f32⟩
  | 119 => ⟨S96x3x1x1, .i32⟩
  | 120 => ⟨S1x1x96x3, .i32⟩
  | 121 => ⟨S_, .i32⟩
  | 122 => ⟨S96x3x1x1, .i32⟩
  | 123 => ⟨S96x3x1x1, .i1⟩
  | 124 => ⟨S_, .i32⟩
  | 125 => ⟨S96x3x1x1, .i32⟩
  | 126 => ⟨S96x3x1x1, .i32⟩
  | 127 => ⟨S96x3x1x1, .i32⟩
  | _ => ⟨S4x9216, .i32⟩

abbrev hbmTy0_1 (i : Nat) : BufTy := match i % 128 with
  | 0 => ⟨S_, .i32⟩
  | 1 => ⟨S1x1x96x3, .i32⟩
  | 2 => ⟨S1x1x96x3, .i1⟩
  | 3 => ⟨S_, .i32⟩
  | 4 => ⟨S1x1x96x3, .i32⟩
  | 5 => ⟨S1x1x96x3, .i32⟩
  | 6 => ⟨S1x1x96x3, .i32⟩
  | 7 => ⟨S96x3x96x3, .i32⟩
  | 8 => ⟨S96x3x96x3, .i32⟩
  | 9 => ⟨S96x3x96x3x1, .i32⟩
  | 10 => ⟨S96x3x96x3x1, .i32⟩
  | 11 => ⟨S96x3x96x3x2, .i32⟩
  | 12 => ⟨S4x128x98x98, .f32⟩
  | 13 => ⟨S4x128x96x96, .f32⟩
  | 14 => ⟨S_, .f32⟩
  | 15 => ⟨S4x128x96x96, .f32⟩
  | 16 => ⟨S4x128x96x96, .f32⟩
  | 17 => ⟨S4x64x6x6x96x96, .f32⟩
  | 18 => ⟨S4x64x96x6x96x6, .f32⟩
  | 19 => ⟨S96, .i32⟩
  | 20 => ⟨S_, .i32⟩
  | 21 => ⟨S96, .i32⟩
  | 22 => ⟨S96, .i32⟩
  | 23 => ⟨S96x1, .i32⟩
  | 24 => ⟨S6, .i32⟩
  | 25 => ⟨S1x6, .i32⟩
  | 26 => ⟨S96x6, .i32⟩
  | 27 => ⟨S96x6, .i32⟩
  | 28 => ⟨S96x6, .i32⟩
  | 29 => ⟨S96, .i32⟩
  | 30 => ⟨S_, .i32⟩
  | 31 => ⟨S96, .i32⟩
  | 32 => ⟨S96, .i32⟩
  | 33 => ⟨S96x1, .i32⟩
  | 34 => ⟨S6, .i32⟩
  | 35 => ⟨S1x6, .i32⟩
  | 36 => ⟨S96x6, .i32⟩
  | 37 => ⟨S96x6, .i32⟩
  | 38 => ⟨S96x6, .i32⟩
  | 39 => ⟨S_, .f32⟩
  | 40 => ⟨S4x64x196x196, .f32⟩
  | 41 => ⟨S96x6x1x1, .i32⟩
  | 42 => ⟨S1x1x96x6, .i32⟩
  | 43 => ⟨S_, .i32⟩
  | 44 => ⟨S96x6x1x1, .i32⟩
  | 45 => ⟨S96x6x1x1, .i1⟩
  | 46 => ⟨S_, .i32⟩
  | 47 => ⟨S96x6x1x1, .i32⟩
  | 48 => ⟨S96x6x1x1, .i32⟩
  | 49 => ⟨S96x6x1x1, .i32⟩
  | 50 => ⟨S_, .i32⟩
  | 51 => ⟨S1x1x96x6, .i32⟩
  | 52 => ⟨S1x1x96x6, .i1⟩
  | 53 => ⟨S_, .i32⟩
  | 54 => ⟨S1x1x96x6, .i32⟩
  | 55 => ⟨S1x1x96x6, .i32⟩
  | 56 => ⟨S1x1x96x6, .i32⟩
  | 57 => ⟨S96x6x96x6, .i32⟩
  | 58 => ⟨S96x6x96x6, .i32⟩
  | 59 => ⟨S96x6x96x6x1, .i32⟩
  | 60 => ⟨S96x6x96x6x1, .i32⟩
  | 61 => ⟨S96x6x96x6x2, .i32⟩
  | 62 => ⟨S4x64x196x196, .f32⟩
  | 63 => ⟨S4x64x192x192, .f32⟩
  | 64 => ⟨S_, .f32⟩
  | 65 => ⟨S4x64x192x192, .f32⟩
  | 66 => ⟨S4x64x192x192, .f32⟩
  | _ => ⟨S4x9216, .i32⟩

abbrev hbmTy (i : Nat) : BufTy := match i / 128 with
  | 0 => hbmTy0_0 i
  | 1 => hbmTy0_1 i
  | _ => ⟨S4x9216, .i32⟩

abbrev bufTy : (tb : Table) → Fin (tcTables nBuf tb) → BufTy
  | .hbm, ⟨i, _⟩ => hbmTy i
  | .local _ .vmem, ⟨0, _⟩ => ⟨S1x1152x2304, .bf16⟩
  | .local _ .vmem, ⟨1, _⟩ => ⟨S1x1152x2304, .bf16⟩
  | .local _ .vmem, ⟨2, _⟩ => ⟨S1x1x1152, .i32⟩
  | .local _ .vmem, ⟨3, _⟩ => ⟨S1x1x1152, .i32⟩
  | .local _ .vmem, ⟨4, _⟩ => ⟨S1x1152x1152, .f32⟩
  | .local _ .vmem, ⟨5, _⟩ => ⟨S1x1152x1152, .f32⟩
  | .local _ .vmem, ⟨6, _⟩ => ⟨S1152x1152, .f32⟩
  | .local _ .vmem, ⟨7, _⟩ => ⟨S1x1152x2304, .bf16⟩
  | .local _ .vmem, ⟨8, _⟩ => ⟨S1x1152x2304, .bf16⟩
  | .local _ .vmem, ⟨9, _⟩ => ⟨S1x1x1152, .i32⟩
  | .local _ .vmem, ⟨10, _⟩ => ⟨S1x1x1152, .i32⟩
  | .local _ .vmem, ⟨11, _⟩ => ⟨S1x1152x1152, .f32⟩
  | .local _ .vmem, ⟨12, _⟩ => ⟨S1x1152x1152, .f32⟩
  | .local _ .vmem, ⟨13, _⟩ => ⟨S1152x1152, .f32⟩
  | _, _ => ⟨S4x9216, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_call1_v0 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_11 : Ref sig .tc := ⟨.hbm, 79, rfl⟩
abbrev main_v61 : Ref sig .tc := ⟨.hbm, 80, rfl⟩
abbrev main_v62 : Ref sig .tc := ⟨.hbm, 81, rfl⟩
abbrev main_c_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_13 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_14 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_c_15 : Ref sig .tc := ⟨.hbm, 121, rfl⟩
abbrev main_v98 : Ref sig .tc := ⟨.hbm, 122, rfl⟩
abbrev main_v99 : Ref sig .tc := ⟨.hbm, 123, rfl⟩
abbrev main_c_16 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_17 : Ref sig .tc := ⟨.hbm, 128, rfl⟩
abbrev main_v103 : Ref sig .tc := ⟨.hbm, 129, rfl⟩
abbrev main_v104 : Ref sig .tc := ⟨.hbm, 130, rfl⟩
abbrev main_c_18 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_19 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_20 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_c_21 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_22 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_c_23 : Ref sig .tc := ⟨.hbm, 171, rfl⟩
abbrev main_v140 : Ref sig .tc := ⟨.hbm, 172, rfl⟩
abbrev main_v141 : Ref sig .tc := ⟨.hbm, 173, rfl⟩
abbrev main_c_24 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_c_25 : Ref sig .tc := ⟨.hbm, 178, rfl⟩
abbrev main_v145 : Ref sig .tc := ⟨.hbm, 179, rfl⟩
abbrev main_v146 : Ref sig .tc := ⟨.hbm, 180, rfl⟩
abbrev main_c_26 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_27 : Ref sig .tc := ⟨.hbm, 192, rfl⟩
abbrev main_v157 : Ref sig .tc := ⟨.hbm, 193, rfl⟩
abbrev main_v158 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨4, ![4, 1, 8, 4], ![false, false, false, false]⟩

def k0_cond2 (i : grid0.Coords) : BitVec 1 :=
  let arg3 : BitVec 32 := BitVec.ofNat 32 (i 3).val
  let c3_i32 : BitVec 32 := 3#32
  let v24 : BitVec 1 := Scalar.cmpi .eq arg3 c3_i32
  let v25 : BitVec 32 := Scalar.extui v24
  let c0_i32_10 : BitVec 32 := 0#32
  let v26 : BitVec 1 := Scalar.cmpi .ne v25 c0_i32_10
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1152x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1152 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x1152x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev grid1 : Pipeline.Grid := ⟨4, ![4, 2, 8, 4], ![false, false, false, false]⟩

def k1_cond2 (i : grid1.Coords) : BitVec 1 :=
  let arg3 : BitVec 32 := BitVec.ofNat 32 (i 3).val
  let c3_i32 : BitVec 32 := 3#32
  let v24 : BitVec 1 := Scalar.cmpi .eq arg3 c3_i32
  let v25 : BitVec 32 := Scalar.extui v24
  let c0_i32_10 : BitVec 32 := 0#32
  let v26 : BitVec 1 := Scalar.cmpi .ne v25 c0_i32_10
  v26

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x1152x2304 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false, true]

abbrev stage1_1 : Fin 2 → Memref sig .tc .vmem S1x1x1152 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, false]

abbrev stage1_2 : Fin 2 → Memref sig .tc .vmem S1x1152x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

class Facts₀ : Prop where
  pads_S4x128x96x96_S4x128x98x98_000_000_110_110 : S4x128x96x96.Pads (![0, 0, 1, 1] : Fin 4 → Nat) ![0, 0, 1, 1] ![0, 0, 0, 0] S4x128x98x98
  h_S_ : 0 < S_.numel
  bcast_S_S96 : S_.BroadcastsInDim S96 (![] : Fin 0 → Fin S96.rank)
  bcast_S96_S96x1_0 : S96.BroadcastsInDim S96x1 (![0] : Fin 1 → Fin S96x1.rank)
  bcast_S3_S1x3_1 : S3.BroadcastsInDim S1x3 (![1] : Fin 1 → Fin S1x3.rank)
  bcast_S96x1_S96x3_0_1 : S96x1.BroadcastsInDim S96x3 (![0, 1] : Fin 2 → Fin S96x3.rank)
  bcast_S1x3_S96x3_0_1 : S1x3.BroadcastsInDim S96x3 (![0, 1] : Fin 2 → Fin S96x3.rank)
  bcast_S_S96x3 : S_.BroadcastsInDim S96x3 (![] : Fin 0 → Fin S96x3.rank)
  bcast_S96x3_S96x3x1_0_1 : S96x3.BroadcastsInDim S96x3x1 (![0, 1] : Fin 2 → Fin S96x3x1.rank)
  transposes_S4x128x96x3x96x3_S4x128x3x3x96x96_0_1_3_5_2_4 : S4x128x96x3x96x3.Transposes [0, 1, 3, 5, 2, 4] S4x128x3x3x96x96
  shapeCasts_S4x128x3x3x96x96_S4x1152x9216 : S4x128x3x3x96x96.ShapeCasts S4x1152x9216
  pads_S4x64x192x192_S4x64x196x196_000_000_220_220 : S4x64x192x192.Pads (![0, 0, 2, 2] : Fin 4 → Nat) ![0, 0, 2, 2] ![0, 0, 0, 0] S4x64x196x196
  bcast_S6_S1x6_1 : S6.BroadcastsInDim S1x6 (![1] : Fin 1 → Fin S1x6.rank)
  bcast_S96x1_S96x6_0_1 : S96x1.BroadcastsInDim S96x6 (![0, 1] : Fin 2 → Fin S96x6.rank)
  bcast_S1x6_S96x6_0_1 : S1x6.BroadcastsInDim S96x6 (![0, 1] : Fin 2 → Fin S96x6.rank)
  bcast_S_S96x6 : S_.BroadcastsInDim S96x6 (![] : Fin 0 → Fin S96x6.rank)
  bcast_S96x6_S96x6x1_0_1 : S96x6.BroadcastsInDim S96x6x1 (![0, 1] : Fin 2 → Fin S96x6x1.rank)
  transposes_S4x64x96x6x96x6_S4x64x6x6x96x96_0_1_3_5_2_4 : S4x64x96x6x96x6.Transposes [0, 1, 3, 5, 2, 4] S4x64x6x6x96x96
  shapeCasts_S4x64x6x6x96x96_S4x2304x9216 : S4x64x6x6x96x96.ShapeCasts S4x2304x9216
  bitsLt_bf16_f32 : FTy.bits .bf16 < FTy.bits .f32
  bcast_S4x9216_S4x1x9216_0_2 : S4x9216.BroadcastsInDim S4x1x9216 (![0, 2] : Fin 2 → Fin S4x1x9216.rank)
  inb_S1152x1152_S1152x1152_0_0 : ∀ a, (![0, 0] : Fin 2 → Nat) a + S1152x1152.size a ≤ S1152x1152.size a
  h_S1152x1152 : 0 < S1152x1152.numel
  shapeCasts_S1152x1152_S1152x1152 : S1152x1152.ShapeCasts S1152x1152
  inb_S1x1x1152_S1x1x1152_0_0_0 : ∀ a, (![0, 0, 0] : Fin 3 → Nat) a + S1x1x1152.size a ≤ S1x1x1152.size a
  h_S1x1x1152 : 0 < S1x1x1152.numel
  shapeCasts_S1x1x1152_S1152 : S1x1x1152.ShapeCasts S1152
  iota_S2304x1152_d0_w32 : S2304x1152.Iotas .tc 32 [0]
  shapeCasts_S1152_S1x1152 : S1152.ShapeCasts S1x1152
  shapeCasts_S1x1152_S1x1152 : S1x1152.ShapeCasts S1x1152
  broadcasts_S1x1152_S2304x1152 : S1x1152.Broadcasts S2304x1152
  natLt_1_32 : 1 < 32
  inb_S1x1152x2304_S1x1152x2304_0_0_0 : ∀ a, (![0, 0, 0] : Fin 3 → Nat) a + S1x1152x2304.size a ≤ S1x1152x2304.size a
  h_S1x1152x2304 : 0 < S1x1152x2304.numel
  shapeCasts_S1x1152x2304_S1152x2304 : S1x1152x2304.ShapeCasts S1152x2304
  inb_S1x1152x1152_S1x1152x1152_0_0_0 : ∀ a, (![0, 0, 0] : Fin 3 → Nat) a + S1x1152x1152.size a ≤ S1x1152x1152.size a
  h_S1x1152x1152 : 0 < S1x1152x1152.numel
  shapeCasts_S1x1152x1152_S1152x1152 : S1x1152x1152.ShapeCasts S1152x1152
  shapeCasts_S1152x1152_S1x1152x1152 : S1152x1152.ShapeCasts S1x1152x1152
  shapeCasts_S4x1152x9216_S4x128x3x3x96x96 : S4x1152x9216.ShapeCasts S4x128x3x3x96x96
  transposes_S4x128x3x3x96x96_S4x128x96x3x96x3_0_1_4_2_5_3 : S4x128x3x3x96x96.Transposes [0, 1, 4, 2, 5, 3] S4x128x96x3x96x3
  bcast_S_S4x128x98x98 : S_.BroadcastsInDim S4x128x98x98 (![] : Fin 0 → Fin S4x128x98x98.rank)
  bcast_S96x3_S96x3x1x1_0_1 : S96x3.BroadcastsInDim S96x3x1x1 (![0, 1] : Fin 2 → Fin S96x3x1x1.rank)
  bcast_S96x3_S1x1x96x3_2_3 : S96x3.BroadcastsInDim S1x1x96x3 (![2, 3] : Fin 2 → Fin S1x1x96x3.rank)
  bcast_S_S96x3x1x1 : S_.BroadcastsInDim S96x3x1x1 (![] : Fin 0 → Fin S96x3x1x1.rank)
  bcast_S_S1x1x96x3 : S_.BroadcastsInDim S1x1x96x3 (![] : Fin 0 → Fin S1x1x96x3.rank)
  bcast_S96x3x1x1_S96x3x96x3_0_1_2_3 : S96x3x1x1.BroadcastsInDim S96x3x96x3 (![0, 1, 2, 3] : Fin 4 → Fin S96x3x96x3.rank)
  bcast_S1x1x96x3_S96x3x96x3_0_1_2_3 : S1x1x96x3.BroadcastsInDim S96x3x96x3 (![0, 1, 2, 3] : Fin 4 → Fin S96x3x96x3.rank)
  bcast_S96x3x96x3_S96x3x96x3x1_0_1_2_3 : S96x3x96x3.BroadcastsInDim S96x3x96x3x1 (![0, 1, 2, 3] : Fin 4 → Fin S96x3x96x3x1.rank)
  concatenates_S96x3x96x3x1_S96x3x96x3x1_S96x3x96x3x2_d4 : Shape.Concatenates [S96x3x96x3x1, S96x3x96x3x1] S96x3x96x3x2 4
  slices_S4x128x98x98_S4x128x96x96_0_0_1_1 : S4x128x98x98.Slices ![0, 0, 1, 1] S4x128x96x96
  bcast_S_S4x128x96x96 : S_.BroadcastsInDim S4x128x96x96 (![] : Fin 0 → Fin S4x128x96x96.rank)
  shapeCasts_S4x2304x9216_S4x64x6x6x96x96 : S4x2304x9216.ShapeCasts S4x64x6x6x96x96
  transposes_S4x64x6x6x96x96_S4x64x96x6x96x6_0_1_4_2_5_3 : S4x64x6x6x96x96.Transposes [0, 1, 4, 2, 5, 3] S4x64x96x6x96x6
  bcast_S_S4x64x196x196 : S_.BroadcastsInDim S4x64x196x196 (![] : Fin 0 → Fin S4x64x196x196.rank)
  bcast_S96x6_S96x6x1x1_0_1 : S96x6.BroadcastsInDim S96x6x1x1 (![0, 1] : Fin 2 → Fin S96x6x1x1.rank)
  bcast_S96x6_S1x1x96x6_2_3 : S96x6.BroadcastsInDim S1x1x96x6 (![2, 3] : Fin 2 → Fin S1x1x96x6.rank)
  bcast_S_S96x6x1x1 : S_.BroadcastsInDim S96x6x1x1 (![] : Fin 0 → Fin S96x6x1x1.rank)
  bcast_S_S1x1x96x6 : S_.BroadcastsInDim S1x1x96x6 (![] : Fin 0 → Fin S1x1x96x6.rank)
  bcast_S96x6x1x1_S96x6x96x6_0_1_2_3 : S96x6x1x1.BroadcastsInDim S96x6x96x6 (![0, 1, 2, 3] : Fin 4 → Fin S96x6x96x6.rank)
  bcast_S1x1x96x6_S96x6x96x6_0_1_2_3 : S1x1x96x6.BroadcastsInDim S96x6x96x6 (![0, 1, 2, 3] : Fin 4 → Fin S96x6x96x6.rank)
  bcast_S96x6x96x6_S96x6x96x6x1_0_1_2_3 : S96x6x96x6.BroadcastsInDim S96x6x96x6x1 (![0, 1, 2, 3] : Fin 4 → Fin S96x6x96x6x1.rank)
  concatenates_S96x6x96x6x1_S96x6x96x6x1_S96x6x96x6x2_d4 : Shape.Concatenates [S96x6x96x6x1, S96x6x96x6x1] S96x6x96x6x2 4
  slices_S4x64x196x196_S4x64x192x192_0_0_2_2 : S4x64x196x196.Slices ![0, 0, 2, 2] S4x64x192x192
  bcast_S_S4x64x192x192 : S_.BroadcastsInDim S4x64x192x192 (![] : Fin 0 → Fin S4x64x192x192.rank)
  gather_S4x128x98x98_S96x3x1_S4x128x96x3x98_014_2_n_n_2_2_4128198_wf : GatherDims.WF S4x128x98x98 S96x3x1 S4x128x96x3x98 [0, 1, 4] [2] [] [2] [] 2 ![4, 128, 1, 98]
  gather_S4x128x96x3x98_S96x3x1_S4x128x96x3x96x3_0123_4_n_n_4_2_41289631_wf : GatherDims.WF S4x128x96x3x98 S96x3x1 S4x128x96x3x96x3 [0, 1, 2, 3] [4] [] [4] [] 2 ![4, 128, 96, 3, 1]
  gather_S4x64x196x196_S96x6x1_S4x64x96x6x196_014_2_n_n_2_2_4641196_wf : GatherDims.WF S4x64x196x196 S96x6x1 S4x64x96x6x196 [0, 1, 4] [2] [] [2] [] 2 ![4, 64, 1, 196]
  gather_S4x64x96x6x196_S96x6x1_S4x64x96x6x96x6_0123_4_n_n_4_2_4649661_wf : GatherDims.WF S4x64x96x6x196 S96x6x1 S4x64x96x6x96x6 [0, 1, 2, 3] [4] [] [4] [] 2 ![4, 64, 96, 6, 1]
  dot_S1152x2304_S2304x1152_S1152x1152_1_0_0_1_n_n_wf : DotDims.WF S1152x2304 S2304x1152 S1152x1152 [1] [0] [0] [1] [] []
  scatter_S4x128x98x98_S96x3x96x3x2_S4x128x96x3x96x3_01_23_23_4_wf : ScatterDims.WF S4x128x98x98 S96x3x96x3x2 S4x128x96x3x96x3 [0, 1] [2, 3] [2, 3] 4
  scatter_S4x64x196x196_S96x6x96x6x2_S4x64x96x6x96x6_01_23_23_4_wf : ScatterDims.WF S4x64x196x196 S96x6x96x6x2 S4x64x96x6x96x6 [0, 1] [2, 3] [2, 3] 4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1152x2304.size a ≤ S4x1152x9216.size a
  hwx0_0 : ∀ i : grid0.Coords, EltTy.bits .bf16 = 32 ∨ (Rect.block (s := S4x1152x9216) S1x1152x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1152.size a ≤ S4x1x9216.size a
  hwx0_1 : ∀ i : grid0.Coords, EltTy.bits .i32 = 32 ∨ (Rect.block (s := S4x1x9216) S1x1x1152.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1152x1152.size a ≤ S4x1152x9216.size a
  hwx0_2 : ∀ i : grid0.Coords, EltTy.bits .f32 = 32 ∨ (Rect.block (s := S4x1152x9216) S1x1152x1152.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1152x2304.size a ≤ S4x2304x9216.size a
  hwx1_0 : ∀ i : grid1.Coords, EltTy.bits .bf16 = 32 ∨ (Rect.block (s := S4x2304x9216) S1x1152x2304.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1152.size a ≤ S4x1x9216.size a
  hwx1_1 : ∀ i : grid1.Coords, EltTy.bits .i32 = 32 ∨ (Rect.block (s := S4x1x9216) S1x1x1152.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1152x1152.size a ≤ S4x2304x9216.size a
  hwx1_2 : ∀ i : grid1.Coords, EltTy.bits .f32 = 32 ∨ (Rect.block (s := S4x2304x9216) S1x1152x1152.size (cc1_transform_2 i) (hinb1_2 i)).WholeWords (EltTy.packing .f32)

variable [Facts₀]

def gather_S4x128x98x98_S96x3x1_S4x128x96x3x98_014_2_n_n_2_2_4128198 : GatherDims S4x128x98x98 S96x3x1 S4x128x96x3x98 where
  offsetDims := [0, 1, 4]
  collapsedSliceDims := [2]
  operandBatchingDims := []
  startIndicesBatchingDims := []
  startIndexMap := [2]
  indexVectorDim := 2
  sliceSizes := ![4, 128, 1, 98]
  wf := gather_S4x128x98x98_S96x3x1_S4x128x96x3x98_014_2_n_n_2_2_4128198_wf
def gather_S4x128x96x3x98_S96x3x1_S4x128x96x3x96x3_0123_4_n_n_4_2_41289631 : GatherDims S4x128x96x3x98 S96x3x1 S4x128x96x3x96x3 where
  offsetDims := [0, 1, 2, 3]
  collapsedSliceDims := [4]
  operandBatchingDims := []
  startIndicesBatchingDims := []
  startIndexMap := [4]
  indexVectorDim := 2
  sliceSizes := ![4, 128, 96, 3, 1]
  wf := gather_S4x128x96x3x98_S96x3x1_S4x128x96x3x96x3_0123_4_n_n_4_2_41289631_wf
def gather_S4x64x196x196_S96x6x1_S4x64x96x6x196_014_2_n_n_2_2_4641196 : GatherDims S4x64x196x196 S96x6x1 S4x64x96x6x196 where
  offsetDims := [0, 1, 4]
  collapsedSliceDims := [2]
  operandBatchingDims := []
  startIndicesBatchingDims := []
  startIndexMap := [2]
  indexVectorDim := 2
  sliceSizes := ![4, 64, 1, 196]
  wf := gather_S4x64x196x196_S96x6x1_S4x64x96x6x196_014_2_n_n_2_2_4641196_wf
def gather_S4x64x96x6x196_S96x6x1_S4x64x96x6x96x6_0123_4_n_n_4_2_4649661 : GatherDims S4x64x96x6x196 S96x6x1 S4x64x96x6x96x6 where
  offsetDims := [0, 1, 2, 3]
  collapsedSliceDims := [4]
  operandBatchingDims := []
  startIndicesBatchingDims := []
  startIndexMap := [4]
  indexVectorDim := 2
  sliceSizes := ![4, 64, 96, 6, 1]
  wf := gather_S4x64x96x6x196_S96x6x1_S4x64x96x6x96x6_0123_4_n_n_4_2_4649661_wf
def dot_S1152x2304_S2304x1152_S1152x1152_1_0_0_1_n_n : DotDims S1152x2304 S2304x1152 S1152x1152 where
  lhsContracting := [1]
  rhsContracting := [0]
  lhsNonContracting := [0]
  rhsNonContracting := [1]
  lhsBatch := []
  rhsBatch := []
  wf := dot_S1152x2304_S2304x1152_S1152x1152_1_0_0_1_n_n_wf
def scatter_S4x128x98x98_S96x3x96x3x2_S4x128x96x3x96x3_01_23_23_4 : ScatterDims S4x128x98x98 S96x3x96x3x2 S4x128x96x3x96x3 where
  updateWindowDims := [0, 1]
  insertedWindowDims := [2, 3]
  scatterDimsToOperandDims := [2, 3]
  indexVectorDim := 4
  wf := scatter_S4x128x98x98_S96x3x96x3x2_S4x128x96x3x96x3_01_23_23_4_wf
def scatter_S4x64x196x196_S96x6x96x6x2_S4x64x96x6x96x6_01_23_23_4 : ScatterDims S4x64x196x196 S96x6x96x6x2 S4x64x96x6x96x6 where
  updateWindowDims := [0, 1]
  insertedWindowDims := [2, 3]
  scatterDimsToOperandDims := [2, 3]
  indexVectorDim := 4
  wf := scatter_S4x64x196x196_S96x6x96x6x2_S4x64x96x6x96x6_01_23_23_4_wf

abbrev win0_0 : Pipeline.Window sig grid0 :=
  Pipeline.Window.ofSpec (Memref.whole main_v70) S1x1152x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S1x1x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1x1152x1152.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v71) S1x1152x2304.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S1x1x1152.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x1152x1152.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x9216 : Shape := ⟨2, ![4, 9216]⟩
abbrev S4x64x96x96 : Shape := ⟨4, ![4, 64, 96, 96]⟩
abbrev S4x64x192x192 : Shape := ⟨4, ![4, 64, 192, 192]⟩
abbrev S4x128x96x96 : Shape := ⟨4, ![4, 128, 96, 96]⟩
abbrev S_ : Shape := ⟨0, ![]⟩
abbrev S4x128x98x98 : Shape := ⟨4, ![4, 128, 98, 98]⟩
abbrev S96 : Shape := ⟨1, ![96]⟩
abbrev S96x1 : Shape := ⟨2, ![96, 1]⟩
abbrev S3 : Shape := ⟨1, ![3]⟩
abbrev S1x3 : Shape := ⟨2, ![1, 3]⟩
abbrev S96x3 : Shape := ⟨2, ![96, 3]⟩
abbrev S96x3x1 : Shape := ⟨3, ![96, 3, 1]⟩
abbrev S4x128x96x3x98 : Shape := ⟨5, ![4, 128, 96, 3, 98]⟩
abbrev S4x128x96x3x96x3 : Shape := ⟨6, ![4, 128, 96, 3, 96, 3]⟩
abbrev S4x128x3x3x96x96 : Shape := ⟨6, ![4, 128, 3, 3, 96, 96]⟩
abbrev S4x1152x9216 : Shape := ⟨3, ![4, 1152, 9216]⟩
abbrev S4x64x196x196 : Shape := ⟨4, ![4, 64, 196, 196]⟩
abbrev S6 : Shape := ⟨1, ![6]⟩
abbrev S1x6 : Shape := ⟨2, ![1, 6]⟩
abbrev S96x6 : Shape := ⟨2, ![96, 6]⟩
abbrev S96x6x1 : Shape := ⟨3, ![96, 6, 1]⟩
abbrev S4x64x96x6x196 : Shape := ⟨5, ![4, 64, 96, 6, 196]⟩
abbrev S4x64x96x6x96x6 : Shape := ⟨6, ![4, 64, 96, 6, 96, 6]⟩
abbrev S4x64x6x6x96x96 : Shape := ⟨6, ![4, 64, 6, 6, 96, 96]⟩
abbrev S4x2304x9216 : Shape := ⟨3, ![4, 2304, 9216]⟩
abbrev S4x1x9216 : Shape := ⟨3, ![4, 1, 9216]⟩
abbrev S4x9216x1 : Shape := ⟨3, ![4, 9216, 1]⟩
abbrev S1 : Shape := ⟨1, ![1]⟩
abbrev S1x1x1 : Shape := ⟨3, ![1, 1, 1]⟩
abbrev S96x3x1x1 : Shape := ⟨4, ![96, 3, 1, 1]⟩
abbrev S1x1x96x3 : Shape := ⟨4, ![1, 1, 96, 3]⟩
abbrev S96x3x96x3 : Shape := ⟨4, ![96, 3, 96, 3]⟩
abbrev S96x3x96x3x1 : Shape := ⟨5, ![96, 3, 96, 3, 1]⟩
abbrev S96x3x96x3x2 : Shape := ⟨5, ![96, 3, 96, 3, 2]⟩
abbrev S96x6x1x1 : Shape := ⟨4, ![96, 6, 1, 1]⟩
abbrev S1x1x96x6 : Shape := ⟨4, ![1, 1, 96, 6]⟩
abbrev S96x6x96x6 : Shape := ⟨4, ![96, 6, 96, 6]⟩
abbrev S96x6x96x6x1 : Shape := ⟨5, ![96, 6, 96, 6, 1]⟩
abbrev S96x6x96x6x2 : Shape := ⟨5, ![96, 6, 96, 6, 2]⟩

abbrev nBuf : Space → Nat
  | .hbm => 238
  | .vmem => 0
  | .smem => 0
  | _ => 0

abbrev hbmTy0_0 (i : Nat) : BufTy := match i % 128 with
  | 0 => ⟨S4x9216, .i32⟩
  | 1 => ⟨S4x64x96x96, .f32⟩
  | 2 => ⟨S4x64x192x192, .f32⟩
  | 3 => ⟨S4x128x96x96, .f32⟩
  | 4 => ⟨S_, .i32⟩
  | 5 => ⟨S_, .f32⟩
  | 6 => ⟨S4x128x98x98, .f32⟩
  | 7 => ⟨S96, .i32⟩
  | 8 => ⟨S_, .i32⟩
  | 9 => ⟨S96, .i32⟩
  | 10 => ⟨S96, .i32⟩
  | 11 => ⟨S96x1, .i32⟩
  | 12 => ⟨S3, .i32⟩
  | 13 => ⟨S1x3, .i32⟩
  | 14 => ⟨S96x3, .i32⟩
  | 15 => ⟨S96x3, .i32⟩
  | 16 => ⟨S96x3, .i32⟩
  | 17 => ⟨S96, .i32⟩
  | 18 => ⟨S_, .i32⟩
  | 19 => ⟨S96, .i32⟩
  | 20 => ⟨S96, .i32⟩
  | 21 => ⟨S96x1, .i32⟩
  | 22 => ⟨S3, .i32⟩
  | 23 => ⟨S1x3, .i32⟩
  | 24 => ⟨S96x3, .i32⟩
  | 25 => ⟨S96x3, .i32⟩
  | 26 => ⟨S96x3, .i32⟩
  | 27 => ⟨S_, .i32⟩
  | 28 => ⟨S96x3, .i32⟩
  | 29 => ⟨S96x3, .i1⟩
  | 30 => ⟨S_, .i32⟩
  | 31 => ⟨S96x3, .i32⟩
  | 32 => ⟨S96x3, .i32⟩
  | 33 => ⟨S96x3, .i32⟩
  | 34 => ⟨S96x3x1, .i32⟩
  | 35 => ⟨S4x128x96x3x98, .f32⟩
  | 36 => ⟨S_, .i32⟩
  | 37 => ⟨S96x3, .i32⟩
  | 38 => ⟨S96x3, .i1⟩
  | 39 => ⟨S_, .i32⟩
  | 40 => ⟨S96x3, .i32⟩
  | 41 => ⟨S96x3, .i32⟩
  | 42 => ⟨S96x3, .i32⟩
  | 43 => ⟨S96x3x1, .i32⟩
  | 44 => ⟨S4x128x96x3x96x3, .f32⟩
  | 45 => ⟨S4x128x3x3x96x96, .f32⟩
  | 46 => ⟨S4x1152x9216, .f32⟩
  | 47 => ⟨S_, .i32⟩
  | 48 => ⟨S_, .f32⟩
  | 49 => ⟨S4x64x196x196, .f32⟩
  | 50 => ⟨S96, .i32⟩
  | 51 => ⟨S_, .i32⟩
  | 52 => ⟨S96, .i32⟩
  | 53 => ⟨S96, .i32⟩
  | 54 => ⟨S96x1, .i32⟩
  | 55 => ⟨S6, .i32⟩
  | 56 => ⟨S1x6, .i32⟩
  | 57 => ⟨S96x6, .i32⟩
  | 58 => ⟨S96x6, .i32⟩
  | 59 => ⟨S96x6, .i32⟩
  | 60 => ⟨S96, .i32⟩
  | 61 => ⟨S_, .i32⟩
  | 62 => ⟨S96, .i32⟩
  | 63 => ⟨S96, .i32⟩
  | 64 => ⟨S96x1, .i32⟩
  | 65 => ⟨S6, .i32⟩
  | 66 => ⟨S1x6, .i32⟩
  | 67 => ⟨S96x6, .i32⟩
  | 68 => ⟨S96x6, .i32⟩
  | 69 => ⟨S96x6, .i32⟩
  | 70 => ⟨S_, .i32⟩
  | 71 => ⟨S96x6, .i32⟩
  | 72 => ⟨S96x6, .i1⟩
  | 73 => ⟨S_, .i32⟩
  | 74 => ⟨S96x6, .i32⟩
  | 75 => ⟨S96x6, .i32⟩
  | 76 => ⟨S96x6, .i32⟩
  | 77 => ⟨S96x6x1, .i32⟩
  | 78 => ⟨S4x64x96x6x196, .f32⟩
  | 79 => ⟨S_, .i32⟩
  | 80 => ⟨S96x6, .i32⟩
  | 81 => ⟨S96x6, .i1⟩
  | 82 => ⟨S_, .i32⟩
  | 83 => ⟨S96x6, .i32⟩
  | 84 => ⟨S96x6, .i32⟩
  | 85 => ⟨S96x6, .i32⟩
  | 86 => ⟨S96x6x1, .i32⟩
  | 87 => ⟨S4x64x96x6x96x6, .f32⟩
  | 88 => ⟨S4x64x6x6x96x96, .f32⟩
  | 89 => ⟨S4x2304x9216, .f32⟩
  | 90 => ⟨S4x1x9216, .i32⟩
  | 91 => ⟨S_, .i32⟩
  | 92 => ⟨S4x1x9216, .i32⟩
  | 93 => ⟨S4x1x9216, .i1⟩
  | 94 => ⟨S_, .i32⟩
  | 95 => ⟨S4x1x9216, .i32⟩
  | 96 => ⟨S4x1x9216, .i32⟩
  | 97 => ⟨S4x1x9216, .i32⟩
  | 98 => ⟨S4x9216x1, .i32⟩
  | 99 => ⟨S1, .i32⟩
  | 100 => ⟨S_, .i32⟩
  | 101 => ⟨S4x9216x1, .i32⟩
  | 102 => ⟨S4x9216x1, .i1⟩
  | 103 => ⟨S1x1x1, .i32⟩
  | 104 => ⟨S4x9216x1, .i32⟩
  | 105 => ⟨S4x9216x1, .i1⟩
  | 106 => ⟨S4x9216x1, .i1⟩
  | 107 => ⟨S_, .i1⟩
  | 108 => ⟨S4x9216, .i1⟩
  | 109 => ⟨S4x1152x9216, .f32⟩
  | 110 => ⟨S4x1152x9216, .i1⟩
  | 111 => ⟨S_, .f32⟩
  | 112 => ⟨S4x1152x9216, .f32⟩
  | 113 => ⟨S4x1152x9216, .f32⟩
  | 114 => ⟨S4x1x9216, .i32⟩
  | 115 => ⟨S_, .i32⟩
  | 116 => ⟨S4x1x9216, .i32⟩
  | 117 => ⟨S4x1x9216, .i1⟩
  | 118 => ⟨S_, .i32⟩
  | 119 => ⟨S4x1x9216, .i32⟩
  | 120 => ⟨S4x1x9216, .i32⟩
  | 121 => ⟨S4x1x9216, .i32⟩
  | 122 => ⟨S4x9216x1, .i32⟩
  | 123 => ⟨S1, .i32⟩
  | 124 => ⟨S_, .i32⟩
  | 125 => ⟨S4x9216x1, .i32⟩
  | 126 => ⟨S4x9216x1, .i1⟩
  | 127 => ⟨S1x1x1, .i32⟩
  | _ => ⟨S4x9216, .i32⟩

abbrev hbmTy0_1 (i : Nat) : BufTy := match i % 128 with
  | 0 => ⟨S4x9216x1, .i32⟩
  | 1 => ⟨S4x9216x1, .i1⟩
  | 2 => ⟨S4x9216x1, .i1⟩
  | 3 => ⟨S_, .i1⟩
  | 4 => ⟨S4x9216, .i1⟩
  | 5 => ⟨S4x2304x9216, .f32⟩
  | 6 => ⟨S4x2304x9216, .i1⟩
  | 7 => ⟨S_, .f32⟩
  | 8 => ⟨S4x2304x9216, .f32⟩
  | 9 => ⟨S4x2304x9216, .f32⟩
  | 10 => ⟨S4x128x3x3x96x96, .f32⟩
  | 11 => ⟨S4x128x96x3x96x3, .f32⟩
  | 12 => ⟨S96, .i32⟩
  | 13 => ⟨S_, .i32⟩
  | 14 => ⟨S96, .i32⟩
  | 15 => ⟨S96, .i32⟩
  | 16 => ⟨S96x1, .i32⟩
  | 17 => ⟨S3, .i32⟩
  | 18 => ⟨S1x3, .i32⟩
  | 19 => ⟨S96x3, .i32⟩
  | 20 => ⟨S96x3, .i32⟩
  | 21 => ⟨S96x3, .i32⟩
  | 22 => ⟨S96, .i32⟩
  | 23 => ⟨S_, .i32⟩
  | 24 => ⟨S96, .i32⟩
  | 25 => ⟨S96, .i32⟩
  | 26 => ⟨S96x1, .i32⟩
  | 27 => ⟨S3, .i32⟩
  | 28 => ⟨S1x3, .i32⟩
  | 29 => ⟨S96x3, .i32⟩
  | 30 => ⟨S96x3, .i32⟩
  | 31 => ⟨S96x3, .i32⟩
  | 32 => ⟨S_, .f32⟩
  | 33 => ⟨S4x128x98x98, .f32⟩
  | 34 => ⟨S96x3x1x1, .i32⟩
  | 35 => ⟨S1x1x96x3, .i32⟩
  | 36 => ⟨S_, .i32⟩
  | 37 => ⟨S96x3x1x1, .i32⟩
  | 38 => ⟨S96x3x1x1, .i1⟩
  | 39 => ⟨S_, .i32⟩
  | 40 => ⟨S96x3x1x1, .i32⟩
  | 41 => ⟨S96x3x1x1, .i32⟩
  | 42 => ⟨S96x3x1x1, .i32⟩
  | 43 => ⟨S_, .i32⟩
  | 44 => ⟨S1x1x96x3, .i32⟩
  | 45 => ⟨S1x1x96x3, .i1⟩
  | 46 => ⟨S_, .i32⟩
  | 47 => ⟨S1x1x96x3, .i32⟩
  | 48 => ⟨S1x1x96x3, .i32⟩
  | 49 => ⟨S1x1x96x3, .i32⟩
  | 50 => ⟨S96x3x96x3, .i32⟩
  | 51 => ⟨S96x3x96x3, .i32⟩
  | 52 => ⟨S96x3x96x3x1, .i32⟩
  | 53 => ⟨S96x3x96x3x1, .i32⟩
  | 54 => ⟨S96x3x96x3x2, .i32⟩
  | 55 => ⟨S4x128x98x98, .f32⟩
  | 56 => ⟨S4x128x96x96, .f32⟩
  | 57 => ⟨S_, .f32⟩
  | 58 => ⟨S4x128x96x96, .f32⟩
  | 59 => ⟨S4x128x96x96, .f32⟩
  | 60 => ⟨S4x64x6x6x96x96, .f32⟩
  | 61 => ⟨S4x64x96x6x96x6, .f32⟩
  | 62 => ⟨S96, .i32⟩
  | 63 => ⟨S_, .i32⟩
  | 64 => ⟨S96, .i32⟩
  | 65 => ⟨S96, .i32⟩
  | 66 => ⟨S96x1, .i32⟩
  | 67 => ⟨S6, .i32⟩
  | 68 => ⟨S1x6, .i32⟩
  | 69 => ⟨S96x6, .i32⟩
  | 70 => ⟨S96x6, .i32⟩
  | 71 => ⟨S96x6, .i32⟩
  | 72 => ⟨S96, .i32⟩
  | 73 => ⟨S_, .i32⟩
  | 74 => ⟨S96, .i32⟩
  | 75 => ⟨S96, .i32⟩
  | 76 => ⟨S96x1, .i32⟩
  | 77 => ⟨S6, .i32⟩
  | 78 => ⟨S1x6, .i32⟩
  | 79 => ⟨S96x6, .i32⟩
  | 80 => ⟨S96x6, .i32⟩
  | 81 => ⟨S96x6, .i32⟩
  | 82 => ⟨S_, .f32⟩
  | 83 => ⟨S4x64x196x196, .f32⟩
  | 84 => ⟨S96x6x1x1, .i32⟩
  | 85 => ⟨S1x1x96x6, .i32⟩
  | 86 => ⟨S_, .i32⟩
  | 87 => ⟨S96x6x1x1, .i32⟩
  | 88 => ⟨S96x6x1x1, .i1⟩
  | 89 => ⟨S_, .i32⟩
  | 90 => ⟨S96x6x1x1, .i32⟩
  | 91 => ⟨S96x6x1x1, .i32⟩
  | 92 => ⟨S96x6x1x1, .i32⟩
  | 93 => ⟨S_, .i32⟩
  | 94 => ⟨S1x1x96x6, .i32⟩
  | 95 => ⟨S1x1x96x6, .i1⟩
  | 96 => ⟨S_, .i32⟩
  | 97 => ⟨S1x1x96x6, .i32⟩
  | 98 => ⟨S1x1x96x6, .i32⟩
  | 99 => ⟨S1x1x96x6, .i32⟩
  | 100 => ⟨S96x6x96x6, .i32⟩
  | 101 => ⟨S96x6x96x6, .i32⟩
  | 102 => ⟨S96x6x96x6x1, .i32⟩
  | 103 => ⟨S96x6x96x6x1, .i32⟩
  | 104 => ⟨S96x6x96x6x2, .i32⟩
  | 105 => ⟨S4x64x196x196, .f32⟩
  | 106 => ⟨S4x64x192x192, .f32⟩
  | 107 => ⟨S_, .f32⟩
  | 108 => ⟨S4x64x192x192, .f32⟩
  | 109 => ⟨S4x64x192x192, .f32⟩
  | _ => ⟨S4x9216, .i32⟩

abbrev hbmTy (i : Nat) : BufTy := match i / 128 with
  | 0 => hbmTy0_0 i
  | 1 => hbmTy0_1 i
  | _ => ⟨S4x9216, .i32⟩

abbrev bufTy : (tb : Table) → Fin (tcTables nBuf tb) → BufTy
  | .hbm, ⟨i, _⟩ => hbmTy i
  | _, _ => ⟨S4x9216, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_call1_v0 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_11 : Ref sig .tc := ⟨.hbm, 79, rfl⟩
abbrev main_v61 : Ref sig .tc := ⟨.hbm, 80, rfl⟩
abbrev main_v62 : Ref sig .tc := ⟨.hbm, 81, rfl⟩
abbrev main_c_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v71 : Ref sig .tc := ⟨.hbm, 113, rfl⟩
abbrev main_v72 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_c_13 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_c_14 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_cst : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_c_15 : Ref sig .tc := ⟨.hbm, 164, rfl⟩
abbrev main_v97 : Ref sig .tc := ⟨.hbm, 165, rfl⟩
abbrev main_v98 : Ref sig .tc := ⟨.hbm, 166, rfl⟩
abbrev main_c_16 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_c_17 : Ref sig .tc := ⟨.hbm, 171, rfl⟩
abbrev main_v102 : Ref sig .tc := ⟨.hbm, 172, rfl⟩
abbrev main_v103 : Ref sig .tc := ⟨.hbm, 173, rfl⟩
abbrev main_c_18 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_cst_19 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_c_20 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_c_21 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_cst_22 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_c_23 : Ref sig .tc := ⟨.hbm, 214, rfl⟩
abbrev main_v139 : Ref sig .tc := ⟨.hbm, 215, rfl⟩
abbrev main_v140 : Ref sig .tc := ⟨.hbm, 216, rfl⟩
abbrev main_c_24 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_c_25 : Ref sig .tc := ⟨.hbm, 221, rfl⟩
abbrev main_v144 : Ref sig .tc := ⟨.hbm, 222, rfl⟩
abbrev main_v145 : Ref sig .tc := ⟨.hbm, 223, rfl⟩
abbrev main_c_26 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_cst_27 : Ref sig .tc := ⟨.hbm, 235, rfl⟩
abbrev main_v156 : Ref sig .tc := ⟨.hbm, 236, rfl⟩
abbrev main_v157 : Ref sig .tc := ⟨.hbm, 237, rfl⟩

abbrev nD : Nat := 1
abbrev τ : Topo := Topo.v7x

variable {F : FTy → Type} [FloatOps F]

class Facts₀ : Prop where
  pads_S4x128x96x96_S4x128x98x98_000_000_110_110 : S4x128x96x96.Pads (![0, 0, 1, 1] : Fin 4 → Nat) ![0, 0, 1, 1] ![0, 0, 0, 0] S4x128x98x98
  h_S_ : 0 < S_.numel
  bcast_S_S96 : S_.BroadcastsInDim S96 (![] : Fin 0 → Fin S96.rank)
  bcast_S96_S96x1_0 : S96.BroadcastsInDim S96x1 (![0] : Fin 1 → Fin S96x1.rank)
  bcast_S3_S1x3_1 : S3.BroadcastsInDim S1x3 (![1] : Fin 1 → Fin S1x3.rank)
  bcast_S96x1_S96x3_0_1 : S96x1.BroadcastsInDim S96x3 (![0, 1] : Fin 2 → Fin S96x3.rank)
  bcast_S1x3_S96x3_0_1 : S1x3.BroadcastsInDim S96x3 (![0, 1] : Fin 2 → Fin S96x3.rank)
  bcast_S_S96x3 : S_.BroadcastsInDim S96x3 (![] : Fin 0 → Fin S96x3.rank)
  bcast_S96x3_S96x3x1_0_1 : S96x3.BroadcastsInDim S96x3x1 (![0, 1] : Fin 2 → Fin S96x3x1.rank)
  transposes_S4x128x96x3x96x3_S4x128x3x3x96x96_0_1_3_5_2_4 : S4x128x96x3x96x3.Transposes [0, 1, 3, 5, 2, 4] S4x128x3x3x96x96
  shapeCasts_S4x128x3x3x96x96_S4x1152x9216 : S4x128x3x3x96x96.ShapeCasts S4x1152x9216
  pads_S4x64x192x192_S4x64x196x196_000_000_220_220 : S4x64x192x192.Pads (![0, 0, 2, 2] : Fin 4 → Nat) ![0, 0, 2, 2] ![0, 0, 0, 0] S4x64x196x196
  bcast_S6_S1x6_1 : S6.BroadcastsInDim S1x6 (![1] : Fin 1 → Fin S1x6.rank)
  bcast_S96x1_S96x6_0_1 : S96x1.BroadcastsInDim S96x6 (![0, 1] : Fin 2 → Fin S96x6.rank)
  bcast_S1x6_S96x6_0_1 : S1x6.BroadcastsInDim S96x6 (![0, 1] : Fin 2 → Fin S96x6.rank)
  bcast_S_S96x6 : S_.BroadcastsInDim S96x6 (![] : Fin 0 → Fin S96x6.rank)
  bcast_S96x6_S96x6x1_0_1 : S96x6.BroadcastsInDim S96x6x1 (![0, 1] : Fin 2 → Fin S96x6x1.rank)
  transposes_S4x64x96x6x96x6_S4x64x6x6x96x96_0_1_3_5_2_4 : S4x64x96x6x96x6.Transposes [0, 1, 3, 5, 2, 4] S4x64x6x6x96x96
  shapeCasts_S4x64x6x6x96x96_S4x2304x9216 : S4x64x6x6x96x96.ShapeCasts S4x2304x9216
  bcast_S4x9216_S4x1x9216_0_2 : S4x9216.BroadcastsInDim S4x1x9216 (![0, 2] : Fin 2 → Fin S4x1x9216.rank)
  bcast_S_S4x1x9216 : S_.BroadcastsInDim S4x1x9216 (![] : Fin 0 → Fin S4x1x9216.rank)
  shapeCasts_S4x1x9216_S4x9216x1 : S4x1x9216.ShapeCasts S4x9216x1
  bcast_S_S4x9216x1 : S_.BroadcastsInDim S4x9216x1 (![] : Fin 0 → Fin S4x9216x1.rank)
  bcast_S1_S1x1x1_2 : S1.BroadcastsInDim S1x1x1 (![2] : Fin 1 → Fin S1x1x1.rank)
  bcast_S1x1x1_S4x9216x1_0_1_2 : S1x1x1.BroadcastsInDim S4x9216x1 (![0, 1, 2] : Fin 3 → Fin S4x9216x1.rank)
  reducesTo_S4x9216x1_S4x9216_d2 : S4x9216x1.ReducesTo [2] S4x9216
  bcast_S4x9216_S4x1152x9216_0_2 : S4x9216.BroadcastsInDim S4x1152x9216 (![0, 2] : Fin 2 → Fin S4x1152x9216.rank)
  bcast_S_S4x1152x9216 : S_.BroadcastsInDim S4x1152x9216 (![] : Fin 0 → Fin S4x1152x9216.rank)
  bcast_S4x9216_S4x2304x9216_0_2 : S4x9216.BroadcastsInDim S4x2304x9216 (![0, 2] : Fin 2 → Fin S4x2304x9216.rank)
  bcast_S_S4x2304x9216 : S_.BroadcastsInDim S4x2304x9216 (![] : Fin 0 → Fin S4x2304x9216.rank)
  shapeCasts_S4x1152x9216_S4x128x3x3x96x96 : S4x1152x9216.ShapeCasts S4x128x3x3x96x96
  transposes_S4x128x3x3x96x96_S4x128x96x3x96x3_0_1_4_2_5_3 : S4x128x3x3x96x96.Transposes [0, 1, 4, 2, 5, 3] S4x128x96x3x96x3
  bcast_S_S4x128x98x98 : S_.BroadcastsInDim S4x128x98x98 (![] : Fin 0 → Fin S4x128x98x98.rank)
  bcast_S96x3_S96x3x1x1_0_1 : S96x3.BroadcastsInDim S96x3x1x1 (![0, 1] : Fin 2 → Fin S96x3x1x1.rank)
  bcast_S96x3_S1x1x96x3_2_3 : S96x3.BroadcastsInDim S1x1x96x3 (![2, 3] : Fin 2 → Fin S1x1x96x3.rank)
  bcast_S_S96x3x1x1 : S_.BroadcastsInDim S96x3x1x1 (![] : Fin 0 → Fin S96x3x1x1.rank)
  bcast_S_S1x1x96x3 : S_.BroadcastsInDim S1x1x96x3 (![] : Fin 0 → Fin S1x1x96x3.rank)
  bcast_S96x3x1x1_S96x3x96x3_0_1_2_3 : S96x3x1x1.BroadcastsInDim S96x3x96x3 (![0, 1, 2, 3] : Fin 4 → Fin S96x3x96x3.rank)
  bcast_S1x1x96x3_S96x3x96x3_0_1_2_3 : S1x1x96x3.BroadcastsInDim S96x3x96x3 (![0, 1, 2, 3] : Fin 4 → Fin S96x3x96x3.rank)
  bcast_S96x3x96x3_S96x3x96x3x1_0_1_2_3 : S96x3x96x3.BroadcastsInDim S96x3x96x3x1 (![0, 1, 2, 3] : Fin 4 → Fin S96x3x96x3x1.rank)
  concatenates_S96x3x96x3x1_S96x3x96x3x1_S96x3x96x3x2_d4 : Shape.Concatenates [S96x3x96x3x1, S96x3x96x3x1] S96x3x96x3x2 4
  slices_S4x128x98x98_S4x128x96x96_0_0_1_1 : S4x128x98x98.Slices ![0, 0, 1, 1] S4x128x96x96
  bcast_S_S4x128x96x96 : S_.BroadcastsInDim S4x128x96x96 (![] : Fin 0 → Fin S4x128x96x96.rank)
  shapeCasts_S4x2304x9216_S4x64x6x6x96x96 : S4x2304x9216.ShapeCasts S4x64x6x6x96x96
  transposes_S4x64x6x6x96x96_S4x64x96x6x96x6_0_1_4_2_5_3 : S4x64x6x6x96x96.Transposes [0, 1, 4, 2, 5, 3] S4x64x96x6x96x6
  bcast_S_S4x64x196x196 : S_.BroadcastsInDim S4x64x196x196 (![] : Fin 0 → Fin S4x64x196x196.rank)
  bcast_S96x6_S96x6x1x1_0_1 : S96x6.BroadcastsInDim S96x6x1x1 (![0, 1] : Fin 2 → Fin S96x6x1x1.rank)
  bcast_S96x6_S1x1x96x6_2_3 : S96x6.BroadcastsInDim S1x1x96x6 (![2, 3] : Fin 2 → Fin S1x1x96x6.rank)
  bcast_S_S96x6x1x1 : S_.BroadcastsInDim S96x6x1x1 (![] : Fin 0 → Fin S96x6x1x1.rank)
  bcast_S_S1x1x96x6 : S_.BroadcastsInDim S1x1x96x6 (![] : Fin 0 → Fin S1x1x96x6.rank)
  bcast_S96x6x1x1_S96x6x96x6_0_1_2_3 : S96x6x1x1.BroadcastsInDim S96x6x96x6 (![0, 1, 2, 3] : Fin 4 → Fin S96x6x96x6.rank)
  bcast_S1x1x96x6_S96x6x96x6_0_1_2_3 : S1x1x96x6.BroadcastsInDim S96x6x96x6 (![0, 1, 2, 3] : Fin 4 → Fin S96x6x96x6.rank)
  bcast_S96x6x96x6_S96x6x96x6x1_0_1_2_3 : S96x6x96x6.BroadcastsInDim S96x6x96x6x1 (![0, 1, 2, 3] : Fin 4 → Fin S96x6x96x6x1.rank)
  concatenates_S96x6x96x6x1_S96x6x96x6x1_S96x6x96x6x2_d4 : Shape.Concatenates [S96x6x96x6x1, S96x6x96x6x1] S96x6x96x6x2 4
  slices_S4x64x196x196_S4x64x192x192_0_0_2_2 : S4x64x196x196.Slices ![0, 0, 2, 2] S4x64x192x192
  bcast_S_S4x64x192x192 : S_.BroadcastsInDim S4x64x192x192 (![] : Fin 0 → Fin S4x64x192x192.rank)
  gather_S4x128x98x98_S96x3x1_S4x128x96x3x98_014_2_n_n_2_2_4128198_wf : GatherDims.WF S4x128x98x98 S96x3x1 S4x128x96x3x98 [0, 1, 4] [2] [] [2] [] 2 ![4, 128, 1, 98]
  gather_S4x128x96x3x98_S96x3x1_S4x128x96x3x96x3_0123_4_n_n_4_2_41289631_wf : GatherDims.WF S4x128x96x3x98 S96x3x1 S4x128x96x3x96x3 [0, 1, 2, 3] [4] [] [4] [] 2 ![4, 128, 96, 3, 1]
  gather_S4x64x196x196_S96x6x1_S4x64x96x6x196_014_2_n_n_2_2_4641196_wf : GatherDims.WF S4x64x196x196 S96x6x1 S4x64x96x6x196 [0, 1, 4] [2] [] [2] [] 2 ![4, 64, 1, 196]
  gather_S4x64x96x6x196_S96x6x1_S4x64x96x6x96x6_0123_4_n_n_4_2_4649661_wf : GatherDims.WF S4x64x96x6x196 S96x6x1 S4x64x96x6x96x6 [0, 1, 2, 3] [4] [] [4] [] 2 ![4, 64, 96, 6, 1]
  gather_S4x1152x9216_S4x9216x1_S4x1152x9216_1_2_0_0_2_2_111521_wf : GatherDims.WF S4x1152x9216 S4x9216x1 S4x1152x9216 [1] [2] [0] [2] [0] 2 ![1, 1152, 1]
  gather_S4x2304x9216_S4x9216x1_S4x2304x9216_1_2_0_0_2_2_123041_wf : GatherDims.WF S4x2304x9216 S4x9216x1 S4x2304x9216 [1] [2] [0] [2] [0] 2 ![1, 2304, 1]
  scatter_S4x128x98x98_S96x3x96x3x2_S4x128x96x3x96x3_01_23_23_4_wf : ScatterDims.WF S4x128x98x98 S96x3x96x3x2 S4x128x96x3x96x3 [0, 1] [2, 3] [2, 3] 4
  scatter_S4x64x196x196_S96x6x96x6x2_S4x64x96x6x96x6_01_23_23_4_wf : ScatterDims.WF S4x64x196x196 S96x6x96x6x2 S4x64x96x6x96x6 [0, 1] [2, 3] [2, 3] 4

variable [Facts₀]

def gather_S4x128x98x98_S96x3x1_S4x128x96x3x98_014_2_n_n_2_2_4128198 : GatherDims S4x128x98x98 S96x3x1 S4x128x96x3x98 where
  offsetDims := [0, 1, 4]
  collapsedSliceDims := [2]
  operandBatchingDims := []
  startIndicesBatchingDims := []
  startIndexMap := [2]
  indexVectorDim := 2
  sliceSizes := ![4, 128, 1, 98]
  wf := gather_S4x128x98x98_S96x3x1_S4x128x96x3x98_014_2_n_n_2_2_4128198_wf
def gather_S4x128x96x3x98_S96x3x1_S4x128x96x3x96x3_0123_4_n_n_4_2_41289631 : GatherDims S4x128x96x3x98 S96x3x1 S4x128x96x3x96x3 where
  offsetDims := [0, 1, 2, 3]
  collapsedSliceDims := [4]
  operandBatchingDims := []
  startIndicesBatchingDims := []
  startIndexMap := [4]
  indexVectorDim := 2
  sliceSizes := ![4, 128, 96, 3, 1]
  wf := gather_S4x128x96x3x98_S96x3x1_S4x128x96x3x96x3_0123_4_n_n_4_2_41289631_wf
def gather_S4x64x196x196_S96x6x1_S4x64x96x6x196_014_2_n_n_2_2_4641196 : GatherDims S4x64x196x196 S96x6x1 S4x64x96x6x196 where
  offsetDims := [0, 1, 4]
  collapsedSliceDims := [2]
  operandBatchingDims := []
  startIndicesBatchingDims := []
  startIndexMap := [2]
  indexVectorDim := 2
  sliceSizes := ![4, 64, 1, 196]
  wf := gather_S4x64x196x196_S96x6x1_S4x64x96x6x196_014_2_n_n_2_2_4641196_wf
def gather_S4x64x96x6x196_S96x6x1_S4x64x96x6x96x6_0123_4_n_n_4_2_4649661 : GatherDims S4x64x96x6x196 S96x6x1 S4x64x96x6x96x6 where
  offsetDims := [0, 1, 2, 3]
  collapsedSliceDims := [4]
  operandBatchingDims := []
  startIndicesBatchingDims := []
  startIndexMap := [4]
  indexVectorDim := 2
  sliceSizes := ![4, 64, 96, 6, 1]
  wf := gather_S4x64x96x6x196_S96x6x1_S4x64x96x6x96x6_0123_4_n_n_4_2_4649661_wf
def gather_S4x1152x9216_S4x9216x1_S4x1152x9216_1_2_0_0_2_2_111521 : GatherDims S4x1152x9216 S4x9216x1 S4x1152x9216 where
  offsetDims := [1]
  collapsedSliceDims := [2]
  operandBatchingDims := [0]
  startIndicesBatchingDims := [0]
  startIndexMap := [2]
  indexVectorDim := 2
  sliceSizes := ![1, 1152, 1]
  wf := gather_S4x1152x9216_S4x9216x1_S4x1152x9216_1_2_0_0_2_2_111521_wf
def gather_S4x2304x9216_S4x9216x1_S4x2304x9216_1_2_0_0_2_2_123041 : GatherDims S4x2304x9216 S4x9216x1 S4x2304x9216 where
  offsetDims := [1]
  collapsedSliceDims := [2]
  operandBatchingDims := [0]
  startIndicesBatchingDims := [0]
  startIndexMap := [2]
  indexVectorDim := 2
  sliceSizes := ![1, 2304, 1]
  wf := gather_S4x2304x9216_S4x9216x1_S4x2304x9216_1_2_0_0_2_2_123041_wf
def scatter_S4x128x98x98_S96x3x96x3x2_S4x128x96x3x96x3_01_23_23_4 : ScatterDims S4x128x98x98 S96x3x96x3x2 S4x128x96x3x96x3 where
  updateWindowDims := [0, 1]
  insertedWindowDims := [2, 3]
  scatterDimsToOperandDims := [2, 3]
  indexVectorDim := 4
  wf := scatter_S4x128x98x98_S96x3x96x3x2_S4x128x96x3x96x3_01_23_23_4_wf
def scatter_S4x64x196x196_S96x6x96x6x2_S4x64x96x6x96x6_01_23_23_4 : ScatterDims S4x64x196x196 S96x6x96x6x2 S4x64x96x6x96x6 where
  updateWindowDims := [0, 1]
  insertedWindowDims := [2, 3]
  scatterDimsToOperandDims := [2, 3]
  indexVectorDim := 4
  wf := scatter_S4x64x196x196_S96x6x96x6x2_S4x64x96x6x96x6_01_23_23_4_wf

class Facts : Prop extends Facts₀ where

variable [Facts]
-- ==== Proof.Kernel.Region0.Scoped.lean ====
/-
  The first gather call's own scoped buffers. Its accumulator is one whole scoped buffer; the core's other scoped
  buffers that are no staging buffer of this call (the second call's staging buffers and accumulator) ride along
  at contents nobody names. The call's class invariant is the accumulator at some contents, beside those others
  and the generator register.
-/
import proofs.«400157_j45320494907489_1_alg».proof.Proof.Gen.Kernel.Launch
import Idealize.ShloMosaic.Lib.Pipeline.Frame
import Idealize.ShloMosaic.Lib.Tactic

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator the kernel keeps between grid points, as a whole memref. -/
abbrev scM : Memref sig .tc .vmem S1152x1152 .f32 := Memref.whole cc0_scratch0

/-- The core's scoped buffers other than this call's staging buffers and accumulator, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant is the accumulator at some contents, the other scoped buffers, and the generator register. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA others; rw [scopedRest0_eq]; simp only [scM, owns_whole]; try rfl

/-- The class invariant opened into the accumulator, the other scoped buffers and the generator register, -/
theorem PhiA_split (c : Dev nD) :
    (Pipeline.ΦA spec0 c : sProp 𝕄)
      ⊢ iprop(iprop((∃ d, owns (c : Thread nD τ) scM fullShare d) ∗ others c) ∗ (∃ r, prngReg c r)) := by
  rw [PhiA_eq]

/-- and closed again. -/
theorem PhiA_join (c : Dev nD) :
    (iprop(iprop((∃ d, owns (c : Thread nD τ) scM fullShare d) ∗ others c) ∗ (∃ r, prngReg c r)) : sProp 𝕄)
      ⊢ Pipeline.ΦA spec0 c := by
  rw [PhiA_eq]

end Cert.Kernel.Region0

end
-- ==== Proof.Kernel.Region0.Data.lean ====
/-
  What the first gather call holds point by point. Its grid is (batch, row block, column block, k) with k innermost,
  so point t has k = t mod 4. The accumulator after point t is this point's product added to the accumulator the
  point before left, or to zero when k = 0; the output block's staging buffer, stored only at k = 3, is the
  accumulator read through the leading unit axis (at the other points nobody reads it). Both input windows are
  read, never written: after the body each still holds its block of the array the call was entered with.
-/
import proofs.«400157_j45320494907489_1_alg».proof.Proof.Gen.Kernel.Launch
import proofs.«400157_j45320494907489_1_alg».proof.Proof.Gen.Kernel.Skeleton
import proofs.«400157_j45320494907489_1_alg».proof.Proof.Gen.Kernel.Points
import proofs.«400157_j45320494907489_1_alg».proof.Proof.Kernel.Region0.Scoped
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator point by point -/

/-- The accumulator after the body at position `n`: the point's one-hot product added to zero where k = 0 and to
    what the point before left elsewhere. -/
def sAt (c : Dev nD) : (n : ℕ) → n < cfg0.N → Vec F S1152x1152 .f32
  | 0, hn => k0_pay2 (grid0.coords ⟨0, hn⟩) (iblk V c 1 ⟨0, hn⟩) (iblk V c 0 ⟨0, hn⟩) k0_pay1
  | n + 1, hn => k0_pay2 (grid0.coords ⟨n + 1, hn⟩) (iblk V c 1 ⟨n + 1, hn⟩) (iblk V c 0 ⟨n + 1, hn⟩)
      (if (n + 1) % 4 = 0 then k0_pay1 else sAt c n (Nat.lt_of_succ_lt hn))

/-- At a point with k = 0 the sum starts from zero. -/
theorem sAt_reset (c : Dev nD) (t : Fin cfg0.N) (h0 : t.val % 4 = 0) :
    sAt V c t.val t.isLt = k0_pay2 (grid0.coords t) (iblk V c 1 t) (iblk V c 0 t) k0_pay1 := by
  obtain ⟨n, hn⟩ := t
  cases n with
  | zero => rfl
  | succ n => exact congrArg (k0_pay2 _ _ _) (if_pos h0)

/-- At a point with k ≠ 0 the sum continues from the point before. -/
theorem sAt_step (c : Dev nD) (t : Fin cfg0.N) (h0 : ¬t.val % 4 = 0) :
    sAt V c t.val t.isLt = k0_pay2 (grid0.coords t) (iblk V c 1 t) (iblk V c 0 t)
      (sAt V c (t.val - 1) (Nat.lt_of_le_of_lt (Nat.sub_le _ _) t.isLt)) := by
  obtain ⟨n, hn⟩ := t
  cases n with
  | zero => exact absurd (Nat.zero_mod _) h0
  | succ n => exact congrArg (k0_pay2 _ _ _) (if_neg h0)

/-! ## The invariant -/

/-- Before position `n`: at the call's entry the class invariant (the accumulator at anything); afterwards the
    accumulator at what the point before left, the other scoped buffers at anything, the generator register. -/
def PhiS (c : Dev nD) : (n : ℕ) → n ≤ cfg0.N → sProp 𝕄
  | 0, _ => Pipeline.ΦA spec0 c
  | n + 1, hn => iprop(iprop(owns (c : Thread nD τ) scM fullShare (sAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

/-- The call's proof data on core `c`: its arrays as it finds them; after the body each input's buffer at its
    block and the output's at the accumulator through the unit axis; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (sAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay3 (sAt V c t.val t.isLt) := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.Kernel.Region0

end
-- ==== Proof.LibWholeStore.lean ====
/-
  A store through the whole-shape rectangle at zero offsets overwrites everything: whatever a buffer held and
  whatever was stored before, reading it back gives the last payload. Likewise a load through that rectangle
  reads the contents whole. Stated once, for any view of any shape.
-/
import Idealize.ShloMosaic.Lib.Pipeline.Value
import Idealize.ShloMosaic.Lib.Pipeline.FrameBody

noncomputable section

namespace Idealize.ShloMosaic.WholeStore

open Idealize.ShloMosaic

variable {Val : EltTy → Type} {S : Shape} {e : EltTy}

/-- After stores whose LAST is through the whole-shape rectangle, the buffer reads as that last payload. -/
theorem read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon v f _ (fun y => ⟨_, List.mem_cons_self, by
    show y ∈ (Rect.whole S).set; rw [Rect.set_whole]; exact Finset.mem_univ y⟩)]
  exact View.canon_cons_unit_zero rfl inb w L

end Idealize.ShloMosaic.WholeStore

end
-- ==== Proof.Kernel.Region0.Runs.lean ====
/-
  The first gather call's body, run once per control case. The body branches twice on the innermost grid
  coordinate k: it zeroes the accumulator when k = 0, and copies the accumulator to the output block when k = 3;
  in between it always adds the block product to the accumulator. On a grid whose k runs over 0..3 that makes
  three cases: k = 0 (zero, add), k = 1, 2 (add), k = 3 (add, copy out). Each run says what the four buffers
  hold afterwards in terms of the skeleton's payloads: the inputs unchanged, the accumulator at the new sum, the
  output buffer untouched in the first two cases and at the accumulator's copy in the third.
-/
import proofs.«400157_j45320494907489_1_alg».proof.Proof.Kernel.Region0.Data
import proofs.«400157_j45320494907489_1_alg».proof.Proof.LibWholeStore

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, in closed form over the grid -/

/-- The accumulator is zeroed: k = 0. -/
abbrev cond_0 (i : grid0.Coords) : Prop := (Scalar.cmpi .ne (Scalar.extui (Scalar.cmpi .eq (BitVec.ofNat 32 (i 3).val) 0#32)) 0#32) = 1#1
theorem hcond_0 : ∀ t : Fin cfg0.N, cond_0 (grid0.coords t) ↔ t.val % 4 = 0 :=
  (by decide +kernel : ∀ t : Fin grid0.N, cond_0 (grid0.coords t) ↔ t.val % 4 = 0)

/-- The accumulator is copied out: k = 3. -/
abbrev cond_1 (i : grid0.Coords) : Prop := k0_cond2 i = 1#1
theorem hcond_1 : ∀ t : Fin cfg0.N, cond_1 (grid0.coords t) ↔ t.val % 4 = 3 :=
  (by decide +kernel : ∀ t : Fin grid0.N, cond_1 (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Where k ≠ 3 the body stores nothing into the output block's buffer, and the pipeline does not write it back. -/
theorem idleAt_2 : ∀ t : Fin cfg0.N, ¬cond_1 (grid0.coords t) → cfg0.idle 2 (grid0.coords t) = true := by decide +kernel
theorem noFlush_2 : ∀ t : Fin cfg0.N, ¬cond_1 (grid0.coords t) → (cfg0.win 2).flush t = false := by decide +kernel
theorem liveAt_2 : ∀ t : Fin cfg0.N, cond_1 (grid0.coords t) → cfg0.idle 2 (grid0.coords t) = false := by decide +kernel

/-! ## The staging memrefs at a point -/

abbrev ms_0 (t : Fin cfg0.N) : Memref sig .tc .vmem S1x1152x2304 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1x1152 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1152x1152 .f32 := win0_2.stage (cfg0.slots t 2)
abbrev hs_2 (t : Fin cfg0.N) : (ms_2 t).IsWhole := hstage0_2 ((cfg0.slots t 2).cast nbuf0_2)

/-! ## The body's runs -/

/-- The zero offsets of a whole-block access, spelt as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- k = 0: the accumulator, whatever it held, is zeroed and the product added; the output buffer is not touched. -/
theorem run_A (c : Dev nD) (i : grid0.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k0_pay2 i x1 x0 k0_pay1)) -∗ K ⟨⟩))
      ⊢ wp frame (wpE (defs₀ (F := F)) Variants.none c none) E (cc0__onehot_gather_kernel i arg4 harg4 arg5 harg5 arg6 harg6 arg7 harg7) K := by
  simp only [cc0__onehot_gather_kernel_eq_skeleton]; unfold cc0__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 1, 2: the product is added to the accumulator the point before left; the output buffer is not touched. -/
theorem run_B (c : Dev nD) (i : grid0.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k0_pay2 i x1 x0 s)) -∗ K ⟨⟩))
      ⊢ wp frame (wpE (defs₀ (F := F)) Variants.none c none) E (cc0__onehot_gather_kernel i arg4 harg4 arg5 harg5 arg6 harg6 arg7 harg7) K := by
  simp only [cc0__onehot_gather_kernel_eq_skeleton]; unfold cc0__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 3: the product is added to the accumulator, and the new sum is copied whole into the output block's buffer. -/
theorem run_C (c : Dev nD) (i : grid0.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare (k0_pay3 (k0_pay2 i x1 x0 s)) ∗ owns (c : Thread nD τ) arg7 fullShare (k0_pay2 i x1 x0 s)) -∗ K ⟨⟩))
      ⊢ wp frame (wpE (defs₀ (F := F)) Variants.none c none) E (cc0__onehot_gather_kernel i arg4 harg4 arg5 harg5 arg6 harg6 arg7 harg7) K := by
  simp only [cc0__onehot_gather_kernel_eq_skeleton]; unfold cc0__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    (try sl_unfold_words)
    rw [WholeStore.read_writes_cons_unit_zero _ _ hz3]
    simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

end Cert.Kernel.Region0

end
-- ==== Proof.Kernel.Region0.Body.lean ====
/-
  The first gather call's body obligation. At a grid point the pipeline hands the body the three windows' current
  staging buffers (the two inputs at their blocks, the output's buffer at whatever it holds) and the invariant,
  which carries the accumulator: at anything before the first point, at the sum the point before left afterwards.
  The innermost coordinate k = t mod 4 selects the case. With k = 0 the body zeroes the accumulator whatever it
  held and adds the point's product; with k = 1, 2 it adds the product to the sum so far; with k = 3 it adds the
  product and copies the new sum into the output's buffer. In each case the accumulator ends at the point's sum,
  which is the invariant at the next position. Where k ≠ 3 the output window is idle and is not written back, so
  its buffer is returned as it came; where k = 3 it holds the sum read through the leading unit axis. The inputs'
  buffers are returned at their blocks.
-/
import proofs.«400157_j45320494907489_1_alg».proof.Proof.Kernel.Region0.Runs

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The invariant, with the accumulator's contents forgotten -/

/-- At every position the invariant holds the accumulator at some contents beside the other scoped buffers and
    the generator register: at the first by the class invariant, afterwards by forgetting the named sum. -/
theorem PhiS_open (c : Dev nD) (n : ℕ) (h : n ≤ cfg0.N) :
    PhiS V c n h
      ⊢ iprop(iprop((∃ d, owns (c : Thread nD τ) scM fullShare d) ∗ others c) ∗ (∃ r, prngReg c r)) := by
  by_cases hz : n = 0
  · rw [PhiS_zero V c n h hz]; exact PhiA_split c
  · rw [PhiS_pos V c n h hz]
    iintro ⟨⟨HS, Hoth⟩, Hg⟩
    isplitl [HS Hoth]
    · isplitl [HS]
      · iexists _; iexact HS
      iexact Hoth
    iexact Hg

/-! ## The body obligation, at a generic point -/

/-- What the body is called with at point t: the invariant, the core's debt, and each window's current buffer. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- What it returns: the invariant at the next position, the same debt, and each window's buffer as the body leaves it. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- Both input windows are live at every point: each buffer is left at its block. -/
theorem leaves_0 (c : Dev nD) (t : Fin cfg0.N) :
    (dat V c).leavesExact 0 t = owns (c : Thread nD τ) (ms_0 t) fullShare (iblk V c 0 t) := by
  unfold Dat.leavesExact; rw [liveAt_0 t, after_0]
theorem leaves_1 (c : Dev nD) (t : Fin cfg0.N) :
    (dat V c).leavesExact 1 t = owns (c : Thread nD τ) (ms_1 t) fullShare (iblk V c 1 t) := by
  unfold Dat.leavesExact; rw [liveAt_1 t, after_1]

/-- Where k = 3 the output window is live: its buffer is left at the sum read through the unit axis. -/
theorem leaves_2_live (c : Dev nD) (t : Fin cfg0.N) (hc1 : cond_1 (grid0.coords t)) :
    (dat V c).leavesExact 2 t = owns (c : Thread nD τ) (ms_2 t) fullShare (k0_pay3 (sAt V c t.val t.isLt)) := by
  unfold Dat.leavesExact; rw [liveAt_2 t hc1, after_2]

set_option maxHeartbeats 1600000 in
/-- k = 0. The accumulator is taken at whatever the invariant holds it at; it ends at the product added to zero. -/
theorem sound_body_A (c : Dev nD) (t : Fin cfg0.N) (h0 : t.val % 4 = 0) :
    bodyPre V c t ⊢ wp frame (wpE (defs₀ (F := F)) Variants.none c none) Set.univ (bodyAt0 t) (fun _ => bodyPost V c t) := by
  have h1 : ¬t.val % 4 = 3 := by omega
  have hc0 : cond_0 (grid0.coords t) := (hcond_0 t).mpr h0
  have hc1 : ¬cond_1 (grid0.coords t) := fun h => h1 ((hcond_1 t).mp h)
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_reset V c t h0, PhiS_castSucc V c t]
  iintro ⟨HΦ, Ho, ⟨%d0, H0⟩, ⟨%d1, H1⟩, ⟨%d2, H2⟩⟩
  ihave H := PhiS_open V c _ _ $$ HΦ
  icases H with ⟨⟨⟨%s, HS⟩, Hoth⟩, Hg⟩
  iapply (run_A c (grid0.coords t) (ms_0 t) (hs_0 t) (ms_1 t) (hs_1 t) (ms_2 t) (hs_2 t) scM (Memref.isWhole_whole _)
    hc0 hc1 (iblk V c 0 t) (iblk V c 1 t) ((dat V c).before 2 t d2) s Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 1, 2. The accumulator comes at the sum the point before left, and the product is added to it. -/
theorem sound_body_B (c : Dev nD) (t : Fin cfg0.N) (h0 : ¬t.val % 4 = 0) (h1 : ¬t.val % 4 = 3) :
    bodyPre V c t ⊢ wp frame (wpE (defs₀ (F := F)) Variants.none c none) Set.univ (bodyAt0 t) (fun _ => bodyPost V c t) := by
  have hz : t.val ≠ 0 := fun h => h0 (by rw [h])
  have hc0 : ¬cond_0 (grid0.coords t) := fun h => h0 ((hcond_0 t).mp h)
  have hc1 : ¬cond_1 (grid0.coords t) := fun h => h1 ((hcond_1 t).mp h)
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_B c (grid0.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 3. As for k = 1, 2, and the output's buffer, whatever it held, ends at the new sum through the unit axis. -/
theorem sound_body_C (c : Dev nD) (t : Fin cfg0.N) (h0 : ¬t.val % 4 = 0) (h1 : t.val % 4 = 3) :
    bodyPre V c t ⊢ wp frame (wpE (defs₀ (F := F)) Variants.none c none) Set.univ (bodyAt0 t) (fun _ => bodyPost V c t) := by
  have hz : t.val ≠ 0 := fun h => h0 (by rw [h])
  have hc0 : ¬cond_0 (grid0.coords t) := fun h => h0 ((hcond_0 t).mp h)
  have hc1 : cond_1 (grid0.coords t) := (hcond_1 t).mpr h1
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, leaves_2_live V c t hc1]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_C c (grid0.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexact H2

/-- The body at any point: k = t mod 4 says which of the three cases it is. -/
theorem sound_body (c : Dev nD) (t : Fin cfg0.N) :
    bodyPre V c t ⊢ wp frame (wpE (defs₀ (F := F)) Variants.none c none) Set.univ (bodyAt0 t) (fun _ => bodyPost V c t) := by
  by_cases h0 : t.val % 4 = 0
  · exact sound_body_A V c t h0
  · by_cases h1 : t.val % 4 = 3
    · exact sound_body_C V c t h0 h1
    · exact sound_body_B V c t h0 h1

/-- The pipeline's body obligation, at every point: its two products over the windows written out. -/
theorem body_obligation (c : Dev nD) : BodyObligation (dat (F := F) V c) (defs₀ (F := F)) Variants.none () Set.univ := fun t => by
  rw [bigSep_W0, bigSep_W0]
  exact sound_body V c t

/-- What the call is entered with, the class invariant, is the invariant before the first point. -/
theorem hin (c : Dev nD) : Pipeline.ΦA spec0 c ⊢ (dat V c).Φ 0 :=
  Entails.of_eq (PhiS_zero V c 0 (Nat.zero_le _) rfl).symm

/-- After the last point the invariant gives the class invariant back: the accumulator's named sum is forgotten. -/
theorem hout (c : Dev nD) : (dat V c).Φ (Fin.last cfg0.N) ⊢ Pipeline.ΦA spec0 c :=
  (PhiS_open V c (Fin.last cfg0.N).val (Nat.le_of_lt_succ (Fin.last cfg0.N).isLt)).trans (PhiA_join c)

end Cert.Kernel.Region0

end
-- ==== Proof.Kernel.Region1.Scoped.lean ====
/-
  The second gather call's own scoped buffers. Its accumulator is one whole scoped buffer; the core's other scoped
  buffers that are no staging buffer of this call (the first call's staging buffers and accumulator) ride along
  at contents nobody names. The call's class invariant is the accumulator at some contents, beside those others
  and the generator register.
-/
import proofs.«400157_j45320494907489_1_alg».proof.Proof.Gen.Kernel.Launch
import Idealize.ShloMosaic.Lib.Pipeline.Frame
import Idealize.ShloMosaic.Lib.Tactic

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The accumulator the kernel keeps between grid points, as a whole memref. -/
abbrev scM : Memref sig .tc .vmem S1152x1152 .f32 := Memref.whole cc1_scratch0

/-- The core's scoped buffers other than this call's staging buffers and accumulator, each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant opened into the accumulator, the other scoped buffers and the generator register, -/
theorem PhiA_split (c : Dev nD) :
    (Pipeline.ΦA spec1 c : sProp 𝕄)
      ⊢ iprop(iprop((∃ d, owns (c : Thread nD τ) scM fullShare d) ∗ others c) ∗ (∃ r, prngReg c r)) := by
  unfold Pipeline.ΦA others; rw [scopedRest1_eq]; simp only [scM, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- and closed again. -/
theorem PhiA_join (c : Dev nD) :
    (iprop(iprop((∃ d, owns (c : Thread nD τ) scM fullShare d) ∗ others c) ∗ (∃ r, prngReg c r)) : sProp 𝕄)
      ⊢ Pipeline.ΦA spec1 c := by
  unfold Pipeline.ΦA others; rw [scopedRest1_eq]; simp only [scM, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.Region1

end
-- ==== Proof.Kernel.Region1.Data.lean ====
/-
  What the second gather call holds point by point. Its grid is (batch, row block, column block, k) with k innermost,
  so point t has k = t mod 4. The accumulator after point t is this point's product added to the accumulator the
  point before left, or to zero when k = 0; the output block's staging buffer, stored only at k = 3, is the
  accumulator read through the leading unit axis (at the other points nobody reads it). Both input windows are
  read, never written: after the body each still holds its block of the array the call was entered with.
-/
import proofs.«400157_j45320494907489_1_alg».proof.Proof.Gen.Kernel.Launch
import proofs.«400157_j45320494907489_1_alg».proof.Proof.Gen.Kernel.Skeleton
import proofs.«400157_j45320494907489_1_alg».proof.Proof.Gen.Kernel.Points
import proofs.«400157_j45320494907489_1_alg».proof.Proof.Kernel.Region1.Scoped
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator point by point -/

/-- The accumulator after the body at position `n`: the point's one-hot product added to zero where k = 0 and to
    what the point before left elsewhere. -/
def sAt (c : Dev nD) : (n : ℕ) → n < cfg1.N → Vec F S1152x1152 .f32
  | 0, hn => k1_pay2 (grid1.coords ⟨0, hn⟩) (iblk V c 1 ⟨0, hn⟩) (iblk V c 0 ⟨0, hn⟩) k1_pay1
  | n + 1, hn => k1_pay2 (grid1.coords ⟨n + 1, hn⟩) (iblk V c 1 ⟨n + 1, hn⟩) (iblk V c 0 ⟨n + 1, hn⟩)
      (if (n + 1) % 4 = 0 then k1_pay1 else sAt c n (Nat.lt_of_succ_lt hn))

/-- At a point with k = 0 the sum starts from zero. -/
theorem sAt_reset (c : Dev nD) (t : Fin cfg1.N) (h0 : t.val % 4 = 0) :
    sAt V c t.val t.isLt = k1_pay2 (grid1.coords t) (iblk V c 1 t) (iblk V c 0 t) k1_pay1 := by
  obtain ⟨n, hn⟩ := t
  cases n with
  | zero => rfl
  | succ n => exact congrArg (k1_pay2 _ _ _) (if_pos h0)

/-- At a point with k ≠ 0 the sum continues from the point before. -/
theorem sAt_step (c : Dev nD) (t : Fin cfg1.N) (h0 : ¬t.val % 4 = 0) :
    sAt V c t.val t.isLt = k1_pay2 (grid1.coords t) (iblk V c 1 t) (iblk V c 0 t)
      (sAt V c (t.val - 1) (Nat.lt_of_le_of_lt (Nat.sub_le _ _) t.isLt)) := by
  obtain ⟨n, hn⟩ := t
  cases n with
  | zero => exact absurd (Nat.zero_mod _) h0
  | succ n => exact congrArg (k1_pay2 _ _ _) (if_neg h0)

/-! ## The invariant -/

/-- Before position `n`: at the call's entry the class invariant (the accumulator at anything); afterwards the
    accumulator at what the point before left, the other scoped buffers at anything, the generator register. -/
def PhiS (c : Dev nD) : (n : ℕ) → n ≤ cfg1.N → sProp 𝕄
  | 0, _ => Pipeline.ΦA spec1 c
  | n + 1, hn => iprop(iprop(owns (c : Thread nD τ) scM fullShare (sAt V c n hn) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg1.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

/-- The call's proof data on core `c`: its arrays as it finds them; after the body each input's buffer at its
    block and the output's at the accumulator through the unit axis; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (sAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay3 (sAt V c t.val t.isLt) := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.Kernel.Region1

end
-- ==== Proof.Kernel.Region1.Runs.lean ====
/-
  The second gather call's body, run once per control case. The body branches twice on the innermost grid
  coordinate k: it zeroes the accumulator when k = 0, and copies the accumulator to the output block when k = 3;
  in between it always adds the block product to the accumulator. On a grid whose k runs over 0..3 that makes
  three cases: k = 0 (zero, add), k = 1, 2 (add), k = 3 (add, copy out). Each run says what the four buffers
  hold afterwards in terms of the skeleton's payloads: the inputs unchanged, the accumulator at the new sum, the
  output buffer untouched in the first two cases and at the accumulator's copy in the third.
-/
import proofs.«400157_j45320494907489_1_alg».proof.Proof.Kernel.Region1.Data
import proofs.«400157_j45320494907489_1_alg».proof.Proof.LibWholeStore

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, in closed form over the grid -/

/-- The accumulator is zeroed: k = 0. -/
abbrev cond_0 (i : grid1.Coords) : Prop := (Scalar.cmpi .ne (Scalar.extui (Scalar.cmpi .eq (BitVec.ofNat 32 (i 3).val) 0#32)) 0#32) = 1#1
theorem hcond_0 : ∀ t : Fin cfg1.N, cond_0 (grid1.coords t) ↔ t.val % 4 = 0 :=
  (by decide +kernel : ∀ t : Fin grid1.N, cond_0 (grid1.coords t) ↔ t.val % 4 = 0)

/-- The accumulator is copied out: k = 3. -/
abbrev cond_1 (i : grid1.Coords) : Prop := k1_cond2 i = 1#1
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Where k ≠ 3 the body stores nothing into the output block's buffer, and the pipeline does not write it back. -/
theorem idleAt_2 : ∀ t : Fin cfg1.N, ¬cond_1 (grid1.coords t) → cfg1.idle 2 (grid1.coords t) = true := by decide +kernel
theorem noFlush_2 : ∀ t : Fin cfg1.N, ¬cond_1 (grid1.coords t) → (cfg1.win 2).flush t = false := by decide +kernel
theorem liveAt_2 : ∀ t : Fin cfg1.N, cond_1 (grid1.coords t) → cfg1.idle 2 (grid1.coords t) = false := by decide +kernel

/-! ## The staging memrefs at a point -/

abbrev ms_0 (t : Fin cfg1.N) : Memref sig .tc .vmem S1x1152x2304 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1x1152 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1152x1152 .f32 := win1_2.stage (cfg1.slots t 2)
abbrev hs_2 (t : Fin cfg1.N) : (ms_2 t).IsWhole := hstage1_2 ((cfg1.slots t 2).cast nbuf1_2)

/-! ## The body's runs -/

/-- The zero offsets of a whole-block access, spelt as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- k = 0: the accumulator, whatever it held, is zeroed and the product added; the output buffer is not touched. -/
theorem run_A (c : Dev nD) (i : grid1.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k1_pay2 i x1 x0 k1_pay1)) -∗ K ⟨⟩))
      ⊢ wp frame (wpE (defs₀ (F := F)) Variants.none c none) E (cc1__onehot_gather_kernel i arg4 harg4 arg5 harg5 arg6 harg6 arg7 harg7) K := by
  simp only [cc1__onehot_gather_kernel_eq_skeleton]; unfold cc1__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 1, 2: the product is added to the accumulator the point before left; the output buffer is not touched. -/
theorem run_B (c : Dev nD) (i : grid1.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k1_pay2 i x1 x0 s)) -∗ K ⟨⟩))
      ⊢ wp frame (wpE (defs₀ (F := F)) Variants.none c none) E (cc1__onehot_gather_kernel i arg4 harg4 arg5 harg5 arg6 harg6 arg7 harg7) K := by
  simp only [cc1__onehot_gather_kernel_eq_skeleton]; unfold cc1__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 3: the product is added to the accumulator, and the new sum is copied whole into the output block's buffer. -/
theorem run_C (c : Dev nD) (i : grid1.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare (k1_pay3 (k1_pay2 i x1 x0 s)) ∗ owns (c : Thread nD τ) arg7 fullShare (k1_pay2 i x1 x0 s)) -∗ K ⟨⟩))
      ⊢ wp frame (wpE (defs₀ (F := F)) Variants.none c none) E (cc1__onehot_gather_kernel i arg4 harg4 arg5 harg5 arg6 harg6 arg7 harg7) K := by
  simp only [cc1__onehot_gather_kernel_eq_skeleton]; unfold cc1__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    (try sl_unfold_words)
    rw [WholeStore.read_writes_cons_unit_zero _ _ hz3]
    simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

end Cert.Kernel.Region1

end
-- ==== Proof.Kernel.Region1.Body.lean ====
/-
  The second gather call's body obligation. At a grid point the pipeline hands the body the three windows' current
  staging buffers (the two inputs at their blocks, the output's buffer at whatever it holds) and the invariant,
  which carries the accumulator: at anything before the first point, at the sum the point before left afterwards.
  The innermost coordinate k = t mod 4 selects the case. With k = 0 the body zeroes the accumulator whatever it
  held and adds the point's product; with k = 1, 2 it adds the product to the sum so far; with k = 3 it adds the
  product and copies the new sum into the output's buffer. In each case the accumulator ends at the point's sum,
  which is the invariant at the next position. Where k ≠ 3 the output window is idle and is not written back, so
  its buffer is returned as it came; where k = 3 it holds the sum read through the leading unit axis. The inputs'
  buffers are returned at their blocks.
-/
import proofs.«400157_j45320494907489_1_alg».proof.Proof.Kernel.Region1.Runs

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The invariant, with the accumulator's contents forgotten -/

/-- At every position the invariant holds the accumulator at some contents beside the other scoped buffers and
    the generator register: at the first by the class invariant, afterwards by forgetting the named sum. -/
theorem PhiS_open (c : Dev nD) (n : ℕ) (h : n ≤ cfg1.N) :
    PhiS V c n h
      ⊢ iprop(iprop((∃ d, owns (c : Thread nD τ) scM fullShare d) ∗ others c) ∗ (∃ r, prngReg c r)) := by
  by_cases hz : n = 0
  · rw [PhiS_zero V c n h hz]; exact PhiA_split c
  · rw [PhiS_pos V c n h hz]
    iintro ⟨⟨HS, Hoth⟩, Hg⟩
    isplitl [HS Hoth]
    · isplitl [HS]
      · iexists _; iexact HS
      iexact Hoth
    iexact Hg

/-! ## The body obligation, at a generic point -/

/-- What the body is called with at point t: the invariant, the core's debt, and each window's current buffer. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- What it returns: the invariant at the next position, the same debt, and each window's buffer as the body leaves it. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- Both input windows are live at every point: each buffer is left at its block. -/
theorem leaves_0 (c : Dev nD) (t : Fin cfg1.N) :
    (dat V c).leavesExact 0 t = owns (c : Thread nD τ) (ms_0 t) fullShare (iblk V c 0 t) := by
  unfold Dat.leavesExact; rw [liveAt_0 t, after_0]
theorem leaves_1 (c : Dev nD) (t : Fin cfg1.N) :
    (dat V c).leavesExact 1 t = owns (c : Thread nD τ) (ms_1 t) fullShare (iblk V c 1 t) := by
  unfold Dat.leavesExact; rw [liveAt_1 t, after_1]

/-- Where k = 3 the output window is live: its buffer is left at the sum read through the unit axis. -/
theorem leaves_2_live (c : Dev nD) (t : Fin cfg1.N) (hc1 : cond_1 (grid1.coords t)) :
    (dat V c).leavesExact 2 t = owns (c : Thread nD τ) (ms_2 t) fullShare (k1_pay3 (sAt V c t.val t.isLt)) := by
  unfold Dat.leavesExact; rw [liveAt_2 t hc1, after_2]

set_option maxHeartbeats 1600000 in
/-- k = 0. The accumulator is taken at whatever the invariant holds it at; it ends at the product added to zero. -/
theorem sound_body_A (c : Dev nD) (t : Fin cfg1.N) (h0 : t.val % 4 = 0) :
    bodyPre V c t ⊢ wp frame (wpE (defs₀ (F := F)) Variants.none c none) Set.univ (bodyAt1 t) (fun _ => bodyPost V c t) := by
  have h1 : ¬t.val % 4 = 3 := by omega
  have hc0 : cond_0 (grid1.coords t) := (hcond_0 t).mpr h0
  have hc1 : ¬cond_1 (grid1.coords t) := fun h => h1 ((hcond_1 t).mp h)
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_reset V c t h0, PhiS_castSucc V c t]
  iintro ⟨HΦ, Ho, ⟨%d0, H0⟩, ⟨%d1, H1⟩, ⟨%d2, H2⟩⟩
  ihave H := PhiS_open V c _ _ $$ HΦ
  icases H with ⟨⟨⟨%s, HS⟩, Hoth⟩, Hg⟩
  iapply (run_A c (grid1.coords t) (ms_0 t) (hs_0 t) (ms_1 t) (hs_1 t) (ms_2 t) (hs_2 t) scM (Memref.isWhole_whole _)
    hc0 hc1 (iblk V c 0 t) (iblk V c 1 t) ((dat V c).before 2 t d2) s Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 1, 2. The accumulator comes at the sum the point before left, and the product is added to it. -/
theorem sound_body_B (c : Dev nD) (t : Fin cfg1.N) (h0 : ¬t.val % 4 = 0) (h1 : ¬t.val % 4 = 3) :
    bodyPre V c t ⊢ wp frame (wpE (defs₀ (F := F)) Variants.none c none) Set.univ (bodyAt1 t) (fun _ => bodyPost V c t) := by
  have hz : t.val ≠ 0 := fun h => h0 (by rw [h])
  have hc0 : ¬cond_0 (grid1.coords t) := fun h => h0 ((hcond_0 t).mp h)
  have hc1 : ¬cond_1 (grid1.coords t) := fun h => h1 ((hcond_1 t).mp h)
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_B c (grid1.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 3. As for k = 1, 2, and the output's buffer, whatever it held, ends at the new sum through the unit axis. -/
theorem sound_body_C (c : Dev nD) (t : Fin cfg1.N) (h0 : ¬t.val % 4 = 0) (h1 : t.val % 4 = 3) :
    bodyPre V c t ⊢ wp frame (wpE (defs₀ (F := F)) Variants.none c none) Set.univ (bodyAt1 t) (fun _ => bodyPost V c t) := by
  have hz : t.val ≠ 0 := fun h => h0 (by rw [h])
  have hc0 : ¬cond_0 (grid1.coords t) := fun h => h0 ((hcond_0 t).mp h)
  have hc1 : cond_1 (grid1.coords t) := (hcond_1 t).mpr h1
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, leaves_2_live V c t hc1]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_C c (grid1.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexact H2

/-- The body at any point: k = t mod 4 says which of the three cases it is. -/
theorem sound_body (c : Dev nD) (t : Fin cfg1.N) :
    bodyPre V c t ⊢ wp frame (wpE (defs₀ (F := F)) Variants.none c none) Set.univ (bodyAt1 t) (fun _ => bodyPost V c t) := by
  by_cases h0 : t.val % 4 = 0
  · exact sound_body_A V c t h0
  · by_cases h1 : t.val % 4 = 3
    · exact sound_body_C V c t h0 h1
    · exact sound_body_B V c t h0 h1

/-- The pipeline's body obligation, at every point: its two products over the windows written out. -/
theorem body_obligation (c : Dev nD) : BodyObligation (dat (F := F) V c) (defs₀ (F := F)) Variants.none () Set.univ := fun t => by
  rw [bigSep_W1, bigSep_W1]
  exact sound_body V c t

/-- What the call is entered with, the class invariant, is the invariant before the first point. -/
theorem hin (c : Dev nD) : Pipeline.ΦA spec1 c ⊢ (dat V c).Φ 0 :=
  Entails.of_eq (PhiS_zero V c 0 (Nat.zero_le _) rfl).symm

/-- After the last point the invariant gives the class invariant back: the accumulator's named sum is forgotten. -/
theorem hout (c : Dev nD) : (dat V c).Φ (Fin.last cfg1.N) ⊢ Pipeline.ΦA spec1 c :=
  (PhiS_open V c (Fin.last cfg1.N).val (Nat.le_of_lt_succ (Fin.last cfg1.N).isLt)).trans (PhiA_join c)

end Cert.Kernel.Region1

end
-- ==== Proof.Kernel.Valuations.lean ====
/-
  The buffer contents at each boundary of the program's main function, as a fold from the launch memory: the five
  stretches of host operations that build both unfolded arrays and the index row, the first gather call (its
  arrays at what its write-backs leave, every other buffer as entered), the second gather call likewise, and the
  closing stretch that folds the gathered patches back and divides.
-/
import proofs.«400157_j45320494907489_1_alg».proof.Proof.Kernel.Region0.Data
import proofs.«400157_j45320494907489_1_alg».proof.Proof.Kernel.Region1.Data
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After each of the five host stretches before the calls, in order. -/
abbrev W0a : Dev nD → Valuation τ sig (Elt F) := fun c => StableHlo.after hostOps0 (W0 m ρ c)
abbrev W0b : Dev nD → Valuation τ sig (Elt F) := fun c => StableHlo.after hostOps0_1 (W0a m ρ c)
abbrev W0c : Dev nD → Valuation τ sig (Elt F) := fun c => StableHlo.after hostOps0_2 (W0b m ρ c)
abbrev W0d : Dev nD → Valuation τ sig (Elt F) := fun c => StableHlo.after hostOps0_3 (W0c m ρ c)
/-- At the first call's entry. -/
abbrev W1 : Dev nD → Valuation τ sig (Elt F) := fun c => StableHlo.after hostOps0_4 (W0d m ρ c)
/-- The same read at the TensorCore's references (what the first call's proof data take). -/
abbrev V1 : (c : Dev nD) → (b : Ref sig .tc) → Buf (Elt F) ((c : Thread nD τ).loc b) := fun c b => W1 m ρ c b

/-- At the first call's exit: its arrays at what the pipeline leaves, every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second call is entered from it: no host operation stands between). -/
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W4 (c : Dev nD) : Valuation τ sig (Elt F) :=
  Pipeline.withArrays spec1 c (W2 m ρ c) fun w => (Region1.dat (V2 m ρ) c).arrAt w cfg1.N
theorem W4_arr (c : Dev nD) (w : Fin cfg1.W) :
    W4 m ρ c (Proc.devRef .tc (Pipeline.arrRef spec1 w)) = (Region1.dat (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Region1.dat (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-- After the closing host stretch: what the program returns with. -/
abbrev W5 : Dev nD → Valuation τ sig (Elt F) := fun c => StableHlo.after hostOps2 (W4 m ρ c)

end Cert.Kernel.Run

end
-- ==== Proof.Kernel.Run.lean ====
/-
  The run of the idealized program's main function, composed from its eight items in order: five stretches of host
  operations (each taking every unscoped buffer from one boundary's contents to the next by the fold of its
  operations), the two gather calls back to back (each entered with its arrays split out of the unscoped buffers and
  left with them put back at what its write-backs leave, everything else as entered), and the closing stretch of
  host operations. The thread state between two items is every unscoped buffer at that boundary's contents, beside
  the generator register at some state and the core owing nothing. At the end every unscoped buffer is read at the
  last boundary's contents; the four argument arrays, which no operation and no call writes, are there as launched.
-/
import proofs.«400157_j45320494907489_1_alg».proof.Proof.Kernel.Region0.Body
import proofs.«400157_j45320494907489_1_alg».proof.Proof.Kernel.Region1.Body
import proofs.«400157_j45320494907489_1_alg».proof.Proof.Kernel.Valuations

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no call has a table. -/
abbrev adm : (p : Fin 2) → (pcfgs (F := F) p).Adm := fun p => (cfgs p).toPCfg_adm
/-- Both calls' proof data, each at the contents its call is entered with: the second call is entered with what
    the first leaves. -/
def pdats : (p : Fin 2) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along;
    it ends with those references at the fold of the operations over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! ## The two calls as items -/

set_option backward.isDefEq.respectTransparency.types false in
/-- Gather call 0 over the thread state: entered from every unscoped buffer at `W1`, left at `W2`. Its
    arrays are split out of the unscoped buffers and put back at the exit contents; the generator register goes
    into the call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (V1 m ρ) c)
    unfold Pipeline.ΦA
    iintro ⟨Hp, -, Hr⟩
    isplitl [Hr]; · iexact Hr
    iexact Hp
  hout c := by
    refine BIBase.Entails.trans (Region0.hout (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Gather call 1 over the thread state: entered from every unscoped buffer at `W2`, left at `W4`. Its
    arrays are split out of the unscoped buffers and put back at the exit contents; the generator register goes
    into the call's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (V2 m ρ) c)
    unfold Pipeline.ΦA
    iintro ⟨Hp, -, Hr⟩
    isplitl [Hr]; · iexact Hr
    iexact Hp
  hout c := by
    refine BIBase.Entails.trans (Region1.hout (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as its items, and the launch -/

/-- The eight items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W0a m ρ)),
    .host (hseg hostOps0_2 hostOps0_2_sub hostOps0_2_fresh (W0b m ρ)),
    .host (hseg hostOps0_3 hostOps0_3_sub hostOps0_3_fresh (W0c m ρ)),
    .host (hseg hostOps0_4 hostOps0_4_sub hostOps0_4_fresh (W0d m ρ)),
    .region (reg0 m ρ),
    .region (reg1 m ρ),
    .host (hseg hostOps2 hostOps2_sub hostOps2_fresh (W4 m ρ)) ]
/-- The main function is the run of the items: it is the chain of their programs, and the items' run unfolds to
    that chain. -/
theorem main_run (c : Dev nD) : main (F := F) c = Pipeline.Seg.run (segs m ρ) := (main_chain c).trans (by chain_rfl)

set_option backward.isDefEq.respectTransparency.types false in
/-- From any memory with zero counters every weakly fair execution of the main function terminates, nothing
    faulting, and any property of the final memory that follows from every unscoped buffer being at the last
    boundary's contents holds of it. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W5 m ρ c)
              ∗ (∃ r, prngReg c r) ∗ ∃ W, owes (c : Thread nD τ) (0 : CellTallies nD τ sig Unit) W)
            ⊢ iprop(Tₙ m ρ c ∗ ∃ W, owes (c : Thread nD τ) (0 : CellTallies nD τ sig Unit) W) from by
          iintro ⟨Hh, Hp, HO⟩
          isplitl [Hh Hp]
          · isplitl [Hh] <;> iassumption
          iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: every weakly fair execution terminates, nothing faulting, and the final memory has every unscoped buffer
    at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_of m ρ fun _ h => h

/-! ## The arguments end as launched

No host operation writes an argument array and neither call has one among its arrays, so the fold at an argument's
buffer walks back, boundary by boundary, to the launch memory. -/

/-- No operation of the stretch writes the reference at hand: each operation writes one reference, a different one. -/
local macro "unwritten " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (by unwritten hostOps2)
    _ = W2 m ρ c (Proc.devRef .tc main_arg0) := W4_of_ne m ρ c main_arg0 (by decide)
    _ = W1 m ρ c (Proc.devRef .tc main_arg0) := W2_of_ne m ρ c main_arg0 (by decide)
    _ = W0d m ρ c (Proc.devRef .tc main_arg0) := StableHlo.after_of_forall_not_mem (b := Proc.devRef .tc main_arg0) _ _ (by unwritten hostOps0_4)
    _ = W0c m ρ c (Proc.devRef .tc main_arg0) := StableHlo.after_of_forall_not_mem (b := Proc.devRef .tc main_arg0) _ _ (by unwritten hostOps0_3)
    _ = W0b m ρ c (Proc.devRef .tc main_arg0) := StableHlo.after_of_forall_not_mem (b := Proc.devRef .tc main_arg0) _ _ (by unwritten hostOps0_2)
    _ = W0a m ρ c (Proc.devRef .tc main_arg0) := StableHlo.after_of_forall_not_mem (b := Proc.devRef .tc main_arg0) _ _ (by unwritten hostOps0_1)
    _ = W0 m ρ c (Proc.devRef .tc main_arg0) := StableHlo.after_of_forall_not_mem (b := Proc.devRef .tc main_arg0) _ _ (by unwritten hostOps0)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (by unwritten hostOps2)
    _ = W2 m ρ c (Proc.devRef .tc main_arg1) := W4_of_ne m ρ c main_arg1 (by decide)
    _ = W1 m ρ c (Proc.devRef .tc main_arg1) := W2_of_ne m ρ c main_arg1 (by decide)
    _ = W0d m ρ c (Proc.devRef .tc main_arg1) := StableHlo.after_of_forall_not_mem (b := Proc.devRef .tc main_arg1) _ _ (by unwritten hostOps0_4)
    _ = W0c m ρ c (Proc.devRef .tc main_arg1) := StableHlo.after_of_forall_not_mem (b := Proc.devRef .tc main_arg1) _ _ (by unwritten hostOps0_3)
    _ = W0b m ρ c (Proc.devRef .tc main_arg1) := StableHlo.after_of_forall_not_mem (b := Proc.devRef .tc main_arg1) _ _ (by unwritten hostOps0_2)
    _ = W0a m ρ c (Proc.devRef .tc main_arg1) := StableHlo.after_of_forall_not_mem (b := Proc.devRef .tc main_arg1) _ _ (by unwritten hostOps0_1)
    _ = W0 m ρ c (Proc.devRef .tc main_arg1) := StableHlo.after_of_forall_not_mem (b := Proc.devRef .tc main_arg1) _ _ (by unwritten hostOps0)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (by unwritten hostOps2)
    _ = W2 m ρ c (Proc.devRef .tc main_arg2) := W4_of_ne m ρ c main_arg2 (by decide)
    _ = W1 m ρ c (Proc.devRef .tc main_arg2) := W2_of_ne m ρ c main_arg2 (by decide)
    _ = W0d m ρ c (Proc.devRef .tc main_arg2) := StableHlo.after_of_forall_not_mem (b := Proc.devRef .tc main_arg2) _ _ (by unwritten hostOps0_4)
    _ = W0c m ρ c (Proc.devRef .tc main_arg2) := StableHlo.after_of_forall_not_mem (b := Proc.devRef .tc main_arg2) _ _ (by unwritten hostOps0_3)
    _ = W0b m ρ c (Proc.devRef .tc main_arg2) := StableHlo.after_of_forall_not_mem (b := Proc.devRef .tc main_arg2) _ _ (by unwritten hostOps0_2)
    _ = W0a m ρ c (Proc.devRef .tc main_arg2) := StableHlo.after_of_forall_not_mem (b := Proc.devRef .tc main_arg2) _ _ (by unwritten hostOps0_1)
    _ = W0 m ρ c (Proc.devRef .tc main_arg2) := StableHlo.after_of_forall_not_mem (b := Proc.devRef .tc main_arg2) _ _ (by unwritten hostOps0)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (by unwritten hostOps2)
    _ = W2 m ρ c (Proc.devRef .tc main_arg3) := W4_of_ne m ρ c main_arg3 (by decide)
    _ = W1 m ρ c (Proc.devRef .tc main_arg3) := W2_of_ne m ρ c main_arg3 (by decide)
    _ = W0d m ρ c (Proc.devRef .tc main_arg3) := StableHlo.after_of_forall_not_mem (b := Proc.devRef .tc main_arg3) _ _ (by unwritten hostOps0_4)
    _ = W0c m ρ c (Proc.devRef .tc main_arg3) := StableHlo.after_of_forall_not_mem (b := Proc.devRef .tc main_arg3) _ _ (by unwritten hostOps0_3)
    _ = W0b m ρ c (Proc.devRef .tc main_arg3) := StableHlo.after_of_forall_not_mem (b := Proc.devRef .tc main_arg3) _ _ (by unwritten hostOps0_2)
    _ = W0a m ρ c (Proc.devRef .tc main_arg3) := StableHlo.after_of_forall_not_mem (b := Proc.devRef .tc main_arg3) _ _ (by unwritten hostOps0_1)
    _ = W0 m ρ c (Proc.devRef .tc main_arg3) := StableHlo.after_of_forall_not_mem (b := Proc.devRef .tc main_arg3) _ _ (by unwritten hostOps0)
    _ = m ((c : Thread nD τ).loc main_arg3) := rfl

/-- THE FRAME: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ fun s h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩

end Cert.Kernel.Run

end
-- ==== Proof.KernelIdeal.Region0.Scoped.lean ====
/-
  The first gather call's own scoped buffers. Its accumulator is one whole scoped buffer; the core's other scoped
  buffers that are no staging buffer of this call (the second call's staging buffers and accumulator) ride along
  at contents nobody names. The call's class invariant is the accumulator at some contents, beside those others
  and the generator register.
-/
import proofs.«400157_j45320494907489_1_alg».proof.Proof.Gen.KernelIdeal.Launch
import Idealize.ShloMosaic.Lib.Pipeline.Frame
import Idealize.ShloMosaic.Lib.Tactic

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator the kernel keeps between grid points, as a whole memref. -/
abbrev scM : Memref sig .tc .vmem S1152x1152 .f32 := Memref.whole cc0_scratch0

/-- The core's scoped buffers other than this call's staging buffers and accumulator, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant is the accumulator at some contents, the other scoped buffers, and the generator register. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA others; rw [scopedRest0_eq]; simp only [scM, owns_whole]; try rfl

/-- The class invariant opened into the accumulator, the other scoped buffers and the generator register, -/
theorem PhiA_split (c : Dev nD) :
    (Pipeline.ΦA spec0 c : sProp 𝕄)
      ⊢ iprop(iprop((∃ d, owns (c : Thread nD τ) scM fullShare d) ∗ others c) ∗ (∃ r, prngReg c r)) := by
  rw [PhiA_eq]

/-- and closed again. -/
theorem PhiA_join (c : Dev nD) :
    (iprop(iprop((∃ d, owns (c : Thread nD τ) scM fullShare d) ∗ others c) ∗ (∃ r, prngReg c r)) : sProp 𝕄)
      ⊢ Pipeline.ΦA spec0 c := by
  rw [PhiA_eq]

end Cert.KernelIdeal.Region0

end
-- ==== Proof.KernelIdeal.Region0.Data.lean ====
/-
  What the first gather call holds point by point. Its grid is (batch, row block, column block, k) with k innermost,
  so point t has k = t mod 4. The accumulator after point t is this point's product added to the accumulator the
  point before left, or to zero when k = 0; the output block's staging buffer, stored only at k = 3, is the
  accumulator read through the leading unit axis (at the other points nobody reads it). Both input windows are
  read, never written: after the body each still holds its block of the array the call was entered with.
-/
import proofs.«400157_j45320494907489_1_alg».proof.Proof.Gen.KernelIdeal.Launch
import proofs.«400157_j45320494907489_1_alg».proof.Proof.Gen.KernelIdeal.Skeleton
import proofs.«400157_j45320494907489_1_alg».proof.Proof.Gen.KernelIdeal.Points
import proofs.«400157_j45320494907489_1_alg».proof.Proof.KernelIdeal.Region0.Scoped
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The accumulator point by point -/

/-- The accumulator after the body at position `n`: the point's one-hot product added to zero where k = 0 and to
    what the point before left elsewhere. -/
def sAt (c : Dev nD) : (n : ℕ) → n < cfg0.N → Vec F S1152x1152 .f32
  | 0, hn => k0_pay2 (grid0.coords ⟨0, hn⟩) (iblk V c 1 ⟨0, hn⟩) (iblk V c 0 ⟨0, hn⟩) k0_pay1
  | n + 1, hn => k0_pay2 (grid0.coords ⟨n + 1, hn⟩) (iblk V c 1 ⟨n + 1, hn⟩) (iblk V c 0 ⟨n + 1, hn⟩)
      (if (n + 1) % 4 = 0 then k0_pay1 else sAt c n (Nat.lt_of_succ_lt hn))

/-- At a point with k = 0 the sum starts from zero. -/
theorem sAt_reset (c : Dev nD) (t : Fin cfg0.N) (h0 : t.val % 4 = 0) :
    sAt V c t.val t.isLt = k0_pay2 (grid0.coords t) (iblk V c 1 t) (iblk V c 0 t) k0_pay1 := by
  obtain ⟨n, hn⟩ := t
  cases n with
  | zero => rfl
  | succ n => exact congrArg (k0_pay2 _ _ _) (if_pos h0)

/-- At a point with k ≠ 0 the sum continues from the point before. -/
theorem sAt_step (c : Dev nD) (t : Fin cfg0.N) (h0 : ¬t.val % 4 = 0) :
    sAt V c t.val t.isLt = k0_pay2 (grid0.coords t) (iblk V c 1 t) (iblk V c 0 t)
      (sAt V c (t.val - 1) (Nat.lt_of_le_of_lt (Nat.sub_le _ _) t.isLt)) := by
  obtain ⟨n, hn⟩ := t
  cases n with
  | zero => exact absurd (Nat.zero_mod _) h0
  | succ n => exact congrArg (k0_pay2 _ _ _) (if_neg h0)

/-! ## The invariant -/

/-- Before position `n`: at the call's entry the class invariant (the accumulator at anything); afterwards the
    accumulator at what the point before left, the other scoped buffers at anything, the generator register. -/
def PhiS (c : Dev nD) : (n : ℕ) → n ≤ cfg0.N → sProp 𝕄
  | 0, _ => Pipeline.ΦA spec0 c
  | n + 1, hn => iprop(iprop(owns (c : Thread nD τ) scM fullShare (sAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

/-- The call's proof data on core `c`: its arrays as it finds them; after the body each input's buffer at its
    block and the output's at the accumulator through the unit axis; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (sAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay3 (sAt V c t.val t.isLt) := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.KernelIdeal.Region0

end
-- ==== Proof.KernelIdeal.Region0.Runs.lean ====
/-
  The first gather call's body, run once per control case. The body branches twice on the innermost grid
  coordinate k: it zeroes the accumulator when k = 0, and copies the accumulator to the output block when k = 3;
  in between it always adds the block product to the accumulator. On a grid whose k runs over 0..3 that makes
  three cases: k = 0 (zero, add), k = 1, 2 (add), k = 3 (add, copy out). Each run says what the four buffers
  hold afterwards in terms of the skeleton's payloads: the inputs unchanged, the accumulator at the new sum, the
  output buffer untouched in the first two cases and at the accumulator's copy in the third.
-/
import proofs.«400157_j45320494907489_1_alg».proof.Proof.KernelIdeal.Region0.Data
import proofs.«400157_j45320494907489_1_alg».proof.Proof.LibWholeStore

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, in closed form over the grid -/

/-- The accumulator is zeroed: k = 0. -/
abbrev cond_0 (i : grid0.Coords) : Prop := (Scalar.cmpi .ne (Scalar.extui (Scalar.cmpi .eq (BitVec.ofNat 32 (i 3).val) 0#32)) 0#32) = 1#1
theorem hcond_0 : ∀ t : Fin cfg0.N, cond_0 (grid0.coords t) ↔ t.val % 4 = 0 :=
  (by decide +kernel : ∀ t : Fin grid0.N, cond_0 (grid0.coords t) ↔ t.val % 4 = 0)

/-- The accumulator is copied out: k = 3. -/
abbrev cond_1 (i : grid0.Coords) : Prop := k0_cond2 i = 1#1
theorem hcond_1 : ∀ t : Fin cfg0.N, cond_1 (grid0.coords t) ↔ t.val % 4 = 3 :=
  (by decide +kernel : ∀ t : Fin grid0.N, cond_1 (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Where k ≠ 3 the body stores nothing into the output block's buffer, and the pipeline does not write it back. -/
theorem idleAt_2 : ∀ t : Fin cfg0.N, ¬cond_1 (grid0.coords t) → cfg0.idle 2 (grid0.coords t) = true := by decide +kernel
theorem noFlush_2 : ∀ t : Fin cfg0.N, ¬cond_1 (grid0.coords t) → (cfg0.win 2).flush t = false := by decide +kernel
theorem liveAt_2 : ∀ t : Fin cfg0.N, cond_1 (grid0.coords t) → cfg0.idle 2 (grid0.coords t) = false := by decide +kernel

/-! ## The staging memrefs at a point -/

abbrev ms_0 (t : Fin cfg0.N) : Memref sig .tc .vmem S1x1152x2304 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1x1152 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1152x1152 .f32 := win0_2.stage (cfg0.slots t 2)
abbrev hs_2 (t : Fin cfg0.N) : (ms_2 t).IsWhole := hstage0_2 ((cfg0.slots t 2).cast nbuf0_2)

/-! ## The body's runs -/

/-- The zero offsets of a whole-block access, spelt as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- k = 0: the accumulator, whatever it held, is zeroed and the product added; the output buffer is not touched. -/
theorem run_A (c : Dev nD) (i : grid0.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k0_pay2 i x1 x0 k0_pay1)) -∗ K ⟨⟩))
      ⊢ wp frame (wpE (defs₀ (F := F)) Variants.none c none) E (cc0__onehot_gather_kernel i arg4 harg4 arg5 harg5 arg6 harg6 arg7 harg7) K := by
  simp only [cc0__onehot_gather_kernel_eq_skeleton]; unfold cc0__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 1, 2: the product is added to the accumulator the point before left; the output buffer is not touched. -/
theorem run_B (c : Dev nD) (i : grid0.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k0_pay2 i x1 x0 s)) -∗ K ⟨⟩))
      ⊢ wp frame (wpE (defs₀ (F := F)) Variants.none c none) E (cc0__onehot_gather_kernel i arg4 harg4 arg5 harg5 arg6 harg6 arg7 harg7) K := by
  simp only [cc0__onehot_gather_kernel_eq_skeleton]; unfold cc0__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 3: the product is added to the accumulator, and the new sum is copied whole into the output block's buffer. -/
theorem run_C (c : Dev nD) (i : grid0.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare (k0_pay3 (k0_pay2 i x1 x0 s)) ∗ owns (c : Thread nD τ) arg7 fullShare (k0_pay2 i x1 x0 s)) -∗ K ⟨⟩))
      ⊢ wp frame (wpE (defs₀ (F := F)) Variants.none c none) E (cc0__onehot_gather_kernel i arg4 harg4 arg5 harg5 arg6 harg6 arg7 harg7) K := by
  simp only [cc0__onehot_gather_kernel_eq_skeleton]; unfold cc0__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    (try sl_unfold_words)
    rw [WholeStore.read_writes_cons_unit_zero _ _ hz3]
    simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

end Cert.KernelIdeal.Region0

end
-- ==== Proof.KernelIdeal.Region0.Body.lean ====
/-
  The first gather call's body obligation. At a grid point the pipeline hands the body the three windows' current
  staging buffers (the two inputs at their blocks, the output's buffer at whatever it holds) and the invariant,
  which carries the accumulator: at anything before the first point, at the sum the point before left afterwards.
  The innermost coordinate k = t mod 4 selects the case. With k = 0 the body zeroes the accumulator whatever it
  held and adds the point's product; with k = 1, 2 it adds the product to the sum so far; with k = 3 it adds the
  product and copies the new sum into the output's buffer. In each case the accumulator ends at the point's sum,
  which is the invariant at the next position. Where k ≠ 3 the output window is idle and is not written back, so
  its buffer is returned as it came; where k = 3 it holds the sum read through the leading unit axis. The inputs'
  buffers are returned at their blocks.
-/
import proofs.«400157_j45320494907489_1_alg».proof.Proof.KernelIdeal.Region0.Runs

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The invariant, with the accumulator's contents forgotten -/

/-- At every position the invariant holds the accumulator at some contents beside the other scoped buffers and
    the generator register: at the first by the class invariant, afterwards by forgetting the named sum. -/
theorem PhiS_open (c : Dev nD) (n : ℕ) (h : n ≤ cfg0.N) :
    PhiS V c n h
      ⊢ iprop(iprop((∃ d, owns (c : Thread nD τ) scM fullShare d) ∗ others c) ∗ (∃ r, prngReg c r)) := by
  by_cases hz : n = 0
  · rw [PhiS_zero V c n h hz]; exact PhiA_split c
  · rw [PhiS_pos V c n h hz]
    iintro ⟨⟨HS, Hoth⟩, Hg⟩
    isplitl [HS Hoth]
    · isplitl [HS]
      · iexists _; iexact HS
      iexact Hoth
    iexact Hg

/-! ## The body obligation, at a generic point -/

/-- What the body is called with at point t: the invariant, the core's debt, and each window's current buffer. -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- What it returns: the invariant at the next position, the same debt, and each window's buffer as the body leaves it. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

/-- Both input windows are live at every point: each buffer is left at its block. -/
theorem leaves_0 (c : Dev nD) (t : Fin cfg0.N) :
    (dat V c).leavesExact 0 t = owns (c : Thread nD τ) (ms_0 t) fullShare (iblk V c 0 t) := by
  unfold Dat.leavesExact; rw [liveAt_0 t, after_0]
theorem leaves_1 (c : Dev nD) (t : Fin cfg0.N) :
    (dat V c).leavesExact 1 t = owns (c : Thread nD τ) (ms_1 t) fullShare (iblk V c 1 t) := by
  unfold Dat.leavesExact; rw [liveAt_1 t, after_1]

/-- Where k = 3 the output window is live: its buffer is left at the sum read through the unit axis. -/
theorem leaves_2_live (c : Dev nD) (t : Fin cfg0.N) (hc1 : cond_1 (grid0.coords t)) :
    (dat V c).leavesExact 2 t = owns (c : Thread nD τ) (ms_2 t) fullShare (k0_pay3 (sAt V c t.val t.isLt)) := by
  unfold Dat.leavesExact; rw [liveAt_2 t hc1, after_2]

set_option maxHeartbeats 1600000 in
/-- k = 0. The accumulator is taken at whatever the invariant holds it at; it ends at the product added to zero. -/
theorem sound_body_A (c : Dev nD) (t : Fin cfg0.N) (h0 : t.val % 4 = 0) :
    bodyPre V c t ⊢ wp frame (wpE (defs₀ (F := F)) Variants.none c none) Set.univ (bodyAt0 t) (fun _ => bodyPost V c t) := by
  have h1 : ¬t.val % 4 = 3 := by omega
  have hc0 : cond_0 (grid0.coords t) := (hcond_0 t).mpr h0
  have hc1 : ¬cond_1 (grid0.coords t) := fun h => h1 ((hcond_1 t).mp h)
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_reset V c t h0, PhiS_castSucc V c t]
  iintro ⟨HΦ, Ho, ⟨%d0, H0⟩, ⟨%d1, H1⟩, ⟨%d2, H2⟩⟩
  ihave H := PhiS_open V c _ _ $$ HΦ
  icases H with ⟨⟨⟨%s, HS⟩, Hoth⟩, Hg⟩
  iapply (run_A c (grid0.coords t) (ms_0 t) (hs_0 t) (ms_1 t) (hs_1 t) (ms_2 t) (hs_2 t) scM (Memref.isWhole_whole _)
    hc0 hc1 (iblk V c 0 t) (iblk V c 1 t) ((dat V c).before 2 t d2) s Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 1, 2. The accumulator comes at the sum the point before left, and the product is added to it. -/
theorem sound_body_B (c : Dev nD) (t : Fin cfg0.N) (h0 : ¬t.val % 4 = 0) (h1 : ¬t.val % 4 = 3) :
    bodyPre V c t ⊢ wp frame (wpE (defs₀ (F := F)) Variants.none c none) Set.univ (bodyAt0 t) (fun _ => bodyPost V c t) := by
  have hz : t.val ≠ 0 := fun h => h0 (by rw [h])
  have hc0 : ¬cond_0 (grid0.coords t) := fun h => h0 ((hcond_0 t).mp h)
  have hc1 : ¬cond_1 (grid0.coords t) := fun h => h1 ((hcond_1 t).mp h)
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_B c (grid0.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 3. As for k = 1, 2, and the output's buffer, whatever it held, ends at the new sum through the unit axis. -/
theorem sound_body_C (c : Dev nD) (t : Fin cfg0.N) (h0 : ¬t.val % 4 = 0) (h1 : t.val % 4 = 3) :
    bodyPre V c t ⊢ wp frame (wpE (defs₀ (F := F)) Variants.none c none) Set.univ (bodyAt0 t) (fun _ => bodyPost V c t) := by
  have hz : t.val ≠ 0 := fun h => h0 (by rw [h])
  have hc0 : ¬cond_0 (grid0.coords t) := fun h => h0 ((hcond_0 t).mp h)
  have hc1 : cond_1 (grid0.coords t) := (hcond_1 t).mpr h1
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, leaves_2_live V c t hc1]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_C c (grid0.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexact H2

/-- The body at any point: k = t mod 4 says which of the three cases it is. -/
theorem sound_body (c : Dev nD) (t : Fin cfg0.N) :
    bodyPre V c t ⊢ wp frame (wpE (defs₀ (F := F)) Variants.none c none) Set.univ (bodyAt0 t) (fun _ => bodyPost V c t) := by
  by_cases h0 : t.val % 4 = 0
  · exact sound_body_A V c t h0
  · by_cases h1 : t.val % 4 = 3
    · exact sound_body_C V c t h0 h1
    · exact sound_body_B V c t h0 h1

/-- The pipeline's body obligation, at every point: its two products over the windows written out. -/
theorem body_obligation (c : Dev nD) : BodyObligation (dat (F := F) V c) (defs₀ (F := F)) Variants.none () Set.univ := fun t => by
  rw [bigSep_W0, bigSep_W0]
  exact sound_body V c t

/-- What the call is entered with, the class invariant, is the invariant before the first point. -/
theorem hin (c : Dev nD) : Pipeline.ΦA spec0 c ⊢ (dat V c).Φ 0 :=
  Entails.of_eq (PhiS_zero V c 0 (Nat.zero_le _) rfl).symm

/-- After the last point the invariant gives the class invariant back: the accumulator's named sum is forgotten. -/
theorem hout (c : Dev nD) : (dat V c).Φ (Fin.last cfg0.N) ⊢ Pipeline.ΦA spec0 c :=
  (PhiS_open V c (Fin.last cfg0.N).val (Nat.le_of_lt_succ (Fin.last cfg0.N).isLt)).trans (PhiA_join c)

end Cert.KernelIdeal.Region0

end
-- ==== Proof.KernelIdeal.Region1.Scoped.lean ====
/-
  The second gather call's own scoped buffers. Its accumulator is one whole scoped buffer; the core's other scoped
  buffers that are no staging buffer of this call (the first call's staging buffers and accumulator) ride along
  at contents nobody names. The call's class invariant is the accumulator at some contents, beside those others
  and the generator register.
-/
import proofs.«400157_j45320494907489_1_alg».proof.Proof.Gen.KernelIdeal.Launch
import Idealize.ShloMosaic.Lib.Pipeline.Frame
import Idealize.ShloMosaic.Lib.Tactic

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The accumulator the kernel keeps between grid points, as a whole memref. -/
abbrev scM : Memref sig .tc .vmem S1152x1152 .f32 := Memref.whole cc1_scratch0

/-- The core's scoped buffers other than this call's staging buffers and accumulator, each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant opened into the accumulator, the other scoped buffers and the generator register, -/
theorem PhiA_split (c : Dev nD) :
    (Pipeline.ΦA spec1 c : sProp 𝕄)
      ⊢ iprop(iprop((∃ d, owns (c : Thread nD τ) scM fullShare d) ∗ others c) ∗ (∃ r, prngReg c r)) := by
  unfold Pipeline.ΦA others; rw [scopedRest1_eq]; simp only [scM, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- and closed again. -/
theorem PhiA_join (c : Dev nD) :
    (iprop(iprop((∃ d, owns (c : Thread nD τ) scM fullShare d) ∗ others c) ∗ (∃ r, prngReg c r)) : sProp 𝕄)
      ⊢ Pipeline.ΦA spec1 c := by
  unfold Pipeline.ΦA others; rw [scopedRest1_eq]; simp only [scM, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Region1

end
-- ==== Proof.KernelIdeal.Region1.Data.lean ====
/-
  What the second gather call holds point by point. Its grid is (batch, row block, column block, k) with k innermost,
  so point t has k = t mod 4. The accumulator after point t is this point's product added to the accumulator the
  point before left, or to zero when k = 0; the output block's staging buffer, stored only at k = 3, is the
  accumulator read through the leading unit axis (at the other points nobody reads it). Both input windows are
  read, never written: after the body each still holds its block of the array the call was entered with.
-/
import proofs.«400157_j45320494907489_1_alg».proof.Proof.Gen.KernelIdeal.Launch
import proofs.«400157_j45320494907489_1_alg».proof.Proof.Gen.KernelIdeal.Skeleton
import proofs.«400157_j45320494907489_1_alg».proof.Proof.Gen.KernelIdeal.Points
import proofs.«400157_j45320494907489_1_alg».proof.Proof.KernelIdeal.Region1.Scoped
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator point by point -/

/-- The accumulator after the body at position `n`: the point's one-hot product added to zero where k = 0 and to
    what the point before left elsewhere. -/
def sAt (c : Dev nD) : (n : ℕ) → n < cfg1.N → Vec F S1152x1152 .f32
  | 0, hn => k1_pay2 (grid1.coords ⟨0, hn⟩) (iblk V c 1 ⟨0, hn⟩) (iblk V c 0 ⟨0, hn⟩) k1_pay1
  | n + 1, hn => k1_pay2 (grid1.coords ⟨n + 1, hn⟩) (iblk V c 1 ⟨n + 1, hn⟩) (iblk V c 0 ⟨n + 1, hn⟩)
      (if (n + 1) % 4 = 0 then k1_pay1 else sAt c n (Nat.lt_of_succ_lt hn))

/-- At a point with k = 0 the sum starts from zero. -/
theorem sAt_reset (c : Dev nD) (t : Fin cfg1.N) (h0 : t.val % 4 = 0) :
    sAt V c t.val t.isLt = k1_pay2 (grid1.coords t) (iblk V c 1 t) (iblk V c 0 t) k1_pay1 := by
  obtain ⟨n, hn⟩ := t
  cases n with
  | zero => rfl
  | succ n => exact congrArg (k1_pay2 _ _ _) (if_pos h0)

/-- At a point with k ≠ 0 the sum continues from the point before. -/
theorem sAt_step (c : Dev nD) (t : Fin cfg1.N) (h0 : ¬t.val % 4 = 0) :
    sAt V c t.val t.isLt = k1_pay2 (grid1.coords t) (iblk V c 1 t) (iblk V c 0 t)
      (sAt V c (t.val - 1) (Nat.lt_of_le_of_lt (Nat.sub_le _ _) t.isLt)) := by
  obtain ⟨n, hn⟩ := t
  cases n with
  | zero => exact absurd (Nat.zero_mod _) h0
  | succ n => exact congrArg (k1_pay2 _ _ _) (if_neg h0)

/-! ## The invariant -/

/-- Before position `n`: at the call's entry the class invariant (the accumulator at anything); afterwards the
    accumulator at what the point before left, the other scoped buffers at anything, the generator register. -/
def PhiS (c : Dev nD) : (n : ℕ) → n ≤ cfg1.N → sProp 𝕄
  | 0, _ => Pipeline.ΦA spec1 c
  | n + 1, hn => iprop(iprop(owns (c : Thread nD τ) scM fullShare (sAt V c n hn) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (sAt V c n hn) ∗ others c) ∗ (∃ r, prngReg c r)) := rfl

theorem PhiS_pos (c : Dev nD) (n : ℕ) (h : n ≤ cfg1.N) (hz : n ≠ 0) :
    PhiS V c n h = iprop(iprop(owns (c : Thread nD τ) scM fullShare (sAt V c (n - 1) (by omega)) ∗ others c) ∗ (∃ r, prngReg c r)) := by
  cases n with
  | zero => exact absurd rfl hz
  | succ n => rfl

/-! ## The proof data -/

/-- The call's proof data on core `c`: its arrays as it finds them; after the body each input's buffer at its
    block and the output's at the accumulator through the unit axis; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay3 (sAt V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay3 (sAt V c t.val t.isLt) := by dsimp only [dat]

/-- Each input's current staging buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

end Cert.KernelIdeal.Region1

end
-- ==== Proof.KernelIdeal.Region1.Runs.lean ====
/-
  The second gather call's body, run once per control case. The body branches twice on the innermost grid
  coordinate k: it zeroes the accumulator when k = 0, and copies the accumulator to the output block when k = 3;
  in between it always adds the block product to the accumulator. On a grid whose k runs over 0..3 that makes
  three cases: k = 0 (zero, add), k = 1, 2 (add), k = 3 (add, copy out). Each run says what the four buffers
  hold afterwards in terms of the skeleton's payloads: the inputs unchanged, the accumulator at the new sum, the
  output buffer untouched in the first two cases and at the accumulator's copy in the third.
-/
import proofs.«400157_j45320494907489_1_alg».proof.Proof.KernelIdeal.Region1.Data
import proofs.«400157_j45320494907489_1_alg».proof.Proof.LibWholeStore

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, in closed form over the grid -/

/-- The accumulator is zeroed: k = 0. -/
abbrev cond_0 (i : grid1.Coords) : Prop := (Scalar.cmpi .ne (Scalar.extui (Scalar.cmpi .eq (BitVec.ofNat 32 (i 3).val) 0#32)) 0#32) = 1#1
theorem hcond_0 : ∀ t : Fin cfg1.N, cond_0 (grid1.coords t) ↔ t.val % 4 = 0 :=
  (by decide +kernel : ∀ t : Fin grid1.N, cond_0 (grid1.coords t) ↔ t.val % 4 = 0)

/-- The accumulator is copied out: k = 3. -/
abbrev cond_1 (i : grid1.Coords) : Prop := k1_cond2 i = 1#1
theorem hcond_1 : ∀ t : Fin cfg1.N, cond_1 (grid1.coords t) ↔ t.val % 4 = 3 :=
  (by decide +kernel : ∀ t : Fin grid1.N, cond_1 (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
/-- Where k ≠ 3 the body stores nothing into the output block's buffer, and the pipeline does not write it back. -/
theorem idleAt_2 : ∀ t : Fin cfg1.N, ¬cond_1 (grid1.coords t) → cfg1.idle 2 (grid1.coords t) = true := by decide +kernel
theorem noFlush_2 : ∀ t : Fin cfg1.N, ¬cond_1 (grid1.coords t) → (cfg1.win 2).flush t = false := by decide +kernel
theorem liveAt_2 : ∀ t : Fin cfg1.N, cond_1 (grid1.coords t) → cfg1.idle 2 (grid1.coords t) = false := by decide +kernel

/-! ## The staging memrefs at a point -/

abbrev ms_0 (t : Fin cfg1.N) : Memref sig .tc .vmem S1x1152x2304 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1x1152 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1152x1152 .f32 := win1_2.stage (cfg1.slots t 2)
abbrev hs_2 (t : Fin cfg1.N) : (ms_2 t).IsWhole := hstage1_2 ((cfg1.slots t 2).cast nbuf1_2)

/-! ## The body's runs -/

/-- The zero offsets of a whole-block access, spelt as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- k = 0: the accumulator, whatever it held, is zeroed and the product added; the output buffer is not touched. -/
theorem run_A (c : Dev nD) (i : grid1.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k1_pay2 i x1 x0 k1_pay1)) -∗ K ⟨⟩))
      ⊢ wp frame (wpE (defs₀ (F := F)) Variants.none c none) E (cc1__onehot_gather_kernel i arg4 harg4 arg5 harg5 arg6 harg6 arg7 harg7) K := by
  simp only [cc1__onehot_gather_kernel_eq_skeleton]; unfold cc1__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 1, 2: the product is added to the accumulator the point before left; the output buffer is not touched. -/
theorem run_B (c : Dev nD) (i : grid1.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : ¬cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (k1_pay2 i x1 x0 s)) -∗ K ⟨⟩))
      ⊢ wp frame (wpE (defs₀ (F := F)) Variants.none c none) E (cc1__onehot_gather_kernel i arg4 harg4 arg5 harg5 arg6 harg6 arg7 harg7) K := by
  simp only [cc1__onehot_gather_kernel_eq_skeleton]; unfold cc1__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

set_option maxHeartbeats 1000000 in
/-- k = 3: the product is added to the accumulator, and the new sum is copied whole into the output block's buffer. -/
theorem run_C (c : Dev nD) (i : grid1.Coords) (arg4 : Memref sig .tc .vmem S1x1152x2304 .bf16) (harg4 : arg4.IsWhole) (arg5 : Memref sig .tc .vmem S1x1x1152 .i32) (harg5 : arg5.IsWhole) (arg6 : Memref sig .tc .vmem S1x1152x1152 .f32) (harg6 : arg6.IsWhole) (arg7 : Memref sig .tc .vmem S1152x1152 .f32) (harg7 : arg7.IsWhole)
    (hc0 : ¬cond_0 i) (hc1 : cond_1 i)
    (x0 : Vec F S1x1152x2304 .bf16) (x1 : Vec F S1x1x1152 .i32) (xo : Vec F S1x1152x1152 .f32) (s : Vec F S1152x1152 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare (k1_pay3 (k1_pay2 i x1 x0 s)) ∗ owns (c : Thread nD τ) arg7 fullShare (k1_pay2 i x1 x0 s)) -∗ K ⟨⟩))
      ⊢ wp frame (wpE (defs₀ (F := F)) Variants.none c none) E (cc1__onehot_gather_kernel i arg4 harg4 arg5 harg5 arg6 harg6 arg7 harg7) K := by
  simp only [cc1__onehot_gather_kernel_eq_skeleton]; unfold cc1__onehot_gather_kernel_skel
  unfold owns
  iintro ⟨⟨%f0, %hf0, H0⟩, ⟨%f1, %hf1, H1⟩, ⟨%f2, %hf2, H2⟩, ⟨%f3, %hf3, H3⟩, Hk⟩
  obtain rfl := harg4.eq_unread hf0; obtain rfl := harg5.eq_unread hf1; obtain rfl := harg6.eq_unread hf2; obtain rfl := harg7.eq_unread hf3
  sl_exec (disch := first | exact hc0 | exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    (try sl_unfold_words)
    rw [WholeStore.read_writes_cons_unit_zero _ _ hz3]
    simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]
  iexists _; isplitr
  swap; · iexact H3
  ipureintro
  (try sl_unfold_words)
  rw [WholeStore.read_writes_cons_unit_zero _ _ hz2]
  simp only [View.readAt_eq_ld, harg4.read_unread, harg5.read_unread, harg6.read_unread, harg7.read_unread, View.ld_unit_zero (S := S1x1x1152) hz3, View.ld_unit_zero (S := S1x1152x2304) hz3, View.ld_unit_zero (S := S1x1152x1152) hz3, View.ld_unit_zero (S := S1152x1152) hz2, View.readCov_unit_zero (S := S1152x1152) _ hz2]

end Cert.KernelIdeal.Region1

end
-- ==== Proof.KernelIdeal.Region1.Body.lean ====
/-
  The second gather call's body obligation. At a grid point the pipeline hands the body the three windows' current
  staging buffers (the two inputs at their blocks, the output's buffer at whatever it holds) and the invariant,
  which carries the accumulator: at anything before the first point, at the sum the point before left afterwards.
  The innermost coordinate k = t mod 4 selects the case. With k = 0 the body zeroes the accumulator whatever it
  held and adds the point's product; with k = 1, 2 it adds the product to the sum so far; with k = 3 it adds the
  product and copies the new sum into the output's buffer. In each case the accumulator ends at the point's sum,
  which is the invariant at the next position. Where k ≠ 3 the output window is idle and is not written back, so
  its buffer is returned as it came; where k = 3 it holds the sum read through the leading unit axis. The inputs'
  buffers are returned at their blocks.
-/
import proofs.«400157_j45320494907489_1_alg».proof.Proof.KernelIdeal.Region1.Runs

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the call is entered: a parameter, which the run instantiates
variable (V : (c : Dev nD) → (b : Ref sig .tc) → Buf (Elt F) ((c : Thread nD τ).loc b))

/-! ## The invariant, with the accumulator's contents forgotten -/

/-- At every position the invariant holds the accumulator at some contents beside the other scoped buffers and
    the generator register: at the first by the class invariant, afterwards by forgetting the named sum. -/
theorem PhiS_open (c : Dev nD) (n : ℕ) (h : n ≤ cfg1.N) :
    PhiS V c n h
      ⊢ iprop(iprop((∃ d, owns (c : Thread nD τ) scM fullShare d) ∗ others c) ∗ (∃ r, prngReg c r)) := by
  by_cases hz : n = 0
  · rw [PhiS_zero V c n h hz]; exact PhiA_split c
  · rw [PhiS_pos V c n h hz]
    iintro ⟨⟨HS, Hoth⟩, Hg⟩
    isplitl [HS Hoth]
    · isplitl [HS]
      · iexists _; iexact HS
      iexact Hoth
    iexact Hg

/-! ## The body obligation, at a generic point -/

/-- What the body is called with at point t: the invariant, the core's debt, and each window's current buffer. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- What it returns: the invariant at the next position, the same debt, and each window's buffer as the body leaves it. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

/-- Both input windows are live at every point: each buffer is left at its block. -/
theorem leaves_0 (c : Dev nD) (t : Fin cfg1.N) :
    (dat V c).leavesExact 0 t = owns (c : Thread nD τ) (ms_0 t) fullShare (iblk V c 0 t) := by
  unfold Dat.leavesExact; rw [liveAt_0 t, after_0]
theorem leaves_1 (c : Dev nD) (t : Fin cfg1.N) :
    (dat V c).leavesExact 1 t = owns (c : Thread nD τ) (ms_1 t) fullShare (iblk V c 1 t) := by
  unfold Dat.leavesExact; rw [liveAt_1 t, after_1]

/-- Where k = 3 the output window is live: its buffer is left at the sum read through the unit axis. -/
theorem leaves_2_live (c : Dev nD) (t : Fin cfg1.N) (hc1 : cond_1 (grid1.coords t)) :
    (dat V c).leavesExact 2 t = owns (c : Thread nD τ) (ms_2 t) fullShare (k1_pay3 (sAt V c t.val t.isLt)) := by
  unfold Dat.leavesExact; rw [liveAt_2 t hc1, after_2]

set_option maxHeartbeats 1600000 in
/-- k = 0. The accumulator is taken at whatever the invariant holds it at; it ends at the product added to zero. -/
theorem sound_body_A (c : Dev nD) (t : Fin cfg1.N) (h0 : t.val % 4 = 0) :
    bodyPre V c t ⊢ wp frame (wpE (defs₀ (F := F)) Variants.none c none) Set.univ (bodyAt1 t) (fun _ => bodyPost V c t) := by
  have h1 : ¬t.val % 4 = 3 := by omega
  have hc0 : cond_0 (grid1.coords t) := (hcond_0 t).mpr h0
  have hc1 : ¬cond_1 (grid1.coords t) := fun h => h1 ((hcond_1 t).mp h)
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_reset V c t h0, PhiS_castSucc V c t]
  iintro ⟨HΦ, Ho, ⟨%d0, H0⟩, ⟨%d1, H1⟩, ⟨%d2, H2⟩⟩
  ihave H := PhiS_open V c _ _ $$ HΦ
  icases H with ⟨⟨⟨%s, HS⟩, Hoth⟩, Hg⟩
  iapply (run_A c (grid1.coords t) (ms_0 t) (hs_0 t) (ms_1 t) (hs_1 t) (ms_2 t) (hs_2 t) scM (Memref.isWhole_whole _)
    hc0 hc1 (iblk V c 0 t) (iblk V c 1 t) ((dat V c).before 2 t d2) s Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 1, 2. The accumulator comes at the sum the point before left, and the product is added to it. -/
theorem sound_body_B (c : Dev nD) (t : Fin cfg1.N) (h0 : ¬t.val % 4 = 0) (h1 : ¬t.val % 4 = 3) :
    bodyPre V c t ⊢ wp frame (wpE (defs₀ (F := F)) Variants.none c none) Set.univ (bodyAt1 t) (fun _ => bodyPost V c t) := by
  have hz : t.val ≠ 0 := fun h => h0 (by rw [h])
  have hc0 : ¬cond_0 (grid1.coords t) := fun h => h0 ((hcond_0 t).mp h)
  have hc1 : ¬cond_1 (grid1.coords t) := fun h => h1 ((hcond_1 t).mp h)
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, Dat.leavesExact_idle (dat V c) 2 t (idleAt_2 t hc1) (noFlush_2 t hc1)]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_B c (grid1.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexists _; iexact H2

set_option maxHeartbeats 1600000 in
/-- k = 3. As for k = 1, 2, and the output's buffer, whatever it held, ends at the new sum through the unit axis. -/
theorem sound_body_C (c : Dev nD) (t : Fin cfg1.N) (h0 : ¬t.val % 4 = 0) (h1 : t.val % 4 = 3) :
    bodyPre V c t ⊢ wp frame (wpE (defs₀ (F := F)) Variants.none c none) Set.univ (bodyAt1 t) (fun _ => bodyPost V c t) := by
  have hz : t.val ≠ 0 := fun h => h0 (by rw [h])
  have hc0 : ¬cond_0 (grid1.coords t) := fun h => h0 ((hcond_0 t).mp h)
  have hc1 : cond_1 (grid1.coords t) := (hcond_1 t).mpr h1
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1, leaves_2_live V c t hc1]
  rw [sAt_step V c t h0, PhiS_castSucc V c t, PhiS_pos V c _ _ hz]
  iintro ⟨⟨⟨HS, Hoth⟩, Hg⟩, Ho, ⟨%d0, H0⟩, ⟨%d1, H1⟩, ⟨%d2, H2⟩⟩
  iapply (run_C c (grid1.coords t) (ms_0 t) (hs_0 t) (ms_1 t) (hs_1 t) (ms_2 t) (hs_2 t) scM (Memref.isWhole_whole _)
    hc0 hc1 (iblk V c 0 t) (iblk V c 1 t) ((dat V c).before 2 t d2)
    (sAt V c (t.val - 1) (Nat.lt_of_le_of_lt (Nat.sub_le _ _) t.isLt)) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iexact H2

/-- The body at any point: k = t mod 4 says which of the three cases it is. -/
theorem sound_body (c : Dev nD) (t : Fin cfg1.N) :
    bodyPre V c t ⊢ wp frame (wpE (defs₀ (F := F)) Variants.none c none) Set.univ (bodyAt1 t) (fun _ => bodyPost V c t) := by
  by_cases h0 : t.val % 4 = 0
  · exact sound_body_A V c t h0
  · by_cases h1 : t.val % 4 = 3
    · exact sound_body_C V c t h0 h1
    · exact sound_body_B V c t h0 h1

/-- The pipeline's body obligation, at every point: its two products over the windows written out. -/
theorem body_obligation (c : Dev nD) : BodyObligation (dat (F := F) V c) (defs₀ (F := F)) Variants.none () Set.univ := fun t => by
  rw [bigSep_W1, bigSep_W1]
  exact sound_body V c t

/-- What the call is entered with, the class invariant, is the invariant before the first point. -/
theorem hin (c : Dev nD) : Pipeline.ΦA spec1 c ⊢ (dat V c).Φ 0 :=
  Entails.of_eq (PhiS_zero V c 0 (Nat.zero_le _) rfl).symm

/-- After the last point the invariant gives the class invariant back: the accumulator's named sum is forgotten. -/
theorem hout (c : Dev nD) : (dat V c).Φ (Fin.last cfg1.N) ⊢ Pipeline.ΦA spec1 c :=
  (PhiS_open V c (Fin.last cfg1.N).val (Nat.le_of_lt_succ (Fin.last cfg1.N).isLt)).trans (PhiA_join c)

end Cert.KernelIdeal.Region1

end
-- ==== Proof.KernelIdeal.Valuations.lean ====
/-
  The buffer contents at each boundary of the program's main function, as a fold from the launch memory: the five
  stretches of host operations that build both unfolded arrays and the index row, the first gather call (its
  arrays at what its write-backs leave, every other buffer as entered), the second gather call likewise, and the
  closing stretch that folds the gathered patches back and divides.
-/
import proofs.«400157_j45320494907489_1_alg».proof.Proof.KernelIdeal.Region0.Data
import proofs.«400157_j45320494907489_1_alg».proof.Proof.KernelIdeal.Region1.Data
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After each of the five host stretches before the calls, in order. -/
abbrev W0a : Dev nD → Valuation τ sig (Elt F) := fun c => StableHlo.after hostOps0 (W0 m ρ c)
abbrev W0b : Dev nD → Valuation τ sig (Elt F) := fun c => StableHlo.after hostOps0_1 (W0a m ρ c)
abbrev W0c : Dev nD → Valuation τ sig (Elt F) := fun c => StableHlo.after hostOps0_2 (W0b m ρ c)
abbrev W0d : Dev nD → Valuation τ sig (Elt F) := fun c => StableHlo.after hostOps0_3 (W0c m ρ c)
/-- At the first call's entry. -/
abbrev W1 : Dev nD → Valuation τ sig (Elt F) := fun c => StableHlo.after hostOps0_4 (W0d m ρ c)
/-- The same read at the TensorCore's references (what the first call's proof data take). -/
abbrev V1 : (c : Dev nD) → (b : Ref sig .tc) → Buf (Elt F) ((c : Thread nD τ).loc b) := fun c b => W1 m ρ c b

/-- At the first call's exit: its arrays at what the pipeline leaves, every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second call is entered from it: no host operation stands between). -/
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit. -/
def W4 (c : Dev nD) : Valuation τ sig (Elt F) :=
  Pipeline.withArrays spec1 c (W2 m ρ c) fun w => (Region1.dat (V2 m ρ) c).arrAt w cfg1.N
theorem W4_arr (c : Dev nD) (w : Fin cfg1.W) :
    W4 m ρ c (Proc.devRef .tc (Pipeline.arrRef spec1 w)) = (Region1.dat (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Region1.dat (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-- After the closing host stretch: what the program returns with. -/
abbrev W5 : Dev nD → Valuation τ sig (Elt F) := fun c => StableHlo.after hostOps2 (W4 m ρ c)

end Cert.KernelIdeal.Run

end
-- ==== Proof.KernelIdeal.Run.lean ====
/-
  The run of the idealized program's main function, composed from its eight items in order: five stretches of host
  operations (each taking every unscoped buffer from one boundary's contents to the next by the fold of its
  operations), the two gather calls back to back (each entered with its arrays split out of the unscoped buffers and
  left with them put back at what its write-backs leave, everything else as entered), and the closing stretch of
  host operations. The thread state between two items is every unscoped buffer at that boundary's contents, beside
  the generator register at some state and the core owing nothing. At the end every unscoped buffer is read at the
  last boundary's contents; the four argument arrays, which no operation and no call writes, are there as launched.
-/
import proofs.«400157_j45320494907489_1_alg».proof.Proof.KernelIdeal.Region0.Body
import proofs.«400157_j45320494907489_1_alg».proof.Proof.KernelIdeal.Region1.Body
import proofs.«400157_j45320494907489_1_alg».proof.Proof.KernelIdeal.Valuations

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no call has a table. -/
abbrev adm : (p : Fin 2) → (pcfgs (F := F) p).Adm := fun p => (cfgs p).toPCfg_adm
/-- Both calls' proof data, each at the contents its call is entered with: the second call is entered with what
    the first leaves. -/
def pdats : (p : Fin 2) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what it
    owes, which is nothing. -/
abbrev R (c : Dev nD) : sProp 𝕄 := iprop((∃ r, prngReg c r) ∗ ∃ W, owes (c : Thread nD τ) (0 : CellTallies nD τ sig Unit) W)
/-- A stretch of host operations as an item: over the unscoped references from the contents `W`, `R` riding along;
    it ends with those references at the fold of the operations over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! ## The two calls as items -/

set_option backward.isDefEq.respectTransparency.types false in
/-- Gather call 0 over the thread state: entered from every unscoped buffer at `W1`, left at `W2`. Its
    arrays are split out of the unscoped buffers and put back at the exit contents; the generator register goes
    into the call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region0.hin (V1 m ρ) c)
    unfold Pipeline.ΦA
    iintro ⟨Hp, -, Hr⟩
    isplitl [Hr]; · iexact Hr
    iexact Hp
  hout c := by
    refine BIBase.Entails.trans (Region0.hout (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Gather call 1 over the thread state: entered from every unscoped buffer at `W2`, left at `W4`. Its
    arrays are split out of the unscoped buffers and put back at the exit contents; the generator register goes
    into the call's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Region1.hin (V2 m ρ) c)
    unfold Pipeline.ΦA
    iintro ⟨Hp, -, Hr⟩
    isplitl [Hr]; · iexact Hr
    iexact Hp
  hout c := by
    refine BIBase.Entails.trans (Region1.hout (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as its items, and the launch -/

/-- The eight items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W0a m ρ)),
    .host (hseg hostOps0_2 hostOps0_2_sub hostOps0_2_fresh (W0b m ρ)),
    .host (hseg hostOps0_3 hostOps0_3_sub hostOps0_3_fresh (W0c m ρ)),
    .host (hseg hostOps0_4 hostOps0_4_sub hostOps0_4_fresh (W0d m ρ)),
    .region (reg0 m ρ),
    .region (reg1 m ρ),
    .host (hseg hostOps2 hostOps2_sub hostOps2_fresh (W4 m ρ)) ]
/-- The main function is the run of the items: it is the chain of their programs, and the items' run unfolds to
    that chain. -/
theorem main_run (c : Dev nD) : main (F := F) c = Pipeline.Seg.run (segs m ρ) := (main_chain c).trans (by chain_rfl)

set_option backward.isDefEq.respectTransparency.types false in
/-- From any memory with zero counters every weakly fair execution of the main function terminates, nothing
    faulting, and any property of the final memory that follows from every unscoped buffer being at the last
    boundary's contents holds of it. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W5 m ρ c)
              ∗ (∃ r, prngReg c r) ∗ ∃ W, owes (c : Thread nD τ) (0 : CellTallies nD τ sig Unit) W)
            ⊢ iprop(Tₙ m ρ c ∗ ∃ W, owes (c : Thread nD τ) (0 : CellTallies nD τ sig Unit) W) from by
          iintro ⟨Hh, Hp, HO⟩
          isplitl [Hh Hp]
          · isplitl [Hh] <;> iassumption
          iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE RUN: every weakly fair execution terminates, nothing faulting, and the final memory has every unscoped buffer
    at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  run_of m ρ fun _ h => h

/-! ## The arguments end as launched

No host operation writes an argument array and neither call has one among its arrays, so the fold at an argument's
buffer walks back, boundary by boundary, to the launch memory. -/

/-- No operation of the stretch writes the reference at hand: each operation writes one reference, a different one. -/
local macro "unwritten " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (by unwritten hostOps2)
    _ = W2 m ρ c (Proc.devRef .tc main_arg0) := W4_of_ne m ρ c main_arg0 (by decide)
    _ = W1 m ρ c (Proc.devRef .tc main_arg0) := W2_of_ne m ρ c main_arg0 (by decide)
    _ = W0d m ρ c (Proc.devRef .tc main_arg0) := StableHlo.after_of_forall_not_mem (b := Proc.devRef .tc main_arg0) _ _ (by unwritten hostOps0_4)
    _ = W0c m ρ c (Proc.devRef .tc main_arg0) := StableHlo.after_of_forall_not_mem (b := Proc.devRef .tc main_arg0) _ _ (by unwritten hostOps0_3)
    _ = W0b m ρ c (Proc.devRef .tc main_arg0) := StableHlo.after_of_forall_not_mem (b := Proc.devRef .tc main_arg0) _ _ (by unwritten hostOps0_2)
    _ = W0a m ρ c (Proc.devRef .tc main_arg0) := StableHlo.after_of_forall_not_mem (b := Proc.devRef .tc main_arg0) _ _ (by unwritten hostOps0_1)
    _ = W0 m ρ c (Proc.devRef .tc main_arg0) := StableHlo.after_of_forall_not_mem (b := Proc.devRef .tc main_arg0) _ _ (by unwritten hostOps0)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (by unwritten hostOps2)
    _ = W2 m ρ c (Proc.devRef .tc main_arg1) := W4_of_ne m ρ c main_arg1 (by decide)
    _ = W1 m ρ c (Proc.devRef .tc main_arg1) := W2_of_ne m ρ c main_arg1 (by decide)
    _ = W0d m ρ c (Proc.devRef .tc main_arg1) := StableHlo.after_of_forall_not_mem (b := Proc.devRef .tc main_arg1) _ _ (by unwritten hostOps0_4)
    _ = W0c m ρ c (Proc.devRef .tc main_arg1) := StableHlo.after_of_forall_not_mem (b := Proc.devRef .tc main_arg1) _ _ (by unwritten hostOps0_3)
    _ = W0b m ρ c (Proc.devRef .tc main_arg1) := StableHlo.after_of_forall_not_mem (b := Proc.devRef .tc main_arg1) _ _ (by unwritten hostOps0_2)
    _ = W0a m ρ c (Proc.devRef .tc main_arg1) := StableHlo.after_of_forall_not_mem (b := Proc.devRef .tc main_arg1) _ _ (by unwritten hostOps0_1)
    _ = W0 m ρ c (Proc.devRef .tc main_arg1) := StableHlo.after_of_forall_not_mem (b := Proc.devRef .tc main_arg1) _ _ (by unwritten hostOps0)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (by unwritten hostOps2)
    _ = W2 m ρ c (Proc.devRef .tc main_arg2) := W4_of_ne m ρ c main_arg2 (by decide)
    _ = W1 m ρ c (Proc.devRef .tc main_arg2) := W2_of_ne m ρ c main_arg2 (by decide)
    _ = W0d m ρ c (Proc.devRef .tc main_arg2) := StableHlo.after_of_forall_not_mem (b := Proc.devRef .tc main_arg2) _ _ (by unwritten hostOps0_4)
    _ = W0c m ρ c (Proc.devRef .tc main_arg2) := StableHlo.after_of_forall_not_mem (b := Proc.devRef .tc main_arg2) _ _ (by unwritten hostOps0_3)
    _ = W0b m ρ c (Proc.devRef .tc main_arg2) := StableHlo.after_of_forall_not_mem (b := Proc.devRef .tc main_arg2) _ _ (by unwritten hostOps0_2)
    _ = W0a m ρ c (Proc.devRef .tc main_arg2) := StableHlo.after_of_forall_not_mem (b := Proc.devRef .tc main_arg2) _ _ (by unwritten hostOps0_1)
    _ = W0 m ρ c (Proc.devRef .tc main_arg2) := StableHlo.after_of_forall_not_mem (b := Proc.devRef .tc main_arg2) _ _ (by unwritten hostOps0)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (by unwritten hostOps2)
    _ = W2 m ρ c (Proc.devRef .tc main_arg3) := W4_of_ne m ρ c main_arg3 (by decide)
    _ = W1 m ρ c (Proc.devRef .tc main_arg3) := W2_of_ne m ρ c main_arg3 (by decide)
    _ = W0d m ρ c (Proc.devRef .tc main_arg3) := StableHlo.after_of_forall_not_mem (b := Proc.devRef .tc main_arg3) _ _ (by unwritten hostOps0_4)
    _ = W0c m ρ c (Proc.devRef .tc main_arg3) := StableHlo.after_of_forall_not_mem (b := Proc.devRef .tc main_arg3) _ _ (by unwritten hostOps0_3)
    _ = W0b m ρ c (Proc.devRef .tc main_arg3) := StableHlo.after_of_forall_not_mem (b := Proc.devRef .tc main_arg3) _ _ (by unwritten hostOps0_2)
    _ = W0a m ρ c (Proc.devRef .tc main_arg3) := StableHlo.after_of_forall_not_mem (b := Proc.devRef .tc main_arg3) _ _ (by unwritten hostOps0_1)
    _ = W0 m ρ c (Proc.devRef .tc main_arg3) := StableHlo.after_of_forall_not_mem (b := Proc.devRef .tc main_arg3) _ _ (by unwritten hostOps0)
    _ = m ((c : Thread nD τ).loc main_arg3) := rfl

/-- THE FRAME: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ fun s h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩

end Cert.KernelIdeal.Run

end
-- ==== Proof.RefChunks.lean ====
/-
  The reference's operations in four consecutive stretches: the two unfolds, the two index-normalising gathers,
  and the fold-back with the final division; the whole list is their concatenation.
-/
import proofs.«400157_j45320494907489_1_alg».proof.Proof.RefRun

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- Operations 0 to 85 of the list. -/
abbrev opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x128x96x96, .f32⟩) main_arg3) (TRef.of (T := ⟨S_, .f32⟩) main_call0_v0) (TRef.of (T := ⟨S4x128x98x98, .f32⟩) main_v0) (fun x v => pad S4x128x98x98 ![0, 0, 1, 1] ![0, 0, 1, 1] ![0, 0, 0, 0] x v pads_S4x128x96x96_S4x128x98x98_000_000_110_110 h_S_),
    nullary main_v1 (iotaInDim S96 32 0),
    nullary main_c_0 (constantI S_ 32 1#32),
    unary main_c_0 main_v2 (broadcastInDim S96 ![] bcast_S_S96 : (⟨S_, .i32⟩ : BufTy).Contents (Elt F) → (⟨S96, .i32⟩ : BufTy).Contents (Elt F)),
    binary main_v1 main_v2 main_v3 (muli : (⟨S96, .i32⟩ : BufTy).Contents (Elt F) → (⟨S96, .i32⟩ : BufTy).Contents (Elt F) → (⟨S96, .i32⟩ : BufTy).Contents (Elt F)),
    unary main_v3 main_v4 (broadcastInDim S96x1 ![0] bcast_S96_S96x1_0 : (⟨S96, .i32⟩ : BufTy).Contents (Elt F) → (⟨S96x1, .i32⟩ : BufTy).Contents (Elt F)),
    nullary main_v5 (iotaInDim S3 32 0),
    unary main_v5 main_v6 (broadcastInDim S1x3 ![1] bcast_S3_S1x3_1 : (⟨S3, .i32⟩ : BufTy).Contents (Elt F) → (⟨S1x3, .i32⟩ : BufTy).Contents (Elt F)),
    unary main_v4 main_v7 (broadcastInDim S96x3 ![0, 1] bcast_S96x1_S96x3_0_1 : (⟨S96x1, .i32⟩ : BufTy).Contents (Elt F) → (⟨S96x3, .i32⟩ : BufTy).Contents (Elt F)),
    unary main_v6 main_v8 (broadcastInDim S96x3 ![0, 1] bcast_S1x3_S96x3_0_1 : (⟨S1x3, .i32⟩ : BufTy).Contents (Elt F) → (⟨S96x3, .i32⟩ : BufTy).Contents (Elt F)),
    binary main_v7 main_v8 main_v9 (addi : (⟨S96x3, .i32⟩ : BufTy).Contents (Elt F) → (⟨S96x3, .i32⟩ : BufTy).Contents (Elt F) → (⟨S96x3, .i32⟩ : BufTy).Contents (Elt F)),
    nullary main_v10 (iotaInDim S96 32 0),
    nullary main_c_1 (constantI S_ 32 1#32),
    unary main_c_1 main_v11 (broadcastInDim S96 ![] bcast_S_S96 : (⟨S_, .i32⟩ : BufTy).Contents (Elt F) → (⟨S96, .i32⟩ : BufTy).Contents (Elt F)),
    binary main_v10 main_v11 main_v12 (muli : (⟨S96, .i32⟩ : BufTy).Contents (Elt F) → (⟨S96, .i32⟩ : BufTy).Contents (Elt F) → (⟨S96, .i32⟩ : BufTy).Contents (Elt F)),
    unary main_v12 main_v13 (broadcastInDim S96x1 ![0] bcast_S96_S96x1_0 : (⟨S96, .i32⟩ : BufTy).Contents (Elt F) → (⟨S96x1, .i32⟩ : BufTy).Contents (Elt F)),
    nullary main_v14 (iotaInDim S3 32 0),
    unary main_v14 main_v15 (broadcastInDim S1x3 ![1] bcast_S3_S1x3_1 : (⟨S3, .i32⟩ : BufTy).Contents (Elt F) → (⟨S1x3, .i32⟩ : BufTy).Contents (Elt F)),
    unary main_v13 main_v16 (broadcastInDim S96x3 ![0, 1] bcast_S96x1_S96x3_0_1 : (⟨S96x1, .i32⟩ : BufTy).Contents (Elt F) → (⟨S96x3, .i32⟩ : BufTy).Contents (Elt F)),
    unary main_v15 main_v17 (broadcastInDim S96x3 ![0, 1] bcast_S1x3_S96x3_0_1 : (⟨S1x3, .i32⟩ : BufTy).Contents (Elt F) → (⟨S96x3, .i32⟩ : BufTy).Contents (Elt F)),
    binary main_v16 main_v17 main_v18 (addi : (⟨S96x3, .i32⟩ : BufTy).Contents (Elt F) → (⟨S96x3, .i32⟩ : BufTy).Contents (Elt F) → (⟨S96x3, .i32⟩ : BufTy).Contents (Elt F)),
    nullary main_c_2 (constantI S_ 32 0#32),
    unary main_c_2 main_v19 (broadcastInDim S96x3 ![] bcast_S_S96x3 : (⟨S_, .i32⟩ : BufTy).Contents (Elt F) → (⟨S96x3, .i32⟩ : BufTy).Contents (Elt F)),
    binary main_v9 main_v19 main_v20 (cmpi .slt : (⟨S96x3, .i32⟩ : BufTy).Contents (Elt F) → (⟨S96x3, .i32⟩ : BufTy).Contents (Elt F) → (⟨S96x3, .i1⟩ : BufTy).Contents (Elt F)),
    nullary main_c_3 (constantI S_ 32 98#32),
    unary main_c_3 main_v21 (broadcastInDim S96x3 ![] bcast_S_S96x3 : (⟨S_, .i32⟩ : BufTy).Contents (Elt F) → (⟨S96x3, .i32⟩ : BufTy).Contents (Elt F)),
    binary main_v9 main_v21 main_v22 (addi : (⟨S96x3, .i32⟩ : BufTy).Contents (Elt F) → (⟨S96x3, .i32⟩ : BufTy).Contents (Elt F) → (⟨S96x3, .i32⟩ : BufTy).Contents (Elt F)),
    ternary main_v20 main_v22 main_v9 main_v23 (select : (⟨S96x3, .i1⟩ : BufTy).Contents (Elt F) → (⟨S96x3, .i32⟩ : BufTy).Contents (Elt F) → (⟨S96x3, .i32⟩ : BufTy).Contents (Elt F) → (⟨S96x3, .i32⟩ : BufTy).Contents (Elt F)),
    unary main_v23 main_v24 (broadcastInDim S96x3x1 ![0, 1] bcast_S96x3_S96x3x1_0_1 : (⟨S96x3, .i32⟩ : BufTy).Contents (Elt F) → (⟨S96x3x1, .i32⟩ : BufTy).Contents (Elt F)),
    binary main_v0 main_v24 main_v25 ((fun x i => Host.gather gather_S4x128x98x98_S96x3x1_S4x128x96x3x98_014_2_n_n_2_2_4128198 x i) : (⟨S4x128x98x98, .f32⟩ : BufTy).Contents (Elt F) → (⟨S96x3x1, .i32⟩ : BufTy).Contents (Elt F) → (⟨S4x128x96x3x98, .f32⟩ : BufTy).Contents (Elt F)),
    nullary main_c_4 (constantI S_ 32 0#32),
    unary main_c_4 main_v26 (broadcastInDim S96x3 ![] bcast_S_S96x3 : (⟨S_, .i32⟩ : BufTy).Contents (Elt F) → (⟨S96x3, .i32⟩ : BufTy).Contents (Elt F)),
    binary main_v18 main_v26 main_v27 (cmpi .slt : (⟨S96x3, .i32⟩ : BufTy).Contents (Elt F) → (⟨S96x3, .i32⟩ : BufTy).Contents (Elt F) → (⟨S96x3, .i1⟩ : BufTy).Contents (Elt F)),
    nullary main_c_5 (constantI S_ 32 98#32),
    unary main_c_5 main_v28 (broadcastInDim S96x3 ![] bcast_S_S96x3 : (⟨S_, .i32⟩ : BufTy).Contents (Elt F) → (⟨S96x3, .i32⟩ : BufTy).Contents (Elt F)),
    binary main_v18 main_v28 main_v29 (addi : (⟨S96x3, .i32⟩ : BufTy).Contents (Elt F) → (⟨S96x3, .i32⟩ : BufTy).Contents (Elt F) → (⟨S96x3, .i32⟩ : BufTy).Contents (Elt F)),
    ternary main_v27 main_v29 main_v18 main_v30 (select : (⟨S96x3, .i1⟩ : BufTy).Contents (Elt F) → (⟨S96x3, .i32⟩ : BufTy).Contents (Elt F) → (⟨S96x3, .i32⟩ : BufTy).Contents (Elt F) → (⟨S96x3, .i32⟩ : BufTy).Contents (Elt F)),
    unary main_v30 main_v31 (broadcastInDim S96x3x1 ![0, 1] bcast_S96x3_S96x3x1_0_1 : (⟨S96x3, .i32⟩ : BufTy).Contents (Elt F) → (⟨S96x3x1, .i32⟩ : BufTy).Contents (Elt F)),
    binary main_v25 main_v31 main_v32 ((fun x i => Host.gather gather_S4x128x96x3x98_S96x3x1_S4x128x96x3x96x3_0123_4_n_n_4_2_41289631 x i) : (⟨S4x128x96x3x98, .f32⟩ : BufTy).Contents (Elt F) → (⟨S96x3x1, .i32⟩ : BufTy).Contents (Elt F) → (⟨S4x128x96x3x96x3, .f32⟩ : BufTy).Contents (Elt F)),
    unary main_v32 main_v33 ((transpose S4x128x3x3x96x96 [0, 1, 3, 5, 2, 4] · transposes_S4x128x96x3x96x3_S4x128x3x3x96x96_0_1_3_5_2_4) : (⟨S4x128x96x3x96x3, .f32⟩ : BufTy).Contents (Elt F) → (⟨S4x128x3x3x96x96, .f32⟩ : BufTy).Contents (Elt F)),
    reshape main_v33 main_v34 rfl shapeCasts_S4x128x3x3x96x96_S4x1152x9216,
    nullary main_c_6 (constantI S_ 32 0#32),
    TRef.unary (TRef.of (T := ⟨S_, .i32⟩) main_c_6) (TRef.of (T := ⟨S_, .f32⟩) main_call1_v0) (sitofp .f32),
    TRef.binary (TRef.of (T := ⟨S4x64x192x192, .f32⟩) main_arg2) (TRef.of (T := ⟨S_, .f32⟩) main_call1_v0) (TRef.of (T := ⟨S4x64x196x196, .f32⟩) main_v35) (fun x v => pad S4x64x196x196 ![0, 0, 2, 2] ![0, 0, 2, 2] ![0, 0, 0, 0] x v pads_S4x64x192x192_S4x64x196x196_000_000_220_220 h_S_),
    nullary main_v36 (iotaInDim S96 32 0),
    nullary main_c_7 (constantI S_ 32 2#32),
    unary main_c_7 main_v37 (broadcastInDim S96 ![] bcast_S_S96 : (⟨S_, .i32⟩ : BufTy).Contents (Elt F) → (⟨S96, .i32⟩ : BufTy).Contents (Elt F)),
    binary main_v36 main_v37 main_v38 (muli : (⟨S96, .i32⟩ : BufTy).Contents (Elt F) → (⟨S96, .i32⟩ : BufTy).Contents (Elt F) → (⟨S96, .i32⟩ : BufTy).Contents (Elt F)),
    unary main_v38 main_v39 (broadcastInDim S96x1 ![0] bcast_S96_S96x1_0 : (⟨S96, .i32⟩ : BufTy).Contents (Elt F) → (⟨S96x1, .i32⟩ : BufTy).Contents (Elt F)),
    nullary main_v40 (iotaInDim S6 32 0),
    unary main_v40 main_v41 (broadcastInDim S1x6 ![1] bcast_S6_S1x6_1 : (⟨S6, .i32⟩ : BufTy).Contents (Elt F) → (⟨S1x6, .i32⟩ : BufTy).Contents (Elt F)),
    unary main_v39 main_v42 (broadcastInDim S96x6 ![0, 1] bcast_S96x1_S96x6_0_1 : (⟨S96x1, .i32⟩ : BufTy).Contents (Elt F) → (⟨S96x6, .i32⟩ : BufTy).Contents (Elt F)),
    unary main_v41 main_v43 (broadcastInDim S96x6 ![0, 1] bcast_S1x6_S96x6_0_1 : (⟨S1x6, .i32⟩ : BufTy).Contents (Elt F) → (⟨S96x6, .i32⟩ : BufTy).Contents (Elt F)),
    binary main_v42 main_v43 main_v44 (addi : (⟨S96x6, .i32⟩ : BufTy).Contents (Elt F) → (⟨S96x6, .i32⟩ : BufTy).Contents (Elt F) → (⟨S96x6, .i32⟩ : BufTy).Contents (Elt F)),
    nullary main_v45 (iotaInDim S96 32 0),
    nullary main_c_8 (constantI S_ 32 2#32),
    unary main_c_8 main_v46 (broadcastInDim S96 ![] bcast_S_S96 : (⟨S_, .i32⟩ : BufTy).Contents (Elt F) → (⟨S96, .i32⟩ : BufTy).Contents (Elt F)),
    binary main_v45 main_v46 main_v47 (muli : (⟨S96, .i32⟩ : BufTy).Contents (Elt F) → (⟨S96, .i32⟩ : BufTy).Contents (Elt F) → (⟨S96, .i32⟩ : BufTy).Contents (Elt F)),
    unary main_v47 main_v48 (broadcastInDim S96x1 ![0] bcast_S96_S96x1_0 : (⟨S96, .i32⟩ : BufTy).Contents (Elt F) → (⟨S96x1, .i32⟩ : BufTy).Contents (Elt F)),
    nullary main_v49 (iotaInDim S6 32 0),
    unary main_v49 main_v50 (broadcastInDim S1x6 ![1] bcast_S6_S1x6_1 : (⟨S6, .i32⟩ : BufTy).Contents (Elt F) → (⟨S1x6, .i32⟩ : BufTy).Contents (Elt F)),
    unary main_v48 main_v51 (broadcastInDim S96x6 ![0, 1] bcast_S96x1_S96x6_0_1 : (⟨S96x1, .i32⟩ : BufTy).Contents (Elt F) → (⟨S96x6, .i32⟩ : BufTy).Contents (Elt F)),
    unary main_v50 main_v52 (broadcastInDim S96x6 ![0, 1] bcast_S1x6_S96x6_0_1 : (⟨S1x6, .i32⟩ : BufTy).Contents (Elt F) → (⟨S96x6, .i32⟩ : BufTy).Contents (Elt F)),
    binary main_v51 main_v52 main_v53 (addi : (⟨S96x6, .i32⟩ : BufTy).Contents (Elt F) → (⟨S96x6, .i32⟩ : BufTy).Contents (Elt F) → (⟨S96x6, .i32⟩ : BufTy).Contents (Elt F)),
    nullary main_c_9 (constantI S_ 32 0#32),
    unary main_c_9 main_v54 (broadcastInDim S96x6 ![] bcast_S_S96x6 : (⟨S_, .i32⟩ : BufTy).Contents (Elt F) → (⟨S96x6, .i32⟩ : BufTy).Contents (Elt F)),
    binary main_v44 main_v54 main_v55 (cmpi .slt : (⟨S96x6, .i32⟩ : BufTy).Contents (Elt F) → (⟨S96x6, .i32⟩ : BufTy).Contents (Elt F) → (⟨S96x6, .i1⟩ : BufTy).Contents (Elt F)),
    nullary main_c_10 (constantI S_ 32 196#32),
    unary main_c_10 main_v56 (broadcastInDim S96x6 ![] bcast_S_S96x6 : (⟨S_, .i32⟩ : BufTy).Contents (Elt F) → (⟨S96x6, .i32⟩ : BufTy).Contents (Elt F)),
    binary main_v44 main_v56 main_v57 (addi : (⟨S96x6, .i32⟩ : BufTy).Contents (Elt F) → (⟨S96x6, .i32⟩ : BufTy).Contents (Elt F) → (⟨S96x6, .i32⟩ : BufTy).Contents (Elt F)),
    ternary main_v55 main_v57 main_v44 main_v58 (select : (⟨S96x6, .i1⟩ : BufTy).Contents (Elt F) → (⟨S96x6, .i32⟩ : BufTy).Contents (Elt F) → (⟨S96x6, .i32⟩ : BufTy).Contents (Elt F) → (⟨S96x6, .i32⟩ : BufTy).Contents (Elt F)),
    unary main_v58 main_v59 (broadcastInDim S96x6x1 ![0, 1] bcast_S96x6_S96x6x1_0_1 : (⟨S96x6, .i32⟩ : BufTy).Contents (Elt F) → (⟨S96x6x1, .i32⟩ : BufTy).Contents (Elt F)),
    binary main_v35 main_v59 main_v60 ((fun x i => Host.gather gather_S4x64x196x196_S96x6x1_S4x64x96x6x196_014_2_n_n_2_2_4641196 x i) : (⟨S4x64x196x196, .f32⟩ : BufTy).Contents (Elt F) → (⟨S96x6x1, .i32⟩ : BufTy).Contents (Elt F) → (⟨S4x64x96x6x196, .f32⟩ : BufTy).Contents (Elt F)),
    nullary main_c_11 (constantI S_ 32 0#32),
    unary main_c_11 main_v61 (broadcastInDim S96x6 ![] bcast_S_S96x6 : (⟨S_, .i32⟩ : BufTy).Contents (Elt F) → (⟨S96x6, .i32⟩ : BufTy).Contents (Elt F)),
    binary main_v53 main_v61 main_v62 (cmpi .slt : (⟨S96x6, .i32⟩ : BufTy).Contents (Elt F) → (⟨S96x6, .i32⟩ : BufTy).Contents (Elt F) → (⟨S96x6, .i1⟩ : BufTy).Contents (Elt F)),
    nullary main_c_12 (constantI S_ 32 196#32),
    unary main_c_12 main_v63 (broadcastInDim S96x6 ![] bcast_S_S96x6 : (⟨S_, .i32⟩ : BufTy).Contents (Elt F) → (⟨S96x6, .i32⟩ : BufTy).Contents (Elt F)),
    binary main_v53 main_v63 main_v64 (addi : (⟨S96x6, .i32⟩ : BufTy).Contents (Elt F) → (⟨S96x6, .i32⟩ : BufTy).Contents (Elt F) → (⟨S96x6, .i32⟩ : BufTy).Contents (Elt F)),
    ternary main_v62 main_v64 main_v53 main_v65 (select : (⟨S96x6, .i1⟩ : BufTy).Contents (Elt F) → (⟨S96x6, .i32⟩ : BufTy).Contents (Elt F) → (⟨S96x6, .i32⟩ : BufTy).Contents (Elt F) → (⟨S96x6, .i32⟩ : BufTy).Contents (Elt F)),
    unary main_v65 main_v66 (broadcastInDim S96x6x1 ![0, 1] bcast_S96x6_S96x6x1_0_1 : (⟨S96x6, .i32⟩ : BufTy).Contents (Elt F) → (⟨S96x6x1, .i32⟩ : BufTy).Contents (Elt F)),
    binary main_v60 main_v66 main_v67 ((fun x i => Host.gather gather_S4x64x96x6x196_S96x6x1_S4x64x96x6x96x6_0123_4_n_n_4_2_4649661 x i) : (⟨S4x64x96x6x196, .f32⟩ : BufTy).Contents (Elt F) → (⟨S96x6x1, .i32⟩ : BufTy).Contents (Elt F) → (⟨S4x64x96x6x96x6, .f32⟩ : BufTy).Contents (Elt F)),
    unary main_v67 main_v68 ((transpose S4x64x6x6x96x96 [0, 1, 3, 5, 2, 4] · transposes_S4x64x96x6x96x6_S4x64x6x6x96x96_0_1_3_5_2_4) : (⟨S4x64x96x6x96x6, .f32⟩ : BufTy).Contents (Elt F) → (⟨S4x64x6x6x96x96, .f32⟩ : BufTy).Contents (Elt F)),
    reshape main_v68 main_v69 rfl shapeCasts_S4x64x6x6x96x96_S4x2304x9216 ]

/-- Operations 86 to 109 of the list. -/
abbrev opsB2 : List (HloOp τ sig (Elt F)) :=
  [ unary main_arg0 main_v70 (broadcastInDim S4x1x9216 ![0, 2] bcast_S4x9216_S4x1x9216_0_2 : (⟨S4x9216, .i32⟩ : BufTy).Contents (Elt F) → (⟨S4x1x9216, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x1x9216, .i32⟩) main_call2_v0) (broadcastInDim S4x1x9216 ![] bcast_S_S4x1x9216),
    TRef.binary (TRef.of (T := ⟨S4x1x9216, .i32⟩) main_v70) (TRef.of (T := ⟨S4x1x9216, .i32⟩) main_call2_v0) (TRef.of (T := ⟨S4x1x9216, .i1⟩) main_call2_v1) (cmpi .slt),
    TRef.nullary (TRef.of (T := ⟨S_, .i32⟩) main_call2_c_0) (constantI S_ 32 9216#32),
    TRef.unary (TRef.of (T := ⟨S_, .i32⟩) main_call2_c_0) (TRef.of (T := ⟨S4x1x9216, .i32⟩) main_call2_v2) (broadcastInDim S4x1x9216 ![] bcast_S_S4x1x9216),
    TRef.binary (TRef.of (T := ⟨S4x1x9216, .i32⟩) main_v70) (TRef.of (T := ⟨S4x1x9216, .i32⟩) main_call2_v2) (TRef.of (T := ⟨S4x1x9216, .i32⟩) main_call2_v3) addi,
    TRef.ternary (TRef.of (T := ⟨S4x1x9216, .i1⟩) main_call2_v1) (TRef.of (T := ⟨S4x1x9216, .i32⟩) main_call2_v3) (TRef.of (T := ⟨S4x1x9216, .i32⟩) main_v70) (TRef.of (T := ⟨S4x1x9216, .i32⟩) main_call2_v4) select,
    TRef.reshape (TRef.of (T := ⟨S4x1x9216, .i32⟩) main_call2_v4) (TRef.of (T := ⟨S4x9216x1, .i32⟩) main_call2_v5) rfl shapeCasts_S4x1x9216_S4x9216x1,
    TRef.nullary (TRef.of (T := ⟨S1, .i32⟩) main_call2_c_1) (constantI S1 32 9215#32),
    TRef.nullary (TRef.of (T := ⟨S_, .i32⟩) main_call2_c_2) (constantI S_ 32 0#32),
    TRef.unary (TRef.of (T := ⟨S_, .i32⟩) main_call2_c_2) (TRef.of (T := ⟨S4x9216x1, .i32⟩) main_call2_v6) (broadcastInDim S4x9216x1 ![] bcast_S_S4x9216x1),
    TRef.binary (TRef.of (T := ⟨S4x9216x1, .i32⟩) main_call2_v5) (TRef.of (T := ⟨S4x9216x1, .i32⟩) main_call2_v6) (TRef.of (T := ⟨S4x9216x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4x9216x1, .i32⟩) main_call2_v9) (broadcastInDim S4x9216x1 ![0, 1, 2] bcast_S1x1x1_S4x9216x1_0_1_2),
    TRef.binary (TRef.of (T := ⟨S4x9216x1, .i32⟩) main_call2_v5) (TRef.of (T := ⟨S4x9216x1, .i32⟩) main_call2_v9) (TRef.of (T := ⟨S4x9216x1, .i1⟩) main_call2_v10) (cmpi .sle),
    TRef.binary (TRef.of (T := ⟨S4x9216x1, .i1⟩) main_call2_v7) (TRef.of (T := ⟨S4x9216x1, .i1⟩) main_call2_v10) (TRef.of (T := ⟨S4x9216x1, .i1⟩) main_call2_v11) andi,
    TRef.nullary (TRef.of (T := ⟨S_, .i1⟩) main_call2_c_3) (constantI S_ 1 1#1),
    TRef.binary (TRef.of (T := ⟨S4x9216x1, .i1⟩) main_call2_v11) (TRef.of (T := ⟨S_, .i1⟩) main_call2_c_3) (TRef.of (T := ⟨S4x9216, .i1⟩) main_call2_v12) (fun x v => Host.reduce IntOp.andi x v reducesTo_S4x9216x1_S4x9216_d2 h_S_),
    TRef.binary (TRef.of (T := ⟨S4x1152x9216, .f32⟩) main_v34) (TRef.of (T := ⟨S4x9216x1, .i32⟩) main_call2_v5) (TRef.of (T := ⟨S4x1152x9216, .f32⟩) main_call2_v13) (fun x i => Host.gather gather_S4x1152x9216_S4x9216x1_S4x1152x9216_1_2_0_0_2_2_111521 x i),
    TRef.unary (TRef.of (T := ⟨S4x9216, .i1⟩) main_call2_v12) (TRef.of (T := ⟨S4x1152x9216, .i1⟩) main_call2_v14) (broadcastInDim S4x1152x9216 ![0, 2] bcast_S4x9216_S4x1152x9216_0_2),
    TRef.nullary (TRef.of (T := ⟨S_, .f32⟩) main_call2_cst) (constant S_ .f32 0x7FC00000#32),
    TRef.unary (TRef.of (T := ⟨S_, .f32⟩) main_call2_cst) (TRef.of (T := ⟨S4x1152x9216, .f32⟩) main_call2_v15) (broadcastInDim S4x1152x9216 ![] bcast_S_S4x1152x9216),
    TRef.ternary (TRef.of (T := ⟨S4x1152x9216, .i1⟩) main_call2_v14) (TRef.of (T := ⟨S4x1152x9216, .f32⟩) main_call2_v13) (TRef.of (T := ⟨S4x1152x9216, .f32⟩) main_call2_v15) (TRef.of (T := ⟨S4x1152x9216, .f32⟩) main_v71) select ]

/-- Operations 110 to 133 of the list. -/
abbrev opsB1 : List (HloOp τ sig (Elt F)) :=
  [ unary main_arg0 main_v72 (broadcastInDim S4x1x9216 ![0, 2] bcast_S4x9216_S4x1x9216_0_2 : (⟨S4x9216, .i32⟩ : BufTy).Contents (Elt F) → (⟨S4x1x9216, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4x1x9216, .i32⟩) main_call3_v0) (broadcastInDim S4x1x9216 ![] bcast_S_S4x1x9216),
    TRef.binary (TRef.of (T := ⟨S4x1x9216, .i32⟩) main_v72) (TRef.of (T := ⟨S4x1x9216, .i32⟩) main_call3_v0) (TRef.of (T := ⟨S4x1x9216, .i1⟩) main_call3_v1) (cmpi .slt),
    TRef.nullary (TRef.of (T := ⟨S_, .i32⟩) main_call3_c_0) (constantI S_ 32 9216#32),
    TRef.unary (TRef.of (T := ⟨S_, .i32⟩) main_call3_c_0) (TRef.of (T := ⟨S4x1x9216, .i32⟩) main_call3_v2) (broadcastInDim S4x1x9216 ![] bcast_S_S4x1x9216),
    TRef.binary (TRef.of (T := ⟨S4x1x9216, .i32⟩) main_v72) (TRef.of (T := ⟨S4x1x9216, .i32⟩) main_call3_v2) (TRef.of (T := ⟨S4x1x9216, .i32⟩) main_call3_v3) addi,
    TRef.ternary (TRef.of (T := ⟨S4x1x9216, .i1⟩) main_call3_v1) (TRef.of (T := ⟨S4x1x9216, .i32⟩) main_call3_v3) (TRef.of (T := ⟨S4x1x9216, .i32⟩) main_v72) (TRef.of (T := ⟨S4x1x9216, .i32⟩) main_call3_v4) select,
    TRef.reshape (TRef.of (T := ⟨S4x1x9216, .i32⟩) main_call3_v4) (TRef.of (T := ⟨S4x9216x1, .i32⟩) main_call3_v5) rfl shapeCasts_S4x1x9216_S4x9216x1,
    TRef.nullary (TRef.of (T := ⟨S1, .i32⟩) main_call3_c_1) (constantI S1 32 9215#32),
    TRef.nullary (TRef.of (T := ⟨S_, .i32⟩) main_call3_c_2) (constantI S_ 32 0#32),
    TRef.unary (TRef.of (T := ⟨S_, .i32⟩) main_call3_c_2) (TRef.of (T := ⟨S4x9216x1, .i32⟩) main_call3_v6) (broadcastInDim S4x9216x1 ![] bcast_S_S4x9216x1),
    TRef.binary (TRef.of (T := ⟨S4x9216x1, .i32⟩) main_call3_v5) (TRef.of (T := ⟨S4x9216x1, .i32⟩) main_call3_v6) (TRef.of (T := ⟨S4x9216x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4x9216x1, .i32⟩) main_call3_v9) (broadcastInDim S4x9216x1 ![0, 1, 2] bcast_S1x1x1_S4x9216x1_0_1_2),
    TRef.binary (TRef.of (T := ⟨S4x9216x1, .i32⟩) main_call3_v5) (TRef.of (T := ⟨S4x9216x1, .i32⟩) main_call3_v9) (TRef.of (T := ⟨S4x9216x1, .i1⟩) main_call3_v10) (cmpi .sle),
    TRef.binary (TRef.of (T := ⟨S4x9216x1, .i1⟩) main_call3_v7) (TRef.of (T := ⟨S4x9216x1, .i1⟩) main_call3_v10) (TRef.of (T := ⟨S4x9216x1, .i1⟩) main_call3_v11) andi,
    TRef.nullary (TRef.of (T := ⟨S_, .i1⟩) main_call3_c_3) (constantI S_ 1 1#1),
    TRef.binary (TRef.of (T := ⟨S4x9216x1, .i1⟩) main_call3_v11) (TRef.of (T := ⟨S_, .i1⟩) main_call3_c_3) (TRef.of (T := ⟨S4x9216, .i1⟩) main_call3_v12) (fun x v => Host.reduce IntOp.andi x v reducesTo_S4x9216x1_S4x9216_d2 h_S_),
    TRef.binary (TRef.of (T := ⟨S4x2304x9216, .f32⟩) main_v69) (TRef.of (T := ⟨S4x9216x1, .i32⟩) main_call3_v5) (TRef.of (T := ⟨S4x2304x9216, .f32⟩) main_call3_v13) (fun x i => Host.gather gather_S4x2304x9216_S4x9216x1_S4x2304x9216_1_2_0_0_2_2_123041 x i),
    TRef.unary (TRef.of (T := ⟨S4x9216, .i1⟩) main_call3_v12) (TRef.of (T := ⟨S4x2304x9216, .i1⟩) main_call3_v14) (broadcastInDim S4x2304x9216 ![0, 2] bcast_S4x9216_S4x2304x9216_0_2),
    TRef.nullary (TRef.of (T := ⟨S_, .f32⟩) main_call3_cst) (constant S_ .f32 0x7FC00000#32),
    TRef.unary (TRef.of (T := ⟨S_, .f32⟩) main_call3_cst) (TRef.of (T := ⟨S4x2304x9216, .f32⟩) main_call3_v15) (broadcastInDim S4x2304x9216 ![] bcast_S_S4x2304x9216),
    TRef.ternary (TRef.of (T := ⟨S4x2304x9216, .i1⟩) main_call3_v14) (TRef.of (T := ⟨S4x2304x9216, .f32⟩) main_call3_v13) (TRef.of (T := ⟨S4x2304x9216, .f32⟩) main_call3_v15) (TRef.of (T := ⟨S4x2304x9216, .f32⟩) main_v73) select ]

/-- Operations 134 to 233 of the list. -/
abbrev opsC : List (HloOp τ sig (Elt F)) :=
  [ reshape main_v71 main_v74 rfl shapeCasts_S4x1152x9216_S4x128x3x3x96x96,
    unary main_v74 main_v75 ((transpose S4x128x96x3x96x3 [0, 1, 4, 2, 5, 3] · transposes_S4x128x3x3x96x96_S4x128x96x3x96x3_0_1_4_2_5_3) : (⟨S4x128x3x3x96x96, .f32⟩ : BufTy).Contents (Elt F) → (⟨S4x128x96x3x96x3, .f32⟩ : BufTy).Contents (Elt F)),
    nullary main_v76 (iotaInDim S96 32 0),
    nullary main_c_13 (constantI S_ 32 1#32),
    unary main_c_13 main_v77 (broadcastInDim S96 ![] bcast_S_S96 : (⟨S_, .i32⟩ : BufTy).Contents (Elt F) → (⟨S96, .i32⟩ : BufTy).Contents (Elt F)),
    binary main_v76 main_v77 main_v78 (muli : (⟨S96, .i32⟩ : BufTy).Contents (Elt F) → (⟨S96, .i32⟩ : BufTy).Contents (Elt F) → (⟨S96, .i32⟩ : BufTy).Contents (Elt F)),
    unary main_v78 main_v79 (broadcastInDim S96x1 ![0] bcast_S96_S96x1_0 : (⟨S96, .i32⟩ : BufTy).Contents (Elt F) → (⟨S96x1, .i32⟩ : BufTy).Contents (Elt F)),
    nullary main_v80 (iotaInDim S3 32 0),
    unary main_v80 main_v81 (broadcastInDim S1x3 ![1] bcast_S3_S1x3_1 : (⟨S3, .i32⟩ : BufTy).Contents (Elt F) → (⟨S1x3, .i32⟩ : BufTy).Contents (Elt F)),
    unary main_v79 main_v82 (broadcastInDim S96x3 ![0, 1] bcast_S96x1_S96x3_0_1 : (⟨S96x1, .i32⟩ : BufTy).Contents (Elt F) → (⟨S96x3, .i32⟩ : BufTy).Contents (Elt F)),
    unary main_v81 main_v83 (broadcastInDim S96x3 ![0, 1] bcast_S1x3_S96x3_0_1 : (⟨S1x3, .i32⟩ : BufTy).Contents (Elt F) → (⟨S96x3, .i32⟩ : BufTy).Contents (Elt F)),
    binary main_v82 main_v83 main_v84 (addi : (⟨S96x3, .i32⟩ : BufTy).Contents (Elt F) → (⟨S96x3, .i32⟩ : BufTy).Contents (Elt F) → (⟨S96x3, .i32⟩ : BufTy).Contents (Elt F)),
    nullary main_v85 (iotaInDim S96 32 0),
    nullary main_c_14 (constantI S_ 32 1#32),
    unary main_c_14 main_v86 (broadcastInDim S96 ![] bcast_S_S96 : (⟨S_, .i32⟩ : BufTy).Contents (Elt F) → (⟨S96, .i32⟩ : BufTy).Contents (Elt F)),
    binary main_v85 main_v86 main_v87 (muli : (⟨S96, .i32⟩ : BufTy).Contents (Elt F) → (⟨S96, .i32⟩ : BufTy).Contents (Elt F) → (⟨S96, .i32⟩ : BufTy).Contents (Elt F)),
    unary main_v87 main_v88 (broadcastInDim S96x1 ![0] bcast_S96_S96x1_0 : (⟨S96, .i32⟩ : BufTy).Contents (Elt F) → (⟨S96x1, .i32⟩ : BufTy).Contents (Elt F)),
    nullary main_v89 (iotaInDim S3 32 0),
    unary main_v89 main_v90 (broadcastInDim S1x3 ![1] bcast_S3_S1x3_1 : (⟨S3, .i32⟩ : BufTy).Contents (Elt F) → (⟨S1x3, .i32⟩ : BufTy).Contents (Elt F)),
    unary main_v88 main_v91 (broadcastInDim S96x3 ![0, 1] bcast_S96x1_S96x3_0_1 : (⟨S96x1, .i32⟩ : BufTy).Contents (Elt F) → (⟨S96x3, .i32⟩ : BufTy).Contents (Elt F)),
    unary main_v90 main_v92 (broadcastInDim S96x3 ![0, 1] bcast_S1x3_S96x3_0_1 : (⟨S1x3, .i32⟩ : BufTy).Contents (Elt F) → (⟨S96x3, .i32⟩ : BufTy).Contents (Elt F)),
    binary main_v91 main_v92 main_v93 (addi : (⟨S96x3, .i32⟩ : BufTy).Contents (Elt F) → (⟨S96x3, .i32⟩ : BufTy).Contents (Elt F) → (⟨S96x3, .i32⟩ : BufTy).Contents (Elt F)),
    nullary main_cst (constant S_ .f32 0x00000000#32),
    unary main_cst main_v94 (broadcastInDim S4x128x98x98 ![] bcast_S_S4x128x98x98 : (⟨S_, .f32⟩ : BufTy).Contents (Elt F) → (⟨S4x128x98x98, .f32⟩ : BufTy).Contents (Elt F)),
    unary main_v84 main_v95 (broadcastInDim S96x3x1x1 ![0, 1] bcast_S96x3_S96x3x1x1_0_1 : (⟨S96x3, .i32⟩ : BufTy).Contents (Elt F) → (⟨S96x3x1x1, .i32⟩ : BufTy).Contents (Elt F)),
    unary main_v93 main_v96 (broadcastInDim S1x1x96x3 ![2, 3] bcast_S96x3_S1x1x96x3_2_3 : (⟨S96x3, .i32⟩ : BufTy).Contents (Elt F) → (⟨S1x1x96x3, .i32⟩ : BufTy).Contents (Elt F)),
    nullary main_c_15 (constantI S_ 32 0#32),
    unary main_c_15 main_v97 (broadcastInDim S96x3x1x1 ![] bcast_S_S96x3x1x1 : (⟨S_, .i32⟩ : BufTy).Contents (Elt F) → (⟨S96x3x1x1, .i32⟩ : BufTy).Contents (Elt F)),
    binary main_v95 main_v97 main_v98 (cmpi .slt : (⟨S96x3x1x1, .i32⟩ : BufTy).Contents (Elt F) → (⟨S96x3x1x1, .i32⟩ : BufTy).Contents (Elt F) → (⟨S96x3x1x1, .i1⟩ : BufTy).Contents (Elt F)),
    nullary main_c_16 (constantI S_ 32 98#32),
    unary main_c_16 main_v99 (broadcastInDim S96x3x1x1 ![] bcast_S_S96x3x1x1 : (⟨S_, .i32⟩ : BufTy).Contents (Elt F) → (⟨S96x3x1x1, .i32⟩ : BufTy).Contents (Elt F)),
    binary main_v95 main_v99 main_v100 (addi : (⟨S96x3x1x1, .i32⟩ : BufTy).Contents (Elt F) → (⟨S96x3x1x1, .i32⟩ : BufTy).Contents (Elt F) → (⟨S96x3x1x1, .i32⟩ : BufTy).Contents (Elt F)),
    ternary main_v98 main_v100 main_v95 main_v101 (select : (⟨S96x3x1x1, .i1⟩ : BufTy).Contents (Elt F) → (⟨S96x3x1x1, .i32⟩ : BufTy).Contents (Elt F) → (⟨S96x3x1x1, .i32⟩ : BufTy).Contents (Elt F) → (⟨S96x3x1x1, .i32⟩ : BufTy).Contents (Elt F)),
    nullary main_c_17 (constantI S_ 32 0#32),
    unary main_c_17 main_v102 (broadcastInDim S1x1x96x3 ![] bcast_S_S1x1x96x3 : (⟨S_, .i32⟩ : BufTy).Contents (Elt F) → (⟨S1x1x96x3, .i32⟩ : BufTy).Contents (Elt F)),
    binary main_v96 main_v102 main_v103 (cmpi .slt : (⟨S1x1x96x3, .i32⟩ : BufTy).Contents (Elt F) → (⟨S1x1x96x3, .i32⟩ : BufTy).Contents (Elt F) → (⟨S1x1x96x3, .i1⟩ : BufTy).Contents (Elt F)),
    nullary main_c_18 (constantI S_ 32 98#32),
    unary main_c_18 main_v104 (broadcastInDim S1x1x96x3 ![] bcast_S_S1x1x96x3 : (⟨S_, .i32⟩ : BufTy).Contents (Elt F) → (⟨S1x1x96x3, .i32⟩ : BufTy).Contents (Elt F)),
    binary main_v96 main_v104 main_v105 (addi : (⟨S1x1x96x3, .i32⟩ : BufTy).Contents (Elt F) → (⟨S1x1x96x3, .i32⟩ : BufTy).Contents (Elt F) → (⟨S1x1x96x3, .i32⟩ : BufTy).Contents (Elt F)),
    ternary main_v103 main_v105 main_v96 main_v106 (select : (⟨S1x1x96x3, .i1⟩ : BufTy).Contents (Elt F) → (⟨S1x1x96x3, .i32⟩ : BufTy).Contents (Elt F) → (⟨S1x1x96x3, .i32⟩ : BufTy).Contents (Elt F) → (⟨S1x1x96x3, .i32⟩ : BufTy).Contents (Elt F)),
    unary main_v101 main_v107 (broadcastInDim S96x3x96x3 ![0, 1, 2, 3] bcast_S96x3x1x1_S96x3x96x3_0_1_2_3 : (⟨S96x3x1x1, .i32⟩ : BufTy).Contents (Elt F) → (⟨S96x3x96x3, .i32⟩ : BufTy).Contents (Elt F)),
    unary main_v106 main_v108 (broadcastInDim S96x3x96x3 ![0, 1, 2, 3] bcast_S1x1x96x3_S96x3x96x3_0_1_2_3 : (⟨S1x1x96x3, .i32⟩ : BufTy).Contents (Elt F) → (⟨S96x3x96x3, .i32⟩ : BufTy).Contents (Elt F)),
    unary main_v107 main_v109 (broadcastInDim S96x3x96x3x1 ![0, 1, 2, 3] bcast_S96x3x96x3_S96x3x96x3x1_0_1_2_3 : (⟨S96x3x96x3, .i32⟩ : BufTy).Contents (Elt F) → (⟨S96x3x96x3x1, .i32⟩ : BufTy).Contents (Elt F)),
    unary main_v108 main_v110 (broadcastInDim S96x3x96x3x1 ![0, 1, 2, 3] bcast_S96x3x96x3_S96x3x96x3x1_0_1_2_3 : (⟨S96x3x96x3, .i32⟩ : BufTy).Contents (Elt F) → (⟨S96x3x96x3x1, .i32⟩ : BufTy).Contents (Elt F)),
    binary main_v109 main_v110 main_v111 ((fun a b => concatenate S96x3x96x3x2 4 [⟨S96x3x96x3x1, a⟩, ⟨S96x3x96x3x1, b⟩] concatenates_S96x3x96x3x1_S96x3x96x3x1_S96x3x96x3x2_d4) : (⟨S96x3x96x3x1, .i32⟩ : BufTy).Contents (Elt F) → (⟨S96x3x96x3x1, .i32⟩ : BufTy).Contents (Elt F) → (⟨S96x3x96x3x2, .i32⟩ : BufTy).Contents (Elt F)),
    ternary main_v94 main_v111 main_v75 main_v112 ((fun x i u => Host.scatterAdd scatter_S4x128x98x98_S96x3x96x3x2_S4x128x96x3x96x3_01_23_23_4 x i u) : (⟨S4x128x98x98, .f32⟩ : BufTy).Contents (Elt F) → (⟨S96x3x96x3x2, .i32⟩ : BufTy).Contents (Elt F) → (⟨S4x128x96x3x96x3, .f32⟩ : BufTy).Contents (Elt F) → (⟨S4x128x98x98, .f32⟩ : BufTy).Contents (Elt F)),
    unary main_v112 main_v113 ((extractStridedSlice S4x128x96x96 ![0, 0, 1, 1] · slices_S4x128x98x98_S4x128x96x96_0_0_1_1) : (⟨S4x128x98x98, .f32⟩ : BufTy).Contents (Elt F) → (⟨S4x128x96x96, .f32⟩ : BufTy).Contents (Elt F)),
    nullary main_cst_19 (constant S_ .f32 0x41100000#32),
    unary main_cst_19 main_v114 (broadcastInDim S4x128x96x96 ![] bcast_S_S4x128x96x96 : (⟨S_, .f32⟩ : BufTy).Contents (Elt F) → (⟨S4x128x96x96, .f32⟩ : BufTy).Contents (Elt F)),
    binary main_v113 main_v114 main_v115 (Host.divf : (⟨S4x128x96x96, .f32⟩ : BufTy).Contents (Elt F) → (⟨S4x128x96x96, .f32⟩ : BufTy).Contents (Elt F) → (⟨S4x128x96x96, .f32⟩ : BufTy).Contents (Elt F)),
    reshape main_v73 main_v116 rfl shapeCasts_S4x2304x9216_S4x64x6x6x96x96,
    unary main_v116 main_v117 ((transpose S4x64x96x6x96x6 [0, 1, 4, 2, 5, 3] · transposes_S4x64x6x6x96x96_S4x64x96x6x96x6_0_1_4_2_5_3) : (⟨S4x64x6x6x96x96, .f32⟩ : BufTy).Contents (Elt F) → (⟨S4x64x96x6x96x6, .f32⟩ : BufTy).Contents (Elt F)),
    nullary main_v118 (iotaInDim S96 32 0),
    nullary main_c_20 (constantI S_ 32 2#32),
    unary main_c_20 main_v119 (broadcastInDim S96 ![] bcast_S_S96 : (⟨S_, .i32⟩ : BufTy).Contents (Elt F) → (⟨S96, .i32⟩ : BufTy).Contents (Elt F)),
    binary main_v118 main_v119 main_v120 (muli : (⟨S96, .i32⟩ : BufTy).Contents (Elt F) → (⟨S96, .i32⟩ : BufTy).Contents (Elt F) → (⟨S96, .i32⟩ : BufTy).Contents (Elt F)),
    unary main_v120 main_v121 (broadcastInDim S96x1 ![0] bcast_S96_S96x1_0 : (⟨S96, .i32⟩ : BufTy).Contents (Elt F) → (⟨S96x1, .i32⟩ : BufTy).Contents (Elt F)),
    nullary main_v122 (iotaInDim S6 32 0),
    unary main_v122 main_v123 (broadcastInDim S1x6 ![1] bcast_S6_S1x6_1 : (⟨S6, .i32⟩ : BufTy).Contents (Elt F) → (⟨S1x6, .i32⟩ : BufTy).Contents (Elt F)),
    unary main_v121 main_v124 (broadcastInDim S96x6 ![0, 1] bcast_S96x1_S96x6_0_1 : (⟨S96x1, .i32⟩ : BufTy).Contents (Elt F) → (⟨S96x6, .i32⟩ : BufTy).Contents (Elt F)),
    unary main_v123 main_v125 (broadcastInDim S96x6 ![0, 1] bcast_S1x6_S96x6_0_1 : (⟨S1x6, .i32⟩ : BufTy).Contents (Elt F) → (⟨S96x6, .i32⟩ : BufTy).Contents (Elt F)),
    binary main_v124 main_v125 main_v126 (addi : (⟨S96x6, .i32⟩ : BufTy).Contents (Elt F) → (⟨S96x6, .i32⟩ : BufTy).Contents (Elt F) → (⟨S96x6, .i32⟩ : BufTy).Contents (Elt F)),
    nullary main_v127 (iotaInDim S96 32 0),
    nullary main_c_21 (constantI S_ 32 2#32),
    unary main_c_21 main_v128 (broadcastInDim S96 ![] bcast_S_S96 : (⟨S_, .i32⟩ : BufTy).Contents (Elt F) → (⟨S96, .i32⟩ : BufTy).Contents (Elt F)),
    binary main_v127 main_v128 main_v129 (muli : (⟨S96, .i32⟩ : BufTy).Contents (Elt F) → (⟨S96, .i32⟩ : BufTy).Contents (Elt F) → (⟨S96, .i32⟩ : BufTy).Contents (Elt F)),
    unary main_v129 main_v130 (broadcastInDim S96x1 ![0] bcast_S96_S96x1_0 : (⟨S96, .i32⟩ : BufTy).Contents (Elt F) → (⟨S96x1, .i32⟩ : BufTy).Contents (Elt F)),
    nullary main_v131 (iotaInDim S6 32 0),
    unary main_v131 main_v132 (broadcastInDim S1x6 ![1] bcast_S6_S1x6_1 : (⟨S6, .i32⟩ : BufTy).Contents (Elt F) → (⟨S1x6, .i32⟩ : BufTy).Contents (Elt F)),
    unary main_v130 main_v133 (broadcastInDim S96x6 ![0, 1] bcast_S96x1_S96x6_0_1 : (⟨S96x1, .i32⟩ : BufTy).Contents (Elt F) → (⟨S96x6, .i32⟩ : BufTy).Contents (Elt F)),
    unary main_v132 main_v134 (broadcastInDim S96x6 ![0, 1] bcast_S1x6_S96x6_0_1 : (⟨S1x6, .i32⟩ : BufTy).Contents (Elt F) → (⟨S96x6, .i32⟩ : BufTy).Contents (Elt F)),
    binary main_v133 main_v134 main_v135 (addi : (⟨S96x6, .i32⟩ : BufTy).Contents (Elt F) → (⟨S96x6, .i32⟩ : BufTy).Contents (Elt F) → (⟨S96x6, .i32⟩ : BufTy).Contents (Elt F)),
    nullary main_cst_22 (constant S_ .f32 0x00000000#32),
    unary main_cst_22 main_v136 (broadcastInDim S4x64x196x196 ![] bcast_S_S4x64x196x196 : (⟨S_, .f32⟩ : BufTy).Contents (Elt F) → (⟨S4x64x196x196, .f32⟩ : BufTy).Contents (Elt F)),
    unary main_v126 main_v137 (broadcastInDim S96x6x1x1 ![0, 1] bcast_S96x6_S96x6x1x1_0_1 : (⟨S96x6, .i32⟩ : BufTy).Contents (Elt F) → (⟨S96x6x1x1, .i32⟩ : BufTy).Contents (Elt F)),
    unary main_v135 main_v138 (broadcastInDim S1x1x96x6 ![2, 3] bcast_S96x6_S1x1x96x6_2_3 : (⟨S96x6, .i32⟩ : BufTy).Contents (Elt F) → (⟨S1x1x96x6, .i32⟩ : BufTy).Contents (Elt F)),
    nullary main_c_23 (constantI S_ 32 0#32),
    unary main_c_23 main_v139 (broadcastInDim S96x6x1x1 ![] bcast_S_S96x6x1x1 : (⟨S_, .i32⟩ : BufTy).Contents (Elt F) → (⟨S96x6x1x1, .i32⟩ : BufTy).Contents (Elt F)),
    binary main_v137 main_v139 main_v140 (cmpi .slt : (⟨S96x6x1x1, .i32⟩ : BufTy).Contents (Elt F) → (⟨S96x6x1x1, .i32⟩ : BufTy).Contents (Elt F) → (⟨S96x6x1x1, .i1⟩ : BufTy).Contents (Elt F)),
    nullary main_c_24 (constantI S_ 32 196#32),
    unary main_c_24 main_v141 (broadcastInDim S96x6x1x1 ![] bcast_S_S96x6x1x1 : (⟨S_, .i32⟩ : BufTy).Contents (Elt F) → (⟨S96x6x1x1, .i32⟩ : BufTy).Contents (Elt F)),
    binary main_v137 main_v141 main_v142 (addi : (⟨S96x6x1x1, .i32⟩ : BufTy).Contents (Elt F) → (⟨S96x6x1x1, .i32⟩ : BufTy).Contents (Elt F) → (⟨S96x6x1x1, .i32⟩ : BufTy).Contents (Elt F)),
    ternary main_v140 main_v142 main_v137 main_v143 (select : (⟨S96x6x1x1, .i1⟩ : BufTy).Contents (Elt F) → (⟨S96x6x1x1, .i32⟩ : BufTy).Contents (Elt F) → (⟨S96x6x1x1, .i32⟩ : BufTy).Contents (Elt F) → (⟨S96x6x1x1, .i32⟩ : BufTy).Contents (Elt F)),
    nullary main_c_25 (constantI S_ 32 0#32),
    unary main_c_25 main_v144 (broadcastInDim S1x1x96x6 ![] bcast_S_S1x1x96x6 : (⟨S_, .i32⟩ : BufTy).Contents (Elt F) → (⟨S1x1x96x6, .i32⟩ : BufTy).Contents (Elt F)),
    binary main_v138 main_v144 main_v145 (cmpi .slt : (⟨S1x1x96x6, .i32⟩ : BufTy).Contents (Elt F) → (⟨S1x1x96x6, .i32⟩ : BufTy).Contents (Elt F) → (⟨S1x1x96x6, .i1⟩ : BufTy).Contents (Elt F)),
    nullary main_c_26 (constantI S_ 32 196#32),
    unary main_c_26 main_v146 (broadcastInDim S1x1x96x6 ![] bcast_S_S1x1x96x6 : (⟨S_, .i32⟩ : BufTy).Contents (Elt F) → (⟨S1x1x96x6, .i32⟩ : BufTy).Contents (Elt F)),
    binary main_v138 main_v146 main_v147 (addi : (⟨S1x1x96x6, .i32⟩ : BufTy).Contents (Elt F) → (⟨S1x1x96x6, .i32⟩ : BufTy).Contents (Elt F) → (⟨S1x1x96x6, .i32⟩ : BufTy).Contents (Elt F)),
    ternary main_v145 main_v147 main_v138 main_v148 (select : (⟨S1x1x96x6, .i1⟩ : BufTy).Contents (Elt F) → (⟨S1x1x96x6, .i32⟩ : BufTy).Contents (Elt F) → (⟨S1x1x96x6, .i32⟩ : BufTy).Contents (Elt F) → (⟨S1x1x96x6, .i32⟩ : BufTy).Contents (Elt F)),
    unary main_v143 main_v149 (broadcastInDim S96x6x96x6 ![0, 1, 2, 3] bcast_S96x6x1x1_S96x6x96x6_0_1_2_3 : (⟨S96x6x1x1, .i32⟩ : BufTy).Contents (Elt F) → (⟨S96x6x96x6, .i32⟩ : BufTy).Contents (Elt F)),
    unary main_v148 main_v150 (broadcastInDim S96x6x96x6 ![0, 1, 2, 3] bcast_S1x1x96x6_S96x6x96x6_0_1_2_3 : (⟨S1x1x96x6, .i32⟩ : BufTy).Contents (Elt F) → (⟨S96x6x96x6, .i32⟩ : BufTy).Contents (Elt F)),
    unary main_v149 main_v151 (broadcastInDim S96x6x96x6x1 ![0, 1, 2, 3] bcast_S96x6x96x6_S96x6x96x6x1_0_1_2_3 : (⟨S96x6x96x6, .i32⟩ : BufTy).Contents (Elt F) → (⟨S96x6x96x6x1, .i32⟩ : BufTy).Contents (Elt F)),
    unary main_v150 main_v152 (broadcastInDim S96x6x96x6x1 ![0, 1, 2, 3] bcast_S96x6x96x6_S96x6x96x6x1_0_1_2_3 : (⟨S96x6x96x6, .i32⟩ : BufTy).Contents (Elt F) → (⟨S96x6x96x6x1, .i32⟩ : BufTy).Contents (Elt F)),
    binary main_v151 main_v152 main_v153 ((fun a b => concatenate S96x6x96x6x2 4 [⟨S96x6x96x6x1, a⟩, ⟨S96x6x96x6x1, b⟩] concatenates_S96x6x96x6x1_S96x6x96x6x1_S96x6x96x6x2_d4) : (⟨S96x6x96x6x1, .i32⟩ : BufTy).Contents (Elt F) → (⟨S96x6x96x6x1, .i32⟩ : BufTy).Contents (Elt F) → (⟨S96x6x96x6x2, .i32⟩ : BufTy).Contents (Elt F)),
    ternary main_v136 main_v153 main_v117 main_v154 ((fun x i u => Host.scatterAdd scatter_S4x64x196x196_S96x6x96x6x2_S4x64x96x6x96x6_01_23_23_4 x i u) : (⟨S4x64x196x196, .f32⟩ : BufTy).Contents (Elt F) → (⟨S96x6x96x6x2, .i32⟩ : BufTy).Contents (Elt F) → (⟨S4x64x96x6x96x6, .f32⟩ : BufTy).Contents (Elt F) → (⟨S4x64x196x196, .f32⟩ : BufTy).Contents (Elt F)),
    unary main_v154 main_v155 ((extractStridedSlice S4x64x192x192 ![0, 0, 2, 2] · slices_S4x64x196x196_S4x64x192x192_0_0_2_2) : (⟨S4x64x196x196, .f32⟩ : BufTy).Contents (Elt F) → (⟨S4x64x192x192, .f32⟩ : BufTy).Contents (Elt F)),
    nullary main_cst_27 (constant S_ .f32 0x41100000#32),
    unary main_cst_27 main_v156 (broadcastInDim S4x64x192x192 ![] bcast_S_S4x64x192x192 : (⟨S_, .f32⟩ : BufTy).Contents (Elt F) → (⟨S4x64x192x192, .f32⟩ : BufTy).Contents (Elt F)),
    binary main_v155 main_v156 main_v157 (Host.divf : (⟨S4x64x192x192, .f32⟩ : BufTy).Contents (Elt F) → (⟨S4x64x192x192, .f32⟩ : BufTy).Contents (Elt F) → (⟨S4x64x192x192, .f32⟩ : BufTy).Contents (Elt F)) ]

set_option maxRecDepth 8192 in
/-- The list is the stretches one after the other. -/
theorem ops_split : (ops : List (HloOp τ sig (Elt F))) = opsA ++ opsB2 ++ opsB1 ++ opsC := rfl

end Cert.ReferenceIdeal.Value

end
-- ==== Proof.RefSide.lean ====
/-
  The reference's run, read through its four stretches. Its results are the fold of all its operations over the
  launch memory; that fold is the fold of the closing stretch over what the two gathers leave, which is the fold
  of the gathers over what the two unfolds leave. The arguments come back unchanged.
-/
import proofs.«400157_j45320494907489_1_alg».proof.Proof.RefChunks
import Idealize.ShloMosaic.Lib.Pipeline.Frame

noncomputable section

namespace Cert.ReferenceIdeal.Side

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]
variable (m' : (ℓ : Loc nD τ sig) → Buf (Elt F) ℓ) (c : Dev nD)

/-- After the two unfolds. -/
abbrev RA : Valuation τ sig (Elt F) := after opsA (launchContents m' c)
/-- After the first gather. -/
abbrev RB2 : Valuation τ sig (Elt F) := after opsB2 (RA m' c)
/-- After the second gather: what the closing stretch starts from. -/
abbrev RB1 : Valuation τ sig (Elt F) := after opsB1 (RB2 m' c)

/-- The whole fold is the closing stretch's over the gathers' over the unfolds'. -/
theorem after_ops (b : DevRef τ sig) : after ops (launchContents m' c) b = after opsC (RB1 m' c) b := by
  rw [ops_split, StableHlo.after_append, StableHlo.after_append, StableHlo.after_append]

/-- Every weakly fair execution of the reference ends with its four arguments as launched. -/
theorem frame (ρ : Dev nD → PrngReg) :
    θ_run defs (onTc (τ := τ) (main (F := F))) ⟨m', fun _ => 0, ρ⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c => (h c).2.2) (run (F := F) m' ρ)

end Cert.ReferenceIdeal.Side

end
-- ==== Proof.KernelIdeal.OneHot.lean ====
/-
  The accumulation step both gather calls share, read at one entry. A step multiplies the [1152, 2304] block of the
  source by a [2304, 1152] matrix of zeros and ones and adds the product to the accumulator; entry (j, col) of that
  matrix is one exactly when the index word of column col equals k·2304 + j, k being the step's position along the
  contracted axis. At the ideal values the product at (r, col) is therefore a sum of 2304 terms of which at most one
  is not 0 · x = 0: it is the source block's entry (r, w mod 2304) when the word w lies in the k-th stretch of 2304
  columns, and zero otherwise. No finiteness is needed: in the extended reals x · 0 = 0 and 0 + x = x for every x.
-/
import proofs.«400157_j45320494907489_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.OneHot

open Idealize.ShloMosaic Idealize.ShloMosaic.TcCoe
open Idealize.ShloMosaic.ValueIdx
open Cert.KernelIdeal Cert.KernelIdeal.Gen
open scoped BigOperators

/-! ## The contraction's operand indices -/

/-- The product's left operand index at output (r, col) and contracted coordinate j: (r, j). -/
theorem dot_lhsIdx (r col : Fin 1152) (j : Fin 2304) :
    dot_S1152x2304_S2304x1152_S1152x1152_1_0_0_1_n_n.lhsIdx (ix2 r col)
      ((contrEquiv1 dot_S1152x2304_S2304x1152_S1152x1152_1_0_0_1_n_n 2304 rfl rfl).symm j) = ix2 r j := by
  have c2 := contrEquiv1_symm_val dot_S1152x2304_S2304x1152_S1152x1152_1_0_0_1_n_n 2304 rfl rfl j
  funext ax; apply Fin.ext
  match ax with
  | ⟨0, _⟩ => simp [DotDims.lhsIdx, dot_S1152x2304_S2304x1152_S1152x1152_1_0_0_1_n_n]; rfl
  | ⟨1, _⟩ => simp [DotDims.lhsIdx, dot_S1152x2304_S2304x1152_S1152x1152_1_0_0_1_n_n]; exact c2

/-- The right operand index: (j, col). -/
theorem dot_rhsIdx (r col : Fin 1152) (j : Fin 2304) :
    dot_S1152x2304_S2304x1152_S1152x1152_1_0_0_1_n_n.rhsIdx (ix2 r col)
      ((contrEquiv1 dot_S1152x2304_S2304x1152_S1152x1152_1_0_0_1_n_n 2304 rfl rfl).symm j) = ix2 j col := by
  have c2 := contrEquiv1_symm_val dot_S1152x2304_S2304x1152_S1152x1152_1_0_0_1_n_n 2304 rfl rfl j
  funext ax; apply Fin.ext
  match ax with
  | ⟨0, _⟩ => simp [DotDims.rhsIdx, dot_S1152x2304_S2304x1152_S1152x1152_1_0_0_1_n_n]; exact c2
  | ⟨1, _⟩ => simp [DotDims.rhsIdx, dot_S1152x2304_S2304x1152_S1152x1152_1_0_0_1_n_n]; rfl

/-! ## The matrix of zeros and ones -/

/-- Among the 2304 contracted positions at most one carries a one: the sum of f j · [n = k·2304 + j] is f at n mod 2304
    when n lies in the k-th stretch of 2304, and zero otherwise. In the extended reals x · 0 = 0 for every x. -/
theorem sum_onehot (f : Fin 2304 → EReal) (k n : ℕ) :
    ∑ j : Fin 2304, f j * (if n = k * 2304 + j.val then (1 : EReal) else 0)
      = if n / 2304 = k then f ⟨n % 2304, Nat.mod_lt _ (by decide)⟩ else 0 := by
  split
  · rename_i h
    rw [Finset.sum_eq_single (⟨n % 2304, Nat.mod_lt _ (by decide)⟩ : Fin 2304)]
    · rw [if_pos (by show n = k * 2304 + n % 2304; omega), mul_one]
    · intro j _ hj
      rw [if_neg (fun e => hj (Fin.ext (by show j.val = n % 2304; omega))), mul_zero]
    · intro h'; exact absurd (Finset.mem_univ _) h'
  · rename_i h
    refine Finset.sum_eq_zero fun j _ => ?_
    rw [if_neg (fun e => h (by have := j.isLt; omega)), mul_zero]

/-- The word k·2304 + j computed in 32 bits. -/
theorem word_eq (k : ℕ) (j : ℕ) :
    IntOp.addi (Scalar.muli (BitVec.ofNat 32 k) 2304#32) (BitVec.ofNat 32 j) = BitVec.ofNat 32 (k * 2304 + j) := by
  show BitVec.ofNat 32 k * BitVec.ofNat 32 2304 + BitVec.ofNat 32 j = _
  rw [← BitVec.ofNat_mul, ← BitVec.ofNat_add]

/-- It equals a 32-bit word exactly when the word's value is k·2304 + j (k below 4, j below 2304). -/
theorem word_eq_iff (k : ℕ) (hk : k < 4) (j : Fin 2304) (w : BitVec 32) :
    BitVec.ofNat 32 (k * 2304 + j.val) = w ↔ w.toNat = k * 2304 + j.val := by
  have hj := j.isLt
  constructor
  · intro e; rw [← e, BitVec.toNat_ofNat]; exact Nat.mod_eq_of_lt (by omega)
  · intro e; apply BitVec.eq_of_toNat_eq; rw [BitVec.toNat_ofNat, e]; exact Nat.mod_eq_of_lt (by omega)

/-- A true comparison, widened to 32 bits and converted, is the extended real one. -/
theorem sitofp_cmpi_of_eq (a b : BitVec 32) (h : a = b) :
    FloatOps.sitofp (F := Ideal) .f32 (BitVec.setWidth 32 (IntOp.cmpi .eq a b)) = (1 : EReal) := by
  rw [IntOp.cmpi_eq.mpr h]
  show (((BitVec.setWidth 32 1#1).toInt : ℝ) : EReal) = 1
  rw [show (BitVec.setWidth 32 1#1).toInt = 1 from by decide]
  simp

/-- A false one is zero. -/
theorem sitofp_cmpi_of_ne (a b : BitVec 32) (h : a ≠ b) :
    FloatOps.sitofp (F := Ideal) .f32 (BitVec.setWidth 32 (IntOp.cmpi .eq a b)) = (0 : EReal) := by
  rw [eq_zero_of_ne_one (fun e => h (IntOp.cmpi_eq.mp e))]
  show (((BitVec.setWidth 32 0#1).toInt : ℝ) : EReal) = 0
  rw [show (BitVec.setWidth 32 0#1).toInt = 0 from by decide]
  simp

/-- The one-hot operand read at (j, col): one when the index word of column col is k·2304 + j, zero otherwise. -/
theorem hot_entry (k : ℕ) (hk : k < 4) (x1 : Vec Ideal S1x1x1152 .i32) (j : Fin 2304) (col : Fin 1152) :
    (truncf .bf16
        (sitofp .f32
          (extui 32
            (cmpi .eq
              (addi (broadcast S2304x1152 (Scalar.muli (BitVec.ofNat 32 k) 2304#32))
                (iota .tc S2304x1152 32 [0] iota_S2304x1152_d0_w32))
              (broadcastTo S2304x1152
                (shapeCast S1x1152
                  (shapeCast S1x1152 (shapeCast S1152 x1 shapeCasts_S1x1x1152_S1152) shapeCasts_S1152_S1x1152)
                  shapeCasts_S1x1152_S1x1152)
                broadcasts_S1x1152_S2304x1152))
            natLt_1_32))
        bitsLt_bf16_f32 : FVec Ideal S2304x1152 .bf16) (ix2 j col)
      = if (x1 (ix3 (0 : Fin 1) (0 : Fin 1) col)).toNat = k * 2304 + j.val then (1 : EReal) else 0 := by
  rw [truncf_apply, sitofp_apply, extui_apply]
  show FloatOps.sitofp (F := Ideal) .f32 (BitVec.setWidth 32 (IntOp.cmpi .eq
      (IntOp.addi (Scalar.muli (BitVec.ofNat 32 k) 2304#32) (iota .tc S2304x1152 32 [0] iota_S2304x1152_d0_w32 (ix2 j col)))
      (broadcastTo S2304x1152 _ broadcasts_S1x1152_S2304x1152 (ix2 j col)))) = _
  rw [iota_single_apply, broadcastTo_1b_ab_apply, shapeCast_self, shapeCast_a_1a_apply,
    shapeCast_apply x1 _ (ix1 col) (ix3 (0 : Fin 1) (0 : Fin 1) col) (by
      rw [Shape.rowMajor_val_three, Shape.rowMajor_val_one]
      show (0 * 1 + 0) * 1152 + col.val = col.val
      omega)]
  show FloatOps.sitofp (F := Ideal) .f32 (BitVec.setWidth 32 (IntOp.cmpi .eq
      (IntOp.addi (Scalar.muli (BitVec.ofNat 32 k) 2304#32) (BitVec.ofNat 32 j.val)) (x1 (ix3 (0 : Fin 1) (0 : Fin 1) col)))) = _
  rw [word_eq]
  by_cases hw : (x1 (ix3 (0 : Fin 1) (0 : Fin 1) col)).toNat = k * 2304 + j.val
  · rw [if_pos hw, sitofp_cmpi_of_eq _ _ ((word_eq_iff k hk j _).mpr hw)]
  · rw [if_neg hw, sitofp_cmpi_of_ne _ _ (fun e => hw ((word_eq_iff k hk j _).mp e))]

/-! ## One step at an entry -/

/-- The step at (r, col): the accumulator's entry plus the source block's entry (r, w mod 2304) when the index word w
    of column col lies in the k-th stretch of 2304 columns, plus zero otherwise. -/
theorem step_apply (k : ℕ) (hk : k < 4) (x1 : Vec Ideal S1x1x1152 .i32) (x0 : Vec Ideal S1x1152x2304 .bf16)
    (s : Vec Ideal S1152x1152 .f32) (r col : Fin 1152) :
    (addf (F := Ideal) s
      (matmul (F := Ideal) dot_S1152x2304_S2304x1152_S1152x1152_1_0_0_1_n_n none
        (shapeCast S1152x2304 x0 shapeCasts_S1x1152x2304_S1152x2304 : FVec Ideal S1152x2304 .bf16)
        (truncf (F := Ideal) .bf16
          (sitofp (F := Ideal) .f32
            (extui 32
              (cmpi .eq
                (addi (broadcast S2304x1152 (Scalar.muli (BitVec.ofNat 32 k) 2304#32))
                  (iota .tc S2304x1152 32 [0] iota_S2304x1152_d0_w32))
                (broadcastTo S2304x1152
                  (shapeCast S1x1152
                    (shapeCast S1x1152 (shapeCast S1152 x1 shapeCasts_S1x1x1152_S1152) shapeCasts_S1152_S1x1152)
                    shapeCasts_S1x1152_S1x1152)
                  broadcasts_S1x1152_S2304x1152))
              natLt_1_32))
          bitsLt_bf16_f32)
        (constant (F := Ideal) S1152x1152 .f32 0x00000000#32)) : FVec Ideal S1152x1152 .f32) (ix2 r col)
      = s (ix2 r col)
        + (if (x1 (ix3 (0 : Fin 1) (0 : Fin 1) col)).toNat / 2304 = k then
            x0 (ix3 (0 : Fin 1) r ⟨(x1 (ix3 (0 : Fin 1) (0 : Fin 1) col)).toNat % 2304, Nat.mod_lt _ (by decide)⟩)
          else (0 : EReal)) := by
  rw [addf_apply]
  simp only [matmul]
  rw [Ideal.matmul_constant_zero_apply,
    ← Equiv.sum_comp (contrEquiv1 dot_S1152x2304_S2304x1152_S1152x1152_1_0_0_1_n_n 2304 rfl rfl).symm]
  refine congrArg (s (ix2 r col) + ·) ?_
  rw [← sum_onehot (fun j => x0 (ix3 (0 : Fin 1) r j)) k (x1 (ix3 (0 : Fin 1) (0 : Fin 1) col)).toNat]
  refine Finset.sum_congr rfl fun j _ => ?_
  rw [dot_lhsIdx, dot_rhsIdx, shapeCast_1ab_ab_apply, hot_entry k hk]

/-! ## The two calls' payloads -/

/-- The first call's step. -/
theorem k0_pay2_apply (i : grid0.Coords) (x1 : Vec Ideal S1x1x1152 .i32) (x0 : Vec Ideal S1x1152x2304 .bf16)
    (s : Vec Ideal S1152x1152 .f32) (r col : Fin 1152) :
    k0_pay2 (F := Ideal) i x1 x0 s (ix2 r col)
      = s (ix2 r col)
        + (if (x1 (ix3 (0 : Fin 1) (0 : Fin 1) col)).toNat / 2304 = (i 3).val then
            x0 (ix3 (0 : Fin 1) r ⟨(x1 (ix3 (0 : Fin 1) (0 : Fin 1) col)).toNat % 2304, Nat.mod_lt _ (by decide)⟩)
          else (0 : EReal)) := by
  unfold k0_pay2
  rw [shapeCast_self]
  exact step_apply (i 3).val (i 3).isLt x1 x0 s r col

/-- The second call's step: the same operations. -/
theorem k1_pay2_apply (i : grid1.Coords) (x1 : Vec Ideal S1x1x1152 .i32) (x0 : Vec Ideal S1x1152x2304 .bf16)
    (s : Vec Ideal S1152x1152 .f32) (r col : Fin 1152) :
    k1_pay2 (F := Ideal) i x1 x0 s (ix2 r col)
      = s (ix2 r col)
        + (if (x1 (ix3 (0 : Fin 1) (0 : Fin 1) col)).toNat / 2304 = (i 3).val then
            x0 (ix3 (0 : Fin 1) r ⟨(x1 (ix3 (0 : Fin 1) (0 : Fin 1) col)).toNat % 2304, Nat.mod_lt _ (by decide)⟩)
          else (0 : EReal)) := by
  unfold k1_pay2
  rw [shapeCast_self]
  exact step_apply (i 3).val (i 3).isLt x1 x0 s r col

/-- The block a run of steps starts from is zero everywhere. -/
theorem k0_pay1_apply (r col : Fin 1152) : k0_pay1 (F := Ideal) (ix2 r col) = (0 : EReal) := by
  unfold k0_pay1
  rw [shapeCast_self]
  exact Ideal.ofBits_zero_f32

theorem k1_pay1_apply (r col : Fin 1152) : k1_pay1 (F := Ideal) (ix2 r col) = (0 : EReal) := by
  unfold k1_pay1
  rw [shapeCast_self]
  exact Ideal.ofBits_zero_f32

/-- What is stored for the write-back is the accumulator with a leading unit axis. -/
theorem k0_pay3_apply (v : Vec Ideal S1152x1152 .f32) (u : Fin 1) (r col : Fin 1152) :
    k0_pay3 (F := Ideal) v (ix3 u r col) = v (ix2 r col) := by
  unfold k0_pay3
  exact shapeCast_ab_1ab_apply v _ u r col

theorem k1_pay3_apply (v : Vec Ideal S1152x1152 .f32) (u : Fin 1) (r col : Fin 1152) :
    k1_pay3 (F := Ideal) v (ix3 u r col) = v (ix2 r col) := by
  unfold k1_pay3
  exact shapeCast_ab_1ab_apply v _ u r col

/-! ## A run of four steps -/

/-- Over the four steps k = 0, 1, 2, 3 a word below 9216 lies in exactly one stretch, so the four additions to zero
    leave the one entry that step picked. -/
theorem sum_four (n : ℕ) (hn : n < 9216) (X : EReal) :
    ((((0 : EReal) + (if n / 2304 = 0 then X else 0)) + (if n / 2304 = 1 then X else 0))
      + (if n / 2304 = 2 then X else 0)) + (if n / 2304 = 3 then X else 0) = X := by
  have h4 : n / 2304 < 4 := by omega
  interval_cases h : n / 2304 <;> simp

end Cert.KernelIdeal.OneHot

end
-- ==== Proof.Spec.lean ====
/-
  The specification both programs are compared with: the column gather. From an array u of shape [4, M, 9216]
  and, per batch b and target column n, a source column col b n, the gathered array holds u[b, r, col b n] at
  (b, r, n). An index word in the range [0, 9216) names the column that is its value.
-/
import Idealize.ShloMosaic.Lib.ValueIdx
import Idealize.ShloMosaic.Lib.Affine

noncomputable section

namespace Cert.Spec

open Idealize.ShloMosaic Idealize.ShloMosaic.ValueIdx

/-- The column gather: out[b, r, n] = u[b, r, col b n]. -/
def gatherCols {α : Type} {M : ℕ} (u : (⟨3, ![4, M, 9216]⟩ : Shape).Idx → α) (col : Fin 4 → Fin 9216 → Fin 9216) :
    (⟨3, ![4, M, 9216]⟩ : Shape).Idx → α :=
  fun j => u (ix3 (j 0) (j 1) (col (j 0) (j 2)))

theorem gatherCols_apply {α : Type} {M : ℕ} (u : (⟨3, ![4, M, 9216]⟩ : Shape).Idx → α) (col : Fin 4 → Fin 9216 → Fin 9216)
    (b : Fin 4) (r : Fin M) (n : Fin 9216) : gatherCols u col (ix3 b r n) = u (ix3 b r (col b n)) := rfl

/-- The column an index word in range names: its value. -/
def colOf (w : Fin 4 → Fin 9216 → BitVec 32) (h : ∀ b n, (w b n).toNat < 9216) : Fin 4 → Fin 9216 → Fin 9216 :=
  fun b n => ⟨(w b n).toNat, h b n⟩

/-- A 32-bit word that is not negative and is below 9216, read signed, is below 9216 read unsigned. -/
theorem toNat_lt_of_signed {w : BitVec 32} (h0 : IntOp.cmpi .sge w 0#32 = 1#1) (h1 : IntOp.cmpi .slt w 9216#32 = 1#1) :
    w.toNat < 9216 := by
  rw [IntOp.cmpi_sge] at h0
  rw [IntOp.cmpi_slt] at h1
  have e0 : (0#32 : BitVec 32).toInt = 0 := by decide
  have e1 : (9216#32 : BitVec 32).toInt = 9216 := by decide
  rw [e0] at h0; rw [e1] at h1
  have := BitVec.toInt_eq_toNat_cond w
  split at this <;> omega

end Cert.Spec

end
-- ==== Proof.KernelIdeal.Region0.Value.lean ====
/-
  What the first gather call's output array holds after the call, at the ideal values. Point t of the grid is
  ((b·1 + mb)·8 + nb)·4 + k with k innermost: batch b, row block mb (of 1152 rows), column block nb (of 1152 target
  columns), step k along the 9216 source columns (2304 at a time). The source window's block at t is rows
  mb·1152 … of batch b and source columns k·2304 …; the index window's is the index words of target columns nb·1152 …
  of batch b; the output window's is rows mb·1152 … and target columns nb·1152 … of batch b, written back at k = 3.
  At (r, col) each step adds the source entry (r, w) when the index word w of the column lies in the step's stretch of
  source columns and zero otherwise, so after the four steps the accumulator holds the source entry (r, w): the output
  array is the column gather of the source array along the index words.
-/
import proofs.«400157_j45320494907489_1_alg».proof.Proof.KernelIdeal.Region0.Data
import proofs.«400157_j45320494907489_1_alg».proof.Proof.KernelIdeal.OneHot
import proofs.«400157_j45320494907489_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the buffer contents when the call is entered, at the ideal values
variable (V : (c : Dev nD) → (b : Ref sig .tc) → Buf (Elt Ideal) ((c : Thread nD τ).loc b))

/-! ## The arrays and the blocks, at their literal types -/

/-- The source array, bf16[4, 1152, 9216]. -/
abbrev srcArr (c : Dev nD) : Vec Ideal S4x1152x9216 .bf16 := V c main_v70
/-- The index words, i32[4, 1, 9216]. -/
abbrev idxArr (c : Dev nD) : Vec Ideal S4x1x9216 .i32 := V c main_v72
/-- The source window's block at point t. -/
abbrev srcBlk (c : Dev nD) (t : Fin cfg0.N) : Vec Ideal S1x1152x2304 .bf16 := iblk V c 0 t
/-- The index window's block at point t. -/
abbrev idxBlk (c : Dev nD) (t : Fin cfg0.N) : Vec Ideal S1x1x1152 .i32 := iblk V c 1 t

/-! ## The index maps over the grid -/

/-- The printed index maps, decided once over the grid: at point t the batch is t / 32, the row block t / 32 mod 1,
    the column block t / 4 mod 8 and the step t mod 4. -/
theorem idx_facts : ∀ t : Fin cfg0.N,
    win0_0.index t (0 : Fin 3) = t.val / 32 ∧ win0_0.index t (1 : Fin 3) = t.val / 32 % 1 ∧ win0_0.index t (2 : Fin 3) = t.val % 4
    ∧ win0_1.index t (0 : Fin 3) = t.val / 32 ∧ win0_1.index t (1 : Fin 3) = 0 ∧ win0_1.index t (2 : Fin 3) = t.val / 4 % 8
    ∧ win0_2.index t (0 : Fin 3) = t.val / 32 ∧ win0_2.index t (1 : Fin 3) = t.val / 32 % 1 ∧ win0_2.index t (2 : Fin 3) = t.val / 4 % 8
    ∧ (grid0.coords t 3).val = t.val % 4 :=
  (by decide +kernel : ∀ t : Fin grid0.N, _)

/-! ## Each input block read at its array -/

/-- The source block's entry (0, r, j) at point t is the source array's at batch t / 32, row (t / 32 mod 1)·1152 + r,
    column (t mod 4)·2304 + j. -/
theorem srcBlk_apply (c : Dev nD) (t : Fin cfg0.N) (r : Fin 1152) (j : Fin 2304) (i : S4x1152x9216.Idx)
    (h0 : (i 0).val = t.val / 32) (h1 : (i 1).val = t.val / 32 % 1 * 1152 + r.val)
    (h2 : (i 2).val = t.val % 4 * 2304 + j.val) :
    srcBlk V c t (ix3 (0 : Fin 1) r j) = srcArr V c i := by
  obtain ⟨e0, e1, e2, -⟩ := idx_facts t
  show V c main_v70 (((cfg0.win 0).blk t).view.emb (ix3 (0 : Fin 1) r j)) = V c main_v70 i
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 1152 + 1 * r.val = (i 1).val; rw [e1, h1]; omega
  | ⟨2, _⟩ => show win0_0.index t (2 : Fin 3) * 2304 + 1 * j.val = (i 2).val; rw [e2, h2]; omega

/-- The index block's entry (0, 0, col) at point t is the index word of batch t / 32, column (t / 4 mod 8)·1152 + col. -/
theorem idxBlk_apply (c : Dev nD) (t : Fin cfg0.N) (col : Fin 1152) (i : S4x1x9216.Idx)
    (h0 : (i 0).val = t.val / 32) (h2 : (i 2).val = t.val / 4 % 8 * 1152 + col.val) :
    idxBlk V c t (ix3 (0 : Fin 1) (0 : Fin 1) col) = idxArr V c i := by
  obtain ⟨-, -, -, e0, e1, e2, -⟩ := idx_facts t
  show V c main_v72 (((cfg0.win 1).blk t).view.emb (ix3 (0 : Fin 1) (0 : Fin 1) col)) = V c main_v72 i
  congr 1
  funext a
  apply Fin.ext
  match a with
  | ⟨0, _⟩ => show win0_1.index t (0 : Fin 3) * 1 + 1 * 0 = (i 0).val; rw [e0, h0]; omega
  | ⟨1, _⟩ => show win0_1.index t (1 : Fin 3) * 1 + 1 * 0 = (i 1).val; rw [e1]; have h : (i 1).val < 1 := (i 1).isLt; omega
  | ⟨2, _⟩ => show win0_1.index t (2 : Fin 3) * 1152 + 1 * col.val = (i 2).val; rw [e2, h2]; omega

/-! ## The accumulator point by point -/

/-- After point m the accumulator's entry (r, col) is what the point before left there (zero when m is a point with
    k = 0) plus the source array's entry (b, R, w) when the index word w of column n lies in step m mod 4's stretch of
    2304 source columns, plus zero otherwise; b, R, n are the batch, the row and the column the point's blocks put
    (r, col) at. -/
theorem sAt_apply (c : Dev nD) (h : ∀ (b : Fin 4) (n : Fin 9216), (idxArr V c (ix3 b (0 : Fin 1) n)).toNat < 9216)
    (m : ℕ) (hm : m < cfg0.N) (r col : Fin 1152) (b : Fin 4) (R : Fin 1152) (n : Fin 9216)
    (hb : b.val = m / 32) (hR : R.val = m / 32 % 1 * 1152 + r.val) (hn : n.val = m / 4 % 8 * 1152 + col.val) :
    sAt V c m hm (ix2 r col)
      = (if m % 4 = 0 then (0 : EReal) else sAt V c (m - 1) (Nat.lt_of_le_of_lt (Nat.sub_le _ _) hm) (ix2 r col))
        + (if (idxArr V c (ix3 b (0 : Fin 1) n)).toNat / 2304 = m % 4 then
            srcArr V c (ix3 b R ⟨(idxArr V c (ix3 b (0 : Fin 1) n)).toNat, h b n⟩) else (0 : EReal)) := by
  obtain ⟨-, -, -, -, -, -, -, -, -, e3⟩ := idx_facts ⟨m, hm⟩
  have hw : idxBlk V c ⟨m, hm⟩ (ix3 (0 : Fin 1) (0 : Fin 1) col) = idxArr V c (ix3 b (0 : Fin 1) n) :=
    idxBlk_apply V c ⟨m, hm⟩ col (ix3 b (0 : Fin 1) n) hb hn
  have step : ∀ s : Vec Ideal S1152x1152 .f32,
      k0_pay2 (F := Ideal) (grid0.coords ⟨m, hm⟩) (idxBlk V c ⟨m, hm⟩) (srcBlk V c ⟨m, hm⟩) s (ix2 r col)
        = s (ix2 r col) + (if (idxArr V c (ix3 b (0 : Fin 1) n)).toNat / 2304 = m % 4 then
            srcArr V c (ix3 b R ⟨(idxArr V c (ix3 b (0 : Fin 1) n)).toNat, h b n⟩) else (0 : EReal)) := by
    intro s
    refine (OneHot.k0_pay2_apply (grid0.coords ⟨m, hm⟩) (idxBlk V c ⟨m, hm⟩) (srcBlk V c ⟨m, hm⟩) s r col).trans ?_
    rw [hw, e3]
    refine congrArg (s (ix2 r col) + ·) ?_
    by_cases hk : (idxArr V c (ix3 b (0 : Fin 1) n)).toNat / 2304 = m % 4
    · rw [if_pos hk, if_pos hk]
      exact srcBlk_apply V c ⟨m, hm⟩ r _ _ hb hR (by
        show (idxArr V c (ix3 b (0 : Fin 1) n)).toNat = m % 4 * 2304 + (idxArr V c (ix3 b (0 : Fin 1) n)).toNat % 2304
        omega)
    · rw [if_neg hk, if_neg hk]
  by_cases h0 : m % 4 = 0
  · rw [if_pos h0]
    refine (congrFun (sAt_reset V c ⟨m, hm⟩ h0) (ix2 r col)).trans ?_
    refine (step (k0_pay1 (F := Ideal))).trans ?_
    rw [OneHot.k0_pay1_apply]
  · rw [if_neg h0]
    refine (congrFun (sAt_step V c ⟨m, hm⟩ h0) (ix2 r col)).trans ?_
    exact step _

/-- At a point with k = 3 the four steps of its run have been added: the accumulator's entry (r, col) is the source
    array's entry (b, R, w), w the index word of column n — a word below 9216 lies in exactly one of the four stretches. -/
theorem sAt_last (c : Dev nD) (h : ∀ (b : Fin 4) (n : Fin 9216), (idxArr V c (ix3 b (0 : Fin 1) n)).toNat < 9216)
    (m : ℕ) (hm : m < cfg0.N) (h3 : m % 4 = 3) (r col : Fin 1152) (b : Fin 4) (R : Fin 1152) (n : Fin 9216)
    (hb : b.val = m / 32) (hR : R.val = m / 32 % 1 * 1152 + r.val) (hn : n.val = m / 4 % 8 * 1152 + col.val) :
    sAt V c m hm (ix2 r col) = srcArr V c (ix3 b R ⟨(idxArr V c (ix3 b (0 : Fin 1) n)).toNat, h b n⟩) := by
  rw [sAt_apply V c h m hm r col b R n hb hR hn, if_neg (by omega),
    sAt_apply V c h (m - 1) _ r col b R n (by omega) (by omega) (by omega), if_neg (by omega),
    sAt_apply V c h (m - 1 - 1) _ r col b R n (by omega) (by omega) (by omega), if_neg (by omega),
    sAt_apply V c h (m - 1 - 1 - 1) _ r col b R n (by omega) (by omega) (by omega), if_pos (by omega),
    show m % 4 = 3 from h3, show (m - 1) % 4 = 2 from by omega, show (m - 1 - 1) % 4 = 1 from by omega,
    show (m - 1 - 1 - 1) % 4 = 0 from by omega]
  exact OneHot.sum_four _ (h b n) _

/-! ## From the blocks to the array -/

/-- The column gather of the source array along the index words: what the output array ends holding. -/
abbrev gathered (c : Dev nD) (h : ∀ (b : Fin 4) (n : Fin 9216), (V c main_v72 (ix3 b (0 : Fin 1) n)).toNat < 9216) :
    Vec Ideal S4x1152x9216 .f32 :=
  Cert.Spec.gatherCols (M := 1152) (V c main_v70) (Cert.Spec.colOf (fun b n => V c main_v72 (ix3 b (0 : Fin 1) n)) h)

/-- What a point with k = 3 writes back is its block of the gathered array. -/
theorem flushed_eq (c : Dev nD) (h : ∀ (b : Fin 4) (n : Fin 9216), (V c main_v72 (ix3 b (0 : Fin 1) n)).toNat < 9216)
    (t : Fin cfg0.N) (hf : (cfg0.win 2).flush t = true) :
    (dat V c).flushed 2 t = ((cfg0.win 2).blk t).view.read (Elt Ideal) (gathered V c h) := by
  have h3 : t.val % 4 = 3 := (flush0_2 t).mp hf
  obtain ⟨-, -, -, -, -, -, e0, e1, e2, -⟩ := idx_facts t
  show (cfg0.win 2).cut (grid0.coords t) ((dat V c).after 2 t) = _
  rw [after_2]
  funext y
  obtain ⟨u, r, col, rfl⟩ : ∃ (u : Fin 1) (r : Fin 1152) (col : Fin 1152), y = ix3 u r col := ⟨y 0, y 1, y 2, eq_ix3 y⟩
  show k0_pay3 (F := Ideal) (sAt V c t.val t.isLt) (ix3 u r col)
    = gathered V c h (((cfg0.win 2).blk t).view.emb (ix3 u r col))
  rw [OneHot.k0_pay3_apply]
  have hu : u.val = 0 := by omega
  exact sAt_last V c h t.val t.isLt h3 r col
    ((((cfg0.win 2).blk t).view.emb (ix3 u r col)) 0) ((((cfg0.win 2).blk t).view.emb (ix3 u r col)) 1)
    ((((cfg0.win 2).blk t).view.emb (ix3 u r col)) 2)
    (by show win0_2.index t (0 : Fin 3) * 1 + 1 * u.val = t.val / 32; rw [e0]; omega)
    (by show win0_2.index t (1 : Fin 3) * 1152 + 1 * r.val = t.val / 32 % 1 * 1152 + r.val; rw [e1]; omega)
    (by show win0_2.index t (2 : Fin 3) * 1152 + 1 * col.val = t.val / 4 % 8 * 1152 + col.val; rw [e2]; omega)

/-- Every entry (b, R, n) of the output array lies in the block of the point with k = 3 of batch b, row block
    R / 1152 and column block n / 1152. -/
theorem covered (i : S4x1152x9216.Idx) :
    ∃ t : Fin cfg0.N, (cfg0.win 2).flush t = true ∧ i ∈ ((cfg0.win 2).blk t).view.set := by
  have hN : cfg0.N = 128 := N_0
  have h0 : (i 0).val < 4 := (i 0).isLt
  have h1 : (i 1).val < 1152 := (i 1).isLt
  have h2 : (i 2).val < 9216 := (i 2).isLt
  obtain ⟨m, hm⟩ : ∃ m : ℕ, m = (((i 0).val * 1 + (i 1).val / 1152) * 8 + (i 2).val / 1152) * 4 + 3 := ⟨_, rfl⟩
  have hlt : m < cfg0.N := by omega
  refine ⟨⟨m, hlt⟩, (flush0_2 _).mpr (by show m % 4 = 3; omega), ?_⟩
  obtain ⟨-, -, -, -, -, -, e0, e1, e2, -⟩ := idx_facts ⟨m, hlt⟩
  have e0' : win0_2.index ⟨m, hlt⟩ (0 : Fin 3) = m / 32 := e0
  have e1' : win0_2.index ⟨m, hlt⟩ (1 : Fin 3) = m / 32 % 1 := e1
  have e2' : win0_2.index ⟨m, hlt⟩ (2 : Fin 3) = m / 4 % 8 := e2
  show i ∈ ((View.whole main_v73).slice (win0_2.rect ⟨m, hlt⟩)).set
  rw [View.set_slice_whole, Rect.mem_set_unit]
  intro a
  match a with
  | ⟨0, _⟩ =>
    show win0_2.index ⟨m, hlt⟩ (0 : Fin 3) * 1 ≤ (i 0).val ∧ (i 0).val < win0_2.index ⟨m, hlt⟩ (0 : Fin 3) * 1 + 1
    rw [e0']; omega
  | ⟨1, _⟩ =>
    show win0_2.index ⟨m, hlt⟩ (1 : Fin 3) * 1152 ≤ (i 1).val ∧ (i 1).val < win0_2.index ⟨m, hlt⟩ (1 : Fin 3) * 1152 + 1152
    rw [e1']; omega
  | ⟨2, _⟩ =>
    show win0_2.index ⟨m, hlt⟩ (2 : Fin 3) * 1152 ≤ (i 2).val ∧ (i 2).val < win0_2.index ⟨m, hlt⟩ (2 : Fin 3) * 1152 + 1152
    rw [e2']; omega

/-- THE OUTPUT ARRAY after the call: the column gather of the source array along the index words. -/
theorem arr_out_eq (c : Dev nD)
    (h : ∀ (b : Fin 4) (n : Fin 9216), (V c main_v72 (ix3 b (0 : Fin 1) n)).toNat < 9216) :
    (dat (F := Ideal) V c).arrAt 2 cfg0.N
      = Cert.Spec.gatherCols (M := 1152) (V c main_v70) (Cert.Spec.colOf (fun b n => V c main_v72 (ix3 b (0 : Fin 1) n)) h) :=
  (dat V c).arrAt_eq_of_cover 2 (gathered V c h) (fun t hf => flushed_eq V c h t hf) covered

end Cert.KernelIdeal.Region0

end
-- ==== Proof.KernelIdeal.Region1.Value.lean ====
/-
  What the second gather call's output array holds after the call, at the ideal values. Point t of the grid is
  ((b·2 + mb)·8 + nb)·4 + k with k innermost: batch b, row block mb (of 1152 rows), column block nb (of 1152 target
  columns), step k along the 9216 source columns (2304 at a time). The source window's block at t is rows
  mb·1152 … of batch b and source columns k·2304 …; the index window's is the index words of target columns nb·1152 …
  of batch b; the output window's is rows mb·1152 … and target columns nb·1152 … of batch b, written back at k = 3.
  At (r, col) each step adds the source entry (r, w) when the index word w of the column lies in the step's stretch of
  source columns and zero otherwise, so after the four steps the accumulator holds the source entry (r, w): the output
  array is the column gather of the source array along the index words.
-/
import proofs.«400157_j45320494907489_1_alg».proof.Proof.KernelIdeal.Region1.Data
import proofs.«400157_j45320494907489_1_alg».proof.Proof.KernelIdeal.OneHot
import proofs.«400157_j45320494907489_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the buffer contents when the call is entered, at the ideal values
variable (V : (c : Dev nD) → (b : Ref sig .tc) → Buf (Elt Ideal) ((c : Thread nD τ).loc b))

/-! ## The arrays and the blocks, at their literal types -/

/-- The source array, bf16[4, 2304, 9216]. -/
abbrev srcArr (c : Dev nD) : Vec Ideal S4x2304x9216 .bf16 := V c main_v71
/-- The index words, i32[4, 1, 9216]. -/
abbrev idxArr (c : Dev nD) : Vec Ideal S4x1x9216 .i32 := V c main_v72
/-- The source window's block at point t. -/
abbrev srcBlk (c : Dev nD) (t : Fin cfg1.N) : Vec Ideal S1x1152x2304 .bf16 := iblk V c 0 t
/-- The index window's block at point t. -/
abbrev idxBlk (c : Dev nD) (t : Fin cfg1.N) : Vec Ideal S1x1x1152 .i32 := iblk V c 1 t

/-! ## The index maps over the grid -/

/-- The printed index maps, decided once over the grid: at point t the batch is t / 64, the row block t / 32 mod 2,
    the column block t / 4 mod 8 and the step t mod 4. -/
theorem idx_facts : ∀ t : Fin cfg1.N,
    win1_0.index t (0 : Fin 3) = t.val / 64 ∧ win1_0.index t (1 : Fin 3) = t.val / 32 % 2 ∧ win1_0.index t (2 : Fin 3) = t.val % 4
    ∧ win1_1.index t (0 : Fin 3) = t.val / 64 ∧ win1_1.index t (1 : Fin 3) = 0 ∧ win1_1.index t (2 : Fin 3) = t.val / 4 % 8
    ∧ win1_2.index t (0 : Fin 3) = t.val / 64 ∧ win1_2.index t (1 : Fin 3) = t.val / 32 % 2 ∧ win1_2.index t (2 : Fin 3) = t.val / 4 % 8
    ∧ (grid1.coords t 3).val = t.val % 4 :=
  (by decide +kernel : ∀ t : Fin grid1.N, _)

/-! ## Each input block read at its array -/

/-- The source block's entry (0, r, j) at point t is the source array's at batch t / 64, row (t / 32 mod 2)·1152 + r,
    column (t mod 4)·2304 + j. -/
theorem srcBlk_apply (c : Dev nD) (t : Fin cfg1.N) (r : Fin 1152) (j : Fin 2304) (i : S4x2304x9216.Idx)
    (h0 : (i 0).val = t.val / 64) (h1 : (i 1).val = t.val / 32 % 2 * 1152 + r.val)
    (h2 : (i 2).val = t.val % 4 * 2304 + j.val) :
    srcBlk V c t (ix3 (0 : Fin 1) r j) = srcArr V c i := by
  obtain ⟨e0, e1, e2, -⟩ := idx_facts t
  show V c main_v71 (((cfg1.win 0).blk t).view.emb (ix3 (0 : Fin 1) r j)) = V c main_v71 i
  congr 1
  funext a
  apply Fin.ext
  match a with
  | ⟨0, _⟩ => show win1_0.index t (0 : Fin 3) * 1 + 1 * 0 = (i 0).val; rw [e0, h0]; omega
  | ⟨1, _⟩ => show win1_0.index t (1 : Fin 3) * 1152 + 1 * r.val = (i 1).val; rw [e1, h1]; omega
  | ⟨2, _⟩ => show win1_0.index t (2 : Fin 3) * 2304 + 1 * j.val = (i 2).val; rw [e2, h2]; omega

/-- The index block's entry (0, 0, col) at point t is the index word of batch t / 64, column (t / 4 mod 8)·1152 + col. -/
theorem idxBlk_apply (c : Dev nD) (t : Fin cfg1.N) (col : Fin 1152) (i : S4x1x9216.Idx)
    (h0 : (i 0).val = t.val / 64) (h2 : (i 2).val = t.val / 4 % 8 * 1152 + col.val) :
    idxBlk V c t (ix3 (0 : Fin 1) (0 : Fin 1) col) = idxArr V c i := by
  obtain ⟨-, -, -, e0, e1, e2, -⟩ := idx_facts t
  show V c main_v72 (((cfg1.win 1).blk t).view.emb (ix3 (0 : Fin 1) (0 : Fin 1) col)) = V c main_v72 i
  congr 1
  funext a
  apply Fin.ext
  match a with
  | ⟨0, _⟩ => show win1_1.index t (0 : Fin 3) * 1 + 1 * 0 = (i 0).val; rw [e0, h0]; omega
  | ⟨1, _⟩ => show win1_1.index t (1 : Fin 3) * 1 + 1 * 0 = (i 1).val; rw [e1]; have h : (i 1).val < 1 := (i 1).isLt; omega
  | ⟨2, _⟩ => show win1_1.index t (2 : Fin 3) * 1152 + 1 * col.val = (i 2).val; rw [e2, h2]; omega

/-! ## The accumulator point by point -/

/-- After point m the accumulator's entry (r, col) is what the point before left there (zero when m is a point with
    k = 0) plus the source array's entry (b, R, w) when the index word w of column n lies in step m mod 4's stretch of
    2304 source columns, plus zero otherwise; b, R, n are the batch, the row and the column the point's blocks put
    (r, col) at. -/
theorem sAt_apply (c : Dev nD) (h : ∀ (b : Fin 4) (n : Fin 9216), (idxArr V c (ix3 b (0 : Fin 1) n)).toNat < 9216)
    (m : ℕ) (hm : m < cfg1.N) (r col : Fin 1152) (b : Fin 4) (R : Fin 2304) (n : Fin 9216)
    (hb : b.val = m / 64) (hR : R.val = m / 32 % 2 * 1152 + r.val) (hn : n.val = m / 4 % 8 * 1152 + col.val) :
    sAt V c m hm (ix2 r col)
      = (if m % 4 = 0 then (0 : EReal) else sAt V c (m - 1) (Nat.lt_of_le_of_lt (Nat.sub_le _ _) hm) (ix2 r col))
        + (if (idxArr V c (ix3 b (0 : Fin 1) n)).toNat / 2304 = m % 4 then
            srcArr V c (ix3 b R ⟨(idxArr V c (ix3 b (0 : Fin 1) n)).toNat, h b n⟩) else (0 : EReal)) := by
  obtain ⟨-, -, -, -, -, -, -, -, -, e3⟩ := idx_facts ⟨m, hm⟩
  have hw : idxBlk V c ⟨m, hm⟩ (ix3 (0 : Fin 1) (0 : Fin 1) col) = idxArr V c (ix3 b (0 : Fin 1) n) :=
    idxBlk_apply V c ⟨m, hm⟩ col (ix3 b (0 : Fin 1) n) hb hn
  have step : ∀ s : Vec Ideal S1152x1152 .f32,
      k1_pay2 (F := Ideal) (grid1.coords ⟨m, hm⟩) (idxBlk V c ⟨m, hm⟩) (srcBlk V c ⟨m, hm⟩) s (ix2 r col)
        = s (ix2 r col) + (if (idxArr V c (ix3 b (0 : Fin 1) n)).toNat / 2304 = m % 4 then
            srcArr V c (ix3 b R ⟨(idxArr V c (ix3 b (0 : Fin 1) n)).toNat, h b n⟩) else (0 : EReal)) := by
    intro s
    refine (OneHot.k1_pay2_apply (grid1.coords ⟨m, hm⟩) (idxBlk V c ⟨m, hm⟩) (srcBlk V c ⟨m, hm⟩) s r col).trans ?_
    rw [hw, e3]
    refine congrArg (s (ix2 r col) + ·) ?_
    by_cases hk : (idxArr V c (ix3 b (0 : Fin 1) n)).toNat / 2304 = m % 4
    · rw [if_pos hk, if_pos hk]
      exact srcBlk_apply V c ⟨m, hm⟩ r _ _ hb hR (by
        show (idxArr V c (ix3 b (0 : Fin 1) n)).toNat = m % 4 * 2304 + (idxArr V c (ix3 b (0 : Fin 1) n)).toNat % 2304
        omega)
    · rw [if_neg hk, if_neg hk]
  by_cases h0 : m % 4 = 0
  · rw [if_pos h0]
    refine (congrFun (sAt_reset V c ⟨m, hm⟩ h0) (ix2 r col)).trans ?_
    refine (step (k1_pay1 (F := Ideal))).trans ?_
    rw [OneHot.k1_pay1_apply]
  · rw [if_neg h0]
    refine (congrFun (sAt_step V c ⟨m, hm⟩ h0) (ix2 r col)).trans ?_
    exact step _

/-- At a point with k = 3 the four steps of its run have been added: the accumulator's entry (r, col) is the source
    array's entry (b, R, w), w the index word of column n — a word below 9216 lies in exactly one of the four stretches. -/
theorem sAt_last (c : Dev nD) (h : ∀ (b : Fin 4) (n : Fin 9216), (idxArr V c (ix3 b (0 : Fin 1) n)).toNat < 9216)
    (m : ℕ) (hm : m < cfg1.N) (h3 : m % 4 = 3) (r col : Fin 1152) (b : Fin 4) (R : Fin 2304) (n : Fin 9216)
    (hb : b.val = m / 64) (hR : R.val = m / 32 % 2 * 1152 + r.val) (hn : n.val = m / 4 % 8 * 1152 + col.val) :
    sAt V c m hm (ix2 r col) = srcArr V c (ix3 b R ⟨(idxArr V c (ix3 b (0 : Fin 1) n)).toNat, h b n⟩) := by
  rw [sAt_apply V c h m hm r col b R n hb hR hn, if_neg (by omega),
    sAt_apply V c h (m - 1) _ r col b R n (by omega) (by omega) (by omega), if_neg (by omega),
    sAt_apply V c h (m - 1 - 1) _ r col b R n (by omega) (by omega) (by omega), if_neg (by omega),
    sAt_apply V c h (m - 1 - 1 - 1) _ r col b R n (by omega) (by omega) (by omega), if_pos (by omega),
    show m % 4 = 3 from h3, show (m - 1) % 4 = 2 from by omega, show (m - 1 - 1) % 4 = 1 from by omega,
    show (m - 1 - 1 - 1) % 4 = 0 from by omega]
  exact OneHot.sum_four _ (h b n) _

/-! ## From the blocks to the array -/

/-- The column gather of the source array along the index words: what the output array ends holding. -/
abbrev gathered (c : Dev nD) (h : ∀ (b : Fin 4) (n : Fin 9216), (V c main_v72 (ix3 b (0 : Fin 1) n)).toNat < 9216) :
    Vec Ideal S4x2304x9216 .f32 :=
  Cert.Spec.gatherCols (M := 2304) (V c main_v71) (Cert.Spec.colOf (fun b n => V c main_v72 (ix3 b (0 : Fin 1) n)) h)

/-- What a point with k = 3 writes back is its block of the gathered array. -/
theorem flushed_eq (c : Dev nD) (h : ∀ (b : Fin 4) (n : Fin 9216), (V c main_v72 (ix3 b (0 : Fin 1) n)).toNat < 9216)
    (t : Fin cfg1.N) (hf : (cfg1.win 2).flush t = true) :
    (dat V c).flushed 2 t = ((cfg1.win 2).blk t).view.read (Elt Ideal) (gathered V c h) := by
  have h3 : t.val % 4 = 3 := (flush1_2 t).mp hf
  obtain ⟨-, -, -, -, -, -, e0, e1, e2, -⟩ := idx_facts t
  show (cfg1.win 2).cut (grid1.coords t) ((dat V c).after 2 t) = _
  rw [after_2]
  funext y
  obtain ⟨u, r, col, rfl⟩ : ∃ (u : Fin 1) (r : Fin 1152) (col : Fin 1152), y = ix3 u r col := ⟨y 0, y 1, y 2, eq_ix3 y⟩
  show k1_pay3 (F := Ideal) (sAt V c t.val t.isLt) (ix3 u r col)
    = gathered V c h (((cfg1.win 2).blk t).view.emb (ix3 u r col))
  rw [OneHot.k1_pay3_apply]
  have hu : u.val = 0 := by omega
  exact sAt_last V c h t.val t.isLt h3 r col
    ((((cfg1.win 2).blk t).view.emb (ix3 u r col)) 0) ((((cfg1.win 2).blk t).view.emb (ix3 u r col)) 1)
    ((((cfg1.win 2).blk t).view.emb (ix3 u r col)) 2)
    (by show win1_2.index t (0 : Fin 3) * 1 + 1 * u.val = t.val / 64; rw [e0]; omega)
    (by show win1_2.index t (1 : Fin 3) * 1152 + 1 * r.val = t.val / 32 % 2 * 1152 + r.val; rw [e1]; omega)
    (by show win1_2.index t (2 : Fin 3) * 1152 + 1 * col.val = t.val / 4 % 8 * 1152 + col.val; rw [e2]; omega)

/-- Every entry (b, R, n) of the output array lies in the block of the point with k = 3 of batch b, row block
    R / 1152 and column block n / 1152. -/
theorem covered (i : S4x2304x9216.Idx) :
    ∃ t : Fin cfg1.N, (cfg1.win 2).flush t = true ∧ i ∈ ((cfg1.win 2).blk t).view.set := by
  have hN : cfg1.N = 256 := N_1
  have h0 : (i 0).val < 4 := (i 0).isLt
  have h1 : (i 1).val < 2304 := (i 1).isLt
  have h2 : (i 2).val < 9216 := (i 2).isLt
  obtain ⟨m, hm⟩ : ∃ m : ℕ, m = (((i 0).val * 2 + (i 1).val / 1152) * 8 + (i 2).val / 1152) * 4 + 3 := ⟨_, rfl⟩
  have hlt : m < cfg1.N := by omega
  refine ⟨⟨m, hlt⟩, (flush1_2 _).mpr (by show m % 4 = 3; omega), ?_⟩
  obtain ⟨-, -, -, -, -, -, e0, e1, e2, -⟩ := idx_facts ⟨m, hlt⟩
  have e0' : win1_2.index ⟨m, hlt⟩ (0 : Fin 3) = m / 64 := e0
  have e1' : win1_2.index ⟨m, hlt⟩ (1 : Fin 3) = m / 32 % 2 := e1
  have e2' : win1_2.index ⟨m, hlt⟩ (2 : Fin 3) = m / 4 % 8 := e2
  show i ∈ ((View.whole main_v74).slice (win1_2.rect ⟨m, hlt⟩)).set
  rw [View.set_slice_whole, Rect.mem_set_unit]
  intro a
  match a with
  | ⟨0, _⟩ =>
    show win1_2.index ⟨m, hlt⟩ (0 : Fin 3) * 1 ≤ (i 0).val ∧ (i 0).val < win1_2.index ⟨m, hlt⟩ (0 : Fin 3) * 1 + 1
    rw [e0']; omega
  | ⟨1, _⟩ =>
    show win1_2.index ⟨m, hlt⟩ (1 : Fin 3) * 1152 ≤ (i 1).val ∧ (i 1).val < win1_2.index ⟨m, hlt⟩ (1 : Fin 3) * 1152 + 1152
    rw [e1']; omega
  | ⟨2, _⟩ =>
    show win1_2.index ⟨m, hlt⟩ (2 : Fin 3) * 1152 ≤ (i 2).val ∧ (i 2).val < win1_2.index ⟨m, hlt⟩ (2 : Fin 3) * 1152 + 1152
    rw [e2']; omega

/-- THE OUTPUT ARRAY after the call: the column gather of the source array along the index words. -/
theorem arr_out_eq (c : Dev nD)
    (h : ∀ (b : Fin 4) (n : Fin 9216), (V c main_v72 (ix3 b (0 : Fin 1) n)).toNat < 9216) :
    (dat (F := Ideal) V c).arrAt 2 cfg1.N
      = Cert.Spec.gatherCols (M := 2304) (V c main_v71) (Cert.Spec.colOf (fun b n => V c main_v72 (ix3 b (0 : Fin 1) n)) h) :=
  (dat V c).arrAt_eq_of_cover 2 (gathered V c h) (fun t hf => flushed_eq V c h t hf) covered

end Cert.KernelIdeal.Region1

end
-- ==== Proof.Bridge.Head.lean ====
/-
  The two programs build the same unfolded arrays from the same arguments.

  Up to the two gather calls both programs run the same operations in the same order on the two image arguments:
  pad by zeros, gather the rows of every patch, gather the columns of every patch, move the two in-patch axes in
  front of the two position axes, and flatten to [batch, channel x in-patch offset, position]. The row and column
  index tables are built from iotas and constants alone. So the level-2 array [4, 1152, 9216] and the level-1
  array [4, 2304, 9216] each program holds at that point are one and the same function of the argument's
  contents: each side's contents are read off its own operation list, and the two resulting terms are the same
  term, spelt with each program's own names for the same shapes and the same side conditions.

  The first program then narrows both arrays to the 16-bit float format, which changes nothing over the extended
  reals, and gives the index argument a unit middle axis, which reads the argument at the outer two coordinates.
  The second program's leading stretch writes no argument.
-/
import proofs.«400157_j45320494907489_1_alg».proof.Proof.KernelIdeal.Valuations
import proofs.«400157_j45320494907489_1_alg».proof.Proof.RefChunks
import Idealize.ShloMosaic.Lib.ValueIdx
import Idealize.ShloMosaic.Lib.Pipeline.Value

set_option maxRecDepth 65536

noncomputable section

namespace Cert.Bridge

open Idealize.ShloMosaic Idealize.ShloMosaic.TcCoe Idealize.SL.Sem Idealize.ShloMosaic.StableHlo
open Idealize.ShloMosaic.ValueIdx

/-! ## The unfolded arrays, at any float family -/

section AnyFloats

variable {F : FTy → Type} [FloatOps F]

/-- The level-2 unfolded array [4, 1152, 9216]: what the first program holds at the first call's entry is what the
    second program holds after its leading stretch, when the two level-2 image arguments hold the same contents.
    Each side is read off its operation list as a term over the argument's contents; the two terms are the same. -/
theorem unfold_lv2 (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (c : Dev Cert.KernelIdeal.nD)
    (h3 : (m' ((c.tc : Thread Cert.ReferenceIdeal.nD Cert.ReferenceIdeal.τ).loc Cert.ReferenceIdeal.main_arg3)
            : (⟨4, ![4, 128, 96, 96]⟩ : Shape).Idx → Elt F .f32)
        = m ((c.tc : Thread Cert.KernelIdeal.nD Cert.KernelIdeal.τ).loc Cert.KernelIdeal.main_arg3)) :
    (Cert.KernelIdeal.Run.W1 m ρ c (Proc.devRef .tc Cert.KernelIdeal.main_v34) : (⟨3, ![4, 1152, 9216]⟩ : Shape).Idx → Elt F .f32)
      = StableHlo.after Cert.ReferenceIdeal.Value.opsA (launchContents m' c) (Proc.devRef .tc Cert.ReferenceIdeal.main_v34) := by
  have e : (launchContents m' c (Proc.devRef .tc Cert.ReferenceIdeal.main_arg3) : (⟨4, ![4, 128, 96, 96]⟩ : Shape).Idx → Elt F .f32)
      = Cert.KernelIdeal.Run.W0 m ρ c (Proc.devRef .tc Cert.KernelIdeal.main_arg3) := h3
  after_results_simp
  simp only [TRef.ofBuf, TRef.toBuf, cast_eq]
  rw [e]
  rfl

/-- The level-1 unfolded array [4, 2304, 9216], likewise, from the level-1 image arguments. -/
theorem unfold_lv1 (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (c : Dev Cert.KernelIdeal.nD)
    (h2 : (m' ((c.tc : Thread Cert.ReferenceIdeal.nD Cert.ReferenceIdeal.τ).loc Cert.ReferenceIdeal.main_arg2)
            : (⟨4, ![4, 64, 192, 192]⟩ : Shape).Idx → Elt F .f32)
        = m ((c.tc : Thread Cert.KernelIdeal.nD Cert.KernelIdeal.τ).loc Cert.KernelIdeal.main_arg2)) :
    (Cert.KernelIdeal.Run.W1 m ρ c (Proc.devRef .tc Cert.KernelIdeal.main_v69) : (⟨3, ![4, 2304, 9216]⟩ : Shape).Idx → Elt F .f32)
      = StableHlo.after Cert.ReferenceIdeal.Value.opsA (launchContents m' c) (Proc.devRef .tc Cert.ReferenceIdeal.main_v69) := by
  have e : (launchContents m' c (Proc.devRef .tc Cert.ReferenceIdeal.main_arg2) : (⟨4, ![4, 64, 192, 192]⟩ : Shape).Idx → Elt F .f32)
      = Cert.KernelIdeal.Run.W0 m ρ c (Proc.devRef .tc Cert.KernelIdeal.main_arg2) := h2
  after_results_simp
  simp only [TRef.ofBuf, TRef.toBuf, cast_eq]
  rw [e]
  rfl

/-- The narrowed level-2 array is the narrowing of the level-2 array held at the same point: the last stretch
    before the calls writes the one from the other and does not write the other. -/
theorem narrow_lv2 (V : Valuation Cert.KernelIdeal.τ Cert.KernelIdeal.sig (Elt F)) :
    (StableHlo.after Cert.KernelIdeal.Gen.hostOps0_4 V (Proc.devRef .tc Cert.KernelIdeal.main_v70) : FVec F ⟨3, ![4, 1152, 9216]⟩ .bf16)
      = truncf .bf16 (StableHlo.after Cert.KernelIdeal.Gen.hostOps0_4 V (Proc.devRef .tc Cert.KernelIdeal.main_v34) : FVec F ⟨3, ![4, 1152, 9216]⟩ .f32) (by decide) := by
  after_results_simp

/-- The narrowed level-1 array is the narrowing of the level-1 array held at the same point. -/
theorem narrow_lv1 (V : Valuation Cert.KernelIdeal.τ Cert.KernelIdeal.sig (Elt F)) :
    (StableHlo.after Cert.KernelIdeal.Gen.hostOps0_4 V (Proc.devRef .tc Cert.KernelIdeal.main_v71) : FVec F ⟨3, ![4, 2304, 9216]⟩ .bf16)
      = truncf .bf16 (StableHlo.after Cert.KernelIdeal.Gen.hostOps0_4 V (Proc.devRef .tc Cert.KernelIdeal.main_v69) : FVec F ⟨3, ![4, 2304, 9216]⟩ .f32) (by decide) := by
  after_results_simp

/-- The index array with a unit middle axis, read at (b, 0, n), is the index argument at (b, n). -/
theorem head_idx (m : (ℓ : Loc Cert.KernelIdeal.nD Cert.KernelIdeal.τ Cert.KernelIdeal.sig) → Buf (Elt F) ℓ)
    (ρ : Dev Cert.KernelIdeal.nD → PrngReg) (c : Dev Cert.KernelIdeal.nD) (b : Fin 4) (n : Fin 9216) :
    (Cert.KernelIdeal.Run.W1 m ρ c (Proc.devRef .tc Cert.KernelIdeal.main_v72) : (⟨3, ![4, 1, 9216]⟩ : Shape).Idx → BitVec 32) (ix3 b (0 : Fin 1) n)
      = (m ((c.tc : Thread Cert.KernelIdeal.nD Cert.KernelIdeal.τ).loc Cert.KernelIdeal.main_arg0) : (⟨2, ![4, 9216]⟩ : Shape).Idx → BitVec 32) (ix2 b n) := by
  have hb : (⟨2, ![4, 9216]⟩ : Shape).BroadcastsInDim ⟨3, ![4, 1, 9216]⟩ (![0, 2] : Fin 2 → Fin 3) := by decide
  have e : (Cert.KernelIdeal.Run.W1 m ρ c (Proc.devRef .tc Cert.KernelIdeal.main_v72) : (⟨3, ![4, 1, 9216]⟩ : Shape).Idx → BitVec 32)
      = broadcastInDim (s := ⟨2, ![4, 9216]⟩) ⟨3, ![4, 1, 9216]⟩ ![0, 2] hb
          (m ((c.tc : Thread Cert.KernelIdeal.nD Cert.KernelIdeal.τ).loc Cert.KernelIdeal.main_arg0) : (⟨2, ![4, 9216]⟩ : Shape).Idx → BitVec 32) := by
    after_results_simp <;> rfl
  rw [e]
  exact broadcastInDim_apply _ _ _ _ (ix2 b n) fun a => match a with | ⟨0, _⟩ => rfl | ⟨1, _⟩ => rfl

/-- The second program's leading stretch writes no argument: the index argument is as launched. -/
theorem refA_arg0 (m' : (ℓ : Loc Cert.ReferenceIdeal.nD Cert.ReferenceIdeal.τ Cert.ReferenceIdeal.sig) → Buf (Elt F) ℓ)
    (c : Dev Cert.ReferenceIdeal.nD) :
    StableHlo.after Cert.ReferenceIdeal.Value.opsA (launchContents m' c) (Proc.devRef .tc Cert.ReferenceIdeal.main_arg0)
      = m' ((c.tc : Thread Cert.ReferenceIdeal.nD Cert.ReferenceIdeal.τ).loc Cert.ReferenceIdeal.main_arg0) := by
  after_results_simp

end AnyFloats

/-! ## Over the extended reals -/

/-- Over the extended reals a narrowing change of format is the identity on arrays. -/
theorem truncf_ideal {s : Shape} {φ ψ : FTy} (a : FVec Ideal s φ) (h : ψ.bits < φ.bits) :
    (truncf ψ a h : s.Idx → EReal) = a :=
  funext fun i => truncf_apply a h i

/-- The narrowed level-2 array the first call reads is the second program's level-2 unfolded array. -/
theorem head_lv2 (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h3 : (m' ((c.tc : Thread Cert.ReferenceIdeal.nD Cert.ReferenceIdeal.τ).loc Cert.ReferenceIdeal.main_arg3)
            : (⟨4, ![4, 128, 96, 96]⟩ : Shape).Idx → Elt Ideal .f32)
        = m ((c.tc : Thread Cert.KernelIdeal.nD Cert.KernelIdeal.τ).loc Cert.KernelIdeal.main_arg3)) :
    (Cert.KernelIdeal.Run.W1 m ρ c (Proc.devRef .tc Cert.KernelIdeal.main_v70) : (⟨3, ![4, 1152, 9216]⟩ : Shape).Idx → Elt Ideal .f32)
      = StableHlo.after Cert.ReferenceIdeal.Value.opsA (launchContents m' c) (Proc.devRef .tc Cert.ReferenceIdeal.main_v34) :=
  ((narrow_lv2 (Cert.KernelIdeal.Run.W0d m ρ c)).trans (truncf_ideal _ _)).trans (unfold_lv2 m ρ m' c h3)

/-- The narrowed level-1 array the second call reads is the second program's level-1 unfolded array. -/
theorem head_lv1 (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h2 : (m' ((c.tc : Thread Cert.ReferenceIdeal.nD Cert.ReferenceIdeal.τ).loc Cert.ReferenceIdeal.main_arg2)
            : (⟨4, ![4, 64, 192, 192]⟩ : Shape).Idx → Elt Ideal .f32)
        = m ((c.tc : Thread Cert.KernelIdeal.nD Cert.KernelIdeal.τ).loc Cert.KernelIdeal.main_arg2)) :
    (Cert.KernelIdeal.Run.W1 m ρ c (Proc.devRef .tc Cert.KernelIdeal.main_v71) : (⟨3, ![4, 2304, 9216]⟩ : Shape).Idx → Elt Ideal .f32)
      = StableHlo.after Cert.ReferenceIdeal.Value.opsA (launchContents m' c) (Proc.devRef .tc Cert.ReferenceIdeal.main_v69) :=
  ((narrow_lv1 (Cert.KernelIdeal.Run.W0d m ρ c)).trans (truncf_ideal _ _)).trans (unfold_lv1 m ρ m' c h2)

end Cert.Bridge

end
-- ==== Proof.Bridge.Tail.lean ====
/-
  The program's closing stretch and the reference's last stretch fold the gathered patches back with the same
  operations. Each level's fold-back is named once, as a function of the gathered array: reshape the patch axis into
  (channel, offset, offset), move the offsets next to their grid axes, add every patch entry into a zero padded image at
  (row·stride + offset, column·stride + offset), cut the padding off and divide by nine. Each program's hundred
  operations are then read as that function of the array they start from — the first fifty for the stride-one level,
  the last fifty for the stride-two level, neither touching the other's buffers — and equal gathered arrays give
  equal folded images.
-/
import proofs.«400157_j45320494907489_1_alg».proof.Proof.Gen.KernelIdeal.Launch
import proofs.«400157_j45320494907489_1_alg».proof.Proof.RefChunks

-- a hundred-operation list literal is walked through when a cut of it is spelt out
set_option maxRecDepth 8192

noncomputable section

namespace Cert.Bridge

open Idealize.ShloMosaic Idealize.ShloMosaic.TcCoe Idealize.SL.Sem Idealize.ShloMosaic.StableHlo

variable {F : FTy → Type} [FloatOps F]

/-- A line of operations run up to a cut and then from it. -/
theorem after_take_drop {τ : Topo} {sig : RefSig} {Val : EltTy → Type} :
    ∀ (n : Nat) (l : List (HloOp τ sig Val)) (V : Valuation τ sig Val), after l V = after (l.drop n) (after (l.take n) V)
  | 0, _, _ => rfl
  | _ + 1, [], _ => rfl
  | n + 1, op :: l, V => by
    simp only [List.drop_succ_cons, List.take_succ_cons, after_cons]
    exact after_take_drop n l _

/-- Spell a cut `(l.drop i).take n` of a literal operation list `l` as its operations. -/
local macro "spell_cut" : tactic =>
  `(tactic| simp only [List.drop_succ_cons, List.drop_zero, List.take_succ_cons, List.take_zero])

/-! ## The fold-back of the three-by-three patches (stride one) as one function -/

section Fold2
open Cert.KernelIdeal Cert.KernelIdeal.Gen

/-- Patch position along one axis: grid index `k`, offset `d` inside the patch, at `k·1 + d`. -/
def pos2 : (⟨S96x3, .i32⟩ : BufTy).Contents (Elt F) :=
  addi
    (broadcastInDim S96x3 ![0, 1] bcast_S96x1_S96x3_0_1
      (broadcastInDim S96x1 ![0] bcast_S96_S96x1_0
        (muli (iotaInDim S96 32 0) (broadcastInDim S96 ![] bcast_S_S96 (constantI S_ 32 1#32)))))
    (broadcastInDim S96x3 ![0, 1] bcast_S1x3_S96x3_0_1 (broadcastInDim S1x3 ![1] bcast_S3_S1x3_1 (iotaInDim S3 32 0)))

/-- The positions laid along the first two axes of the index table: the padded image's rows. -/
def rows2 : (⟨S96x3x1x1, .i32⟩ : BufTy).Contents (Elt F) := broadcastInDim S96x3x1x1 ![0, 1] bcast_S96x3_S96x3x1x1_0_1 pos2
/-- The positions laid along the last two axes: the padded image's columns. -/
def cols2 : (⟨S1x1x96x3, .i32⟩ : BufTy).Contents (Elt F) := broadcastInDim S1x1x96x3 ![2, 3] bcast_S96x3_S1x1x96x3_2_3 pos2

/-- A negative position counts from the end of the padded axis (length 98). -/
def rowsN2 : (⟨S96x3x1x1, .i32⟩ : BufTy).Contents (Elt F) :=
  select (cmpi .slt (rows2 (F := F)) (broadcastInDim S96x3x1x1 ![] bcast_S_S96x3x1x1 (constantI S_ 32 0#32)))
    (addi (rows2 (F := F)) (broadcastInDim S96x3x1x1 ![] bcast_S_S96x3x1x1 (constantI S_ 32 98#32))) rows2
def colsN2 : (⟨S1x1x96x3, .i32⟩ : BufTy).Contents (Elt F) :=
  select (cmpi .slt (cols2 (F := F)) (broadcastInDim S1x1x96x3 ![] bcast_S_S1x1x96x3 (constantI S_ 32 0#32)))
    (addi (cols2 (F := F)) (broadcastInDim S1x1x96x3 ![] bcast_S_S1x1x96x3 (constantI S_ 32 98#32))) cols2

/-- The row coordinate of every (row, offset, column, offset) patch entry. -/
def idxR2 : (⟨S96x3x96x3x1, .i32⟩ : BufTy).Contents (Elt F) :=
  broadcastInDim S96x3x96x3x1 ![0, 1, 2, 3] bcast_S96x3x96x3_S96x3x96x3x1_0_1_2_3
    (broadcastInDim S96x3x96x3 ![0, 1, 2, 3] bcast_S96x3x1x1_S96x3x96x3_0_1_2_3 rowsN2)
/-- Its column coordinate. -/
def idxC2 : (⟨S96x3x96x3x1, .i32⟩ : BufTy).Contents (Elt F) :=
  broadcastInDim S96x3x96x3x1 ![0, 1, 2, 3] bcast_S96x3x96x3_S96x3x96x3x1_0_1_2_3
    (broadcastInDim S96x3x96x3 ![0, 1, 2, 3] bcast_S1x1x96x3_S96x3x96x3_0_1_2_3 colsN2)

/-- The padded accumulator, all zero. -/
def zeros2 : (⟨S4x128x98x98, .f32⟩ : BufTy).Contents (Elt F) :=
  broadcastInDim S4x128x98x98 ![] bcast_S_S4x128x98x98 (constant S_ .f32 0x00000000#32)

/-- The gathered patches as (batch, channel, row, offset, column, offset). -/
def unf2 (X : (⟨S4x1152x9216, .f32⟩ : BufTy).Contents (Elt F)) : (⟨S4x128x96x3x96x3, .f32⟩ : BufTy).Contents (Elt F) :=
  transpose S4x128x96x3x96x3 [0, 1, 4, 2, 5, 3]
    (fun i => shapeCast S4x128x3x3x96x96 X shapeCasts_S4x1152x9216_S4x128x3x3x96x96 i)
    transposes_S4x128x3x3x96x96_S4x128x96x3x96x3_0_1_4_2_5_3

/-- Overlap-add of the patches into the accumulator at the coordinate pairs, the interior cut out, divided by nine. -/
def comb2 (z : (⟨S4x128x98x98, .f32⟩ : BufTy).Contents (Elt F)) (ir ic : (⟨S96x3x96x3x1, .i32⟩ : BufTy).Contents (Elt F))
    (u : (⟨S4x128x96x3x96x3, .f32⟩ : BufTy).Contents (Elt F)) : (⟨S4x128x96x96, .f32⟩ : BufTy).Contents (Elt F) :=
  Host.divf
    (extractStridedSlice S4x128x96x96 ![0, 0, 1, 1]
      (Host.scatterAdd scatter_S4x128x98x98_S96x3x96x3x2_S4x128x96x3x96x3_01_23_23_4 z
        (concatenate S96x3x96x3x2 4 [⟨S96x3x96x3x1, ir⟩, ⟨S96x3x96x3x1, ic⟩] concatenates_S96x3x96x3x1_S96x3x96x3x1_S96x3x96x3x2_d4) u)
      slices_S4x128x98x98_S4x128x96x96_0_0_1_1)
    (broadcastInDim S4x128x96x96 ![] bcast_S_S4x128x96x96 (constant S_ .f32 0x41100000#32))

/-- The whole fold-back of the stride-one level, as a function of the gathered array. -/
def fold2 (X : (⟨S4x1152x9216, .f32⟩ : BufTy).Contents (Elt F)) : (⟨S4x128x96x96, .f32⟩ : BufTy).Contents (Elt F) :=
  comb2 zeros2 idxR2 idxC2 (unf2 X)

end Fold2

/-! ## The fold-back of the six-by-six patches (stride two) as one function -/

section Fold1
open Cert.KernelIdeal Cert.KernelIdeal.Gen

/-- Patch position along one axis: grid index `k`, offset `d` inside the patch, at `k·2 + d`. -/
def pos1 : (⟨S96x6, .i32⟩ : BufTy).Contents (Elt F) :=
  addi
    (broadcastInDim S96x6 ![0, 1] bcast_S96x1_S96x6_0_1
      (broadcastInDim S96x1 ![0] bcast_S96_S96x1_0
        (muli (iotaInDim S96 32 0) (broadcastInDim S96 ![] bcast_S_S96 (constantI S_ 32 2#32)))))
    (broadcastInDim S96x6 ![0, 1] bcast_S1x6_S96x6_0_1 (broadcastInDim S1x6 ![1] bcast_S6_S1x6_1 (iotaInDim S6 32 0)))

/-- The positions laid along the first two axes of the index table: the padded image's rows. -/
def rows1 : (⟨S96x6x1x1, .i32⟩ : BufTy).Contents (Elt F) := broadcastInDim S96x6x1x1 ![0, 1] bcast_S96x6_S96x6x1x1_0_1 pos1
/-- The positions laid along the last two axes: the padded image's columns. -/
def cols1 : (⟨S1x1x96x6, .i32⟩ : BufTy).Contents (Elt F) := broadcastInDim S1x1x96x6 ![2, 3] bcast_S96x6_S1x1x96x6_2_3 pos1

/-- A negative position counts from the end of the padded axis (length 196). -/
def rowsN1 : (⟨S96x6x1x1, .i32⟩ : BufTy).Contents (Elt F) :=
  select (cmpi .slt (rows1 (F := F)) (broadcastInDim S96x6x1x1 ![] bcast_S_S96x6x1x1 (constantI S_ 32 0#32)))
    (addi (rows1 (F := F)) (broadcastInDim S96x6x1x1 ![] bcast_S_S96x6x1x1 (constantI S_ 32 196#32))) rows1
def colsN1 : (⟨S1x1x96x6, .i32⟩ : BufTy).Contents (Elt F) :=
  select (cmpi .slt (cols1 (F := F)) (broadcastInDim S1x1x96x6 ![] bcast_S_S1x1x96x6 (constantI S_ 32 0#32)))
    (addi (cols1 (F := F)) (broadcastInDim S1x1x96x6 ![] bcast_S_S1x1x96x6 (constantI S_ 32 196#32))) cols1

/-- The row coordinate of every (row, offset, column, offset) patch entry. -/
def idxR1 : (⟨S96x6x96x6x1, .i32⟩ : BufTy).Contents (Elt F) :=
  broadcastInDim S96x6x96x6x1 ![0, 1, 2, 3] bcast_S96x6x96x6_S96x6x96x6x1_0_1_2_3
    (broadcastInDim S96x6x96x6 ![0, 1, 2, 3] bcast_S96x6x1x1_S96x6x96x6_0_1_2_3 rowsN1)
/-- Its column coordinate. -/
def idxC1 : (⟨S96x6x96x6x1, .i32⟩ : BufTy).Contents (Elt F) :=
  broadcastInDim S96x6x96x6x1 ![0, 1, 2, 3] bcast_S96x6x96x6_S96x6x96x6x1_0_1_2_3
    (broadcastInDim S96x6x96x6 ![0, 1, 2, 3] bcast_S1x1x96x6_S96x6x96x6_0_1_2_3 colsN1)

/-- The padded accumulator, all zero. -/
def zeros1 : (⟨S4x64x196x196, .f32⟩ : BufTy).Contents (Elt F) :=
  broadcastInDim S4x64x196x196 ![] bcast_S_S4x64x196x196 (constant S_ .f32 0x00000000#32)

/-- The gathered patches as (batch, channel, row, offset, column, offset). -/
def unf1 (X : (⟨S4x2304x9216, .f32⟩ : BufTy).Contents (Elt F)) : (⟨S4x64x96x6x96x6, .f32⟩ : BufTy).Contents (Elt F) :=
  transpose S4x64x96x6x96x6 [0, 1, 4, 2, 5, 3]
    (fun i => shapeCast S4x64x6x6x96x96 X shapeCasts_S4x2304x9216_S4x64x6x6x96x96 i)
    transposes_S4x64x6x6x96x96_S4x64x96x6x96x6_0_1_4_2_5_3

/-- Overlap-add of the patches into the accumulator at the coordinate pairs, the interior cut out, divided by nine. -/
def comb1 (z : (⟨S4x64x196x196, .f32⟩ : BufTy).Contents (Elt F)) (ir ic : (⟨S96x6x96x6x1, .i32⟩ : BufTy).Contents (Elt F))
    (u : (⟨S4x64x96x6x96x6, .f32⟩ : BufTy).Contents (Elt F)) : (⟨S4x64x192x192, .f32⟩ : BufTy).Contents (Elt F) :=
  Host.divf
    (extractStridedSlice S4x64x192x192 ![0, 0, 2, 2]
      (Host.scatterAdd scatter_S4x64x196x196_S96x6x96x6x2_S4x64x96x6x96x6_01_23_23_4 z
        (concatenate S96x6x96x6x2 4 [⟨S96x6x96x6x1, ir⟩, ⟨S96x6x96x6x1, ic⟩] concatenates_S96x6x96x6x1_S96x6x96x6x1_S96x6x96x6x2_d4) u)
      slices_S4x64x196x196_S4x64x192x192_0_0_2_2)
    (broadcastInDim S4x64x192x192 ![] bcast_S_S4x64x192x192 (constant S_ .f32 0x41100000#32))

/-- The whole fold-back of the stride-two level, as a function of the gathered array. -/
def fold1 (X : (⟨S4x2304x9216, .f32⟩ : BufTy).Contents (Elt F)) : (⟨S4x64x192x192, .f32⟩ : BufTy).Contents (Elt F) :=
  comb1 zeros1 idxR1 idxC1 (unf1 X)

end Fold1

/-! ## The program's closing stretch

Operations 1 to 44 build the stride-one level's pieces (the rearranged patches, the zero image, the two coordinate
tables), 45 to 50 combine them, and 51 to 100 do the same for the stride-two level; neither half writes a buffer the
other reads. -/

namespace K
open Cert.KernelIdeal Cert.KernelIdeal.Gen

theorem a2_unf (W : Valuation τ sig (Elt F)) :
    after ((hostOps2 (F := F)).take 44) W (Proc.devRef .tc main_v76) = unf2 (W (Proc.devRef .tc main_v73)) := by
  spell_cut; after_results_simp; rfl
theorem a2_zeros (W : Valuation τ sig (Elt F)) :
    after ((hostOps2 (F := F)).take 44) W (Proc.devRef .tc main_v95) = zeros2 := by
  spell_cut; after_results_simp; rfl
theorem a2_idxR (W : Valuation τ sig (Elt F)) :
    after ((hostOps2 (F := F)).take 44) W (Proc.devRef .tc main_v110) = idxR2 := by
  spell_cut; after_results_simp; rfl
theorem a2_idxC (W : Valuation τ sig (Elt F)) :
    after ((hostOps2 (F := F)).take 44) W (Proc.devRef .tc main_v111) = idxC2 := by
  spell_cut; after_results_simp; rfl
-- the coordinate tables meet in a concatenation: its operands are rewritten in place, one result at a time
theorem b2_out (W : Valuation τ sig (Elt F)) :
    after (((hostOps2 (F := F)).drop 44).take 6) W (Proc.devRef .tc main_v116)
      = comb2 (W (Proc.devRef .tc main_v95)) (W (Proc.devRef .tc main_v110)) (W (Proc.devRef .tc main_v111))
          (W (Proc.devRef .tc main_v76)) := by
  spell_cut; after_results; rfl
theorem c2_out (W : Valuation τ sig (Elt F)) :
    after (((hostOps2 (F := F)).drop 44).drop 6) W (Proc.devRef .tc main_v116) = W (Proc.devRef .tc main_v116) := by
  spell_cut; after_results_simp

/-- The stretch leaves the stride-one result at the fold-back of the gathered array it started from. -/
theorem run2 (W : Valuation τ sig (Elt F)) :
    after (hostOps2 (F := F)) W (Proc.devRef .tc main_v116) = fold2 (W (Proc.devRef .tc main_v73)) := by
  rw [after_take_drop 44 (hostOps2 (F := F)) W, after_take_drop 6 ((hostOps2 (F := F)).drop 44), c2_out, b2_out, a2_unf,
    a2_zeros, a2_idxR, a2_idxC]
  rfl

theorem p1_in (W : Valuation τ sig (Elt F)) :
    after ((hostOps2 (F := F)).take 50) W (Proc.devRef .tc main_v74) = W (Proc.devRef .tc main_v74) := by
  spell_cut; after_results_simp
theorem a1_unf (W : Valuation τ sig (Elt F)) :
    after (((hostOps2 (F := F)).drop 50).take 44) W (Proc.devRef .tc main_v118) = unf1 (W (Proc.devRef .tc main_v74)) := by
  spell_cut; after_results_simp; rfl
theorem a1_zeros (W : Valuation τ sig (Elt F)) :
    after (((hostOps2 (F := F)).drop 50).take 44) W (Proc.devRef .tc main_v137) = zeros1 := by
  spell_cut; after_results_simp; rfl
theorem a1_idxR (W : Valuation τ sig (Elt F)) :
    after (((hostOps2 (F := F)).drop 50).take 44) W (Proc.devRef .tc main_v152) = idxR1 := by
  spell_cut; after_results_simp; rfl
theorem a1_idxC (W : Valuation τ sig (Elt F)) :
    after (((hostOps2 (F := F)).drop 50).take 44) W (Proc.devRef .tc main_v153) = idxC1 := by
  spell_cut; after_results_simp; rfl
theorem b1_out (W : Valuation τ sig (Elt F)) :
    after (((hostOps2 (F := F)).drop 50).drop 44) W (Proc.devRef .tc main_v158)
      = comb1 (W (Proc.devRef .tc main_v137)) (W (Proc.devRef .tc main_v152)) (W (Proc.devRef .tc main_v153))
          (W (Proc.devRef .tc main_v118)) := by
  spell_cut; after_results; rfl

/-- The stretch leaves the stride-two result at the fold-back of the gathered array it started from. -/
theorem run1 (W : Valuation τ sig (Elt F)) :
    after (hostOps2 (F := F)) W (Proc.devRef .tc main_v158) = fold1 (W (Proc.devRef .tc main_v74)) := by
  rw [after_take_drop 50 (hostOps2 (F := F)) W, after_take_drop 44 ((hostOps2 (F := F)).drop 50), b1_out, a1_unf, a1_zeros,
    a1_idxR, a1_idxC, p1_in]
  rfl

end K

/-! ## The reference's last stretch

The same hundred operations under the reference's own buffer numbers, shape names and side-condition proofs: each
piece is the same function, the shapes being the same literals and the side conditions proofs of the same
propositions. -/

namespace R
open Cert.ReferenceIdeal Cert.ReferenceIdeal.Gen Cert.ReferenceIdeal.Value

theorem a2_unf (W : Valuation τ sig (Elt F)) :
    after ((opsC (F := F)).take 44) W (Proc.devRef .tc main_v75) = unf2 (W (Proc.devRef .tc main_v71)) := by
  spell_cut; after_results_simp; rfl
theorem a2_zeros (W : Valuation τ sig (Elt F)) :
    after ((opsC (F := F)).take 44) W (Proc.devRef .tc main_v94) = zeros2 := by
  spell_cut; after_results_simp; rfl
theorem a2_idxR (W : Valuation τ sig (Elt F)) :
    after ((opsC (F := F)).take 44) W (Proc.devRef .tc main_v109) = idxR2 := by
  spell_cut; after_results_simp; rfl
theorem a2_idxC (W : Valuation τ sig (Elt F)) :
    after ((opsC (F := F)).take 44) W (Proc.devRef .tc main_v110) = idxC2 := by
  spell_cut; after_results_simp; rfl
theorem b2_out (W : Valuation τ sig (Elt F)) :
    after (((opsC (F := F)).drop 44).take 6) W (Proc.devRef .tc main_v115)
      = comb2 (W (Proc.devRef .tc main_v94)) (W (Proc.devRef .tc main_v109)) (W (Proc.devRef .tc main_v110))
          (W (Proc.devRef .tc main_v75)) := by
  spell_cut; after_results; rfl
theorem c2_out (W : Valuation τ sig (Elt F)) :
    after (((opsC (F := F)).drop 44).drop 6) W (Proc.devRef .tc main_v115) = W (Proc.devRef .tc main_v115) := by
  spell_cut; after_results_simp

/-- The stretch leaves the stride-one result at the fold-back of the gathered array it started from. -/
theorem run2 (W : Valuation τ sig (Elt F)) :
    after (opsC (F := F)) W (Proc.devRef .tc main_v115) = fold2 (W (Proc.devRef .tc main_v71)) := by
  rw [after_take_drop 44 (opsC (F := F)) W, after_take_drop 6 ((opsC (F := F)).drop 44), c2_out, b2_out, a2_unf,
    a2_zeros, a2_idxR, a2_idxC]
  rfl

theorem p1_in (W : Valuation τ sig (Elt F)) :
    after ((opsC (F := F)).take 50) W (Proc.devRef .tc main_v73) = W (Proc.devRef .tc main_v73) := by
  spell_cut; after_results_simp
theorem a1_unf (W : Valuation τ sig (Elt F)) :
    after (((opsC (F := F)).drop 50).take 44) W (Proc.devRef .tc main_v117) = unf1 (W (Proc.devRef .tc main_v73)) := by
  spell_cut; after_results_simp; rfl
theorem a1_zeros (W : Valuation τ sig (Elt F)) :
    after (((opsC (F := F)).drop 50).take 44) W (Proc.devRef .tc main_v136) = zeros1 := by
  spell_cut; after_results_simp; rfl
theorem a1_idxR (W : Valuation τ sig (Elt F)) :
    after (((opsC (F := F)).drop 50).take 44) W (Proc.devRef .tc main_v151) = idxR1 := by
  spell_cut; after_results_simp; rfl
theorem a1_idxC (W : Valuation τ sig (Elt F)) :
    after (((opsC (F := F)).drop 50).take 44) W (Proc.devRef .tc main_v152) = idxC1 := by
  spell_cut; after_results_simp; rfl
theorem b1_out (W : Valuation τ sig (Elt F)) :
    after (((opsC (F := F)).drop 50).drop 44) W (Proc.devRef .tc main_v157)
      = comb1 (W (Proc.devRef .tc main_v136)) (W (Proc.devRef .tc main_v151)) (W (Proc.devRef .tc main_v152))
          (W (Proc.devRef .tc main_v117)) := by
  spell_cut; after_results; rfl

/-- The stretch leaves the stride-two result at the fold-back of the gathered array it started from. -/
theorem run1 (W : Valuation τ sig (Elt F)) :
    after (opsC (F := F)) W (Proc.devRef .tc main_v157) = fold1 (W (Proc.devRef .tc main_v73)) := by
  rw [after_take_drop 50 (opsC (F := F)) W, after_take_drop 44 ((opsC (F := F)).drop 50), b1_out, a1_unf, a1_zeros,
    a1_idxR, a1_idxC, p1_in]
  rfl

end R

/-! ## The two programs fold the gathered patches back alike -/

/-- Stride one: from equal gathered arrays both programs end at the same folded image. -/
theorem tail_lv2 (WK : Valuation Cert.KernelIdeal.τ Cert.KernelIdeal.sig (Elt F))
    (WR : Valuation Cert.ReferenceIdeal.τ Cert.ReferenceIdeal.sig (Elt F))
    (h : (WK (Proc.devRef .tc Cert.KernelIdeal.main_v73) : (⟨3, ![4, 1152, 9216]⟩ : Shape).Idx → Elt F .f32)
        = WR (Proc.devRef .tc Cert.ReferenceIdeal.main_v71)) :
    (StableHlo.after Cert.KernelIdeal.Gen.hostOps2 WK (Proc.devRef .tc Cert.KernelIdeal.main_v116) :
        (⟨4, ![4, 128, 96, 96]⟩ : Shape).Idx → Elt F .f32)
      = StableHlo.after Cert.ReferenceIdeal.Value.opsC WR (Proc.devRef .tc Cert.ReferenceIdeal.main_v115) :=
  (K.run2 WK).trans ((congrArg fold2 h).trans (R.run2 WR).symm)

/-- Stride two: likewise. -/
theorem tail_lv1 (WK : Valuation Cert.KernelIdeal.τ Cert.KernelIdeal.sig (Elt F))
    (WR : Valuation Cert.ReferenceIdeal.τ Cert.ReferenceIdeal.sig (Elt F))
    (h : (WK (Proc.devRef .tc Cert.KernelIdeal.main_v74) : (⟨3, ![4, 2304, 9216]⟩ : Shape).Idx → Elt F .f32)
        = WR (Proc.devRef .tc Cert.ReferenceIdeal.main_v73)) :
    (StableHlo.after Cert.KernelIdeal.Gen.hostOps2 WK (Proc.devRef .tc Cert.KernelIdeal.main_v158) :
        (⟨4, ![4, 64, 192, 192]⟩ : Shape).Idx → Elt F .f32)
      = StableHlo.after Cert.ReferenceIdeal.Value.opsC WR (Proc.devRef .tc Cert.ReferenceIdeal.main_v157) :=
  (K.run1 WK).trans ((congrArg fold1 h).trans (R.run1 WR).symm)

end Cert.Bridge

end
-- ==== Proof.LibAllOnes.lean ====
/-
  A one-bit mask that is all ones. A host reduction by `and` from the constant 1 over an array of one-bit words
  every one of which is 1 is 1 at every result index (the converse of reading such a reduction back); a select on an
  all-ones mask keeps its first operand; and the signed comparisons that say a 32-bit word lies in [0, n): such a
  word is not negative, so an index normalisation that adds the extent to negative words leaves it alone, and it is
  at most n - 1.
-/
import Idealize.ShloMosaic.Lib.ReduceAll
import Idealize.ShloMosaic.Lib.ValueIdx

namespace Idealize.ShloMosaic

namespace IntOp

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl => by
    rw [List.foldl_cons]
    exact foldl_andi_of_all f l _ (andi_eq_one.2 ⟨h, hl a (List.mem_cons_self ..)⟩) fun n hn => hl n (List.mem_cons_of_mem _ hn)

/-- A word that is not negative is not below zero: the normalisation's condition is not 1. -/
theorem slt_zero_ne_one {w : BitVec 32} (h0 : cmpi .sge w 0#32 = 1#1) : ¬ cmpi .slt w 0#32 = 1#1 := by
  rw [cmpi_sge] at h0
  rw [cmpi_slt]
  omega

/-- A word below `n` is at most `hi` when `hi` is `n - 1`. -/
theorem sle_pred_of_slt {w n hi : BitVec 32} (hhi : hi.toInt + 1 = n.toInt) (hn : cmpi .slt w n = 1#1) :
    cmpi .sle w hi = 1#1 := by
  rw [cmpi_slt] at hn
  rw [cmpi_sle]
  omega

end IntOp

namespace Scalar

/-- jnp's index normalisation (a negative index is increased by the extent) leaves a word in [0, n) alone. -/
theorem select_wrap_of_nonneg {w n : BitVec 32} (h0 : IntOp.cmpi .sge w 0#32 = 1#1) :
    Scalar.select (IntOp.cmpi .slt w 0#32) (IntOp.addi w n) w = w :=
  if_neg (IntOp.slt_zero_ne_one h0)

end Scalar

namespace Host

variable {s t u : Shape} {axes : List (Fin s.rank)}

/-- `jnp.all` of an all-ones array: a reduce by `and` from an initial 1 over one-bit words that are all 1 is 1 at
    every result index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit fun n _ => hx n

end Host

/-- A select whose one-bit mask is 1 at an index keeps its first operand there. -/
theorem select_apply_of_one {s : Shape} {α : Type} (c : IVec s 1) (a b : s.Idx → α) (i : s.Idx) (h : c i = 1#1) :
    select c a b i = a i := by
  show Scalar.select (c i) (a i) (b i) = a i
  rw [h]
  exact ValueIdx.select_one _ _

end Idealize.ShloMosaic
-- ==== Proof.Bridge.Take.lean ====
/-
  The reference's take_along_axis, on indices in range, is the plain column gather.

  jnp's take_along_axis along the last axis of an array u : [4, M, 9216] at an index array idx : [4, 9216] is spelt by
  the reference as: broadcast idx to [4, 1, 9216]; add the extent 9216 to the negative words (the index
  normalisation); reshape to [4, 9216, 1]; test every word for 0 ≤ w ≤ 9215 and reduce the test by "and" over the
  unit axis to a mask [4, 9216]; gather, batched over the first axis, the whole second axis at the column the word
  names, the word read signed and clamped into [0, 9215]; and keep the gathered element where the mask is 1, a NaN
  elsewhere. When every index word lies in [0, 9216) read signed, the normalisation is the identity, the mask is all
  ones, the clamp is the identity, and the result at (b, r, n) is u (b, r, idx (b, n)): the column gather.

  First the gather with these dimension numbers read at an index, for any row count M; then the whole chain as one
  equation between arrays, for any M; last the two instances in the reference's run (M = 1152 and M = 2304), and
  that each of the two stretches of operations leaves alone the buffers the later stretches read.
-/
import proofs.«400157_j45320494907489_1_alg».proof.Proof.RefChunks
import proofs.«400157_j45320494907489_1_alg».proof.Proof.Spec
import proofs.«400157_j45320494907489_1_alg».proof.Proof.LibAllOnes
import Idealize.ShloMosaic.Lib.Pipeline.Value

noncomputable section

namespace Cert.Bridge

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

variable {F : FTy → Type} [FloatOps F]

section Gather
variable {α : Type}

/-- The dimension numbers of a gather along the last axis of an operand [4, M, 9216], batched over the first axis: start
    indices [4, 9216, 1] (one scalar per batch and target column), the whole second axis as the one offset axis, the last
    axis collapsed and the one the start index addresses. -/
abbrev colDims (M : ℕ)
    (wf : GatherDims.WF ⟨3, ![4, M, 9216]⟩ ⟨3, ![4, 9216, 1]⟩ ⟨3, ![4, M, 9216]⟩ [1] [2] [0] [2] [0] 2 ![1, M, 1]) :
    GatherDims ⟨3, ![4, M, 9216]⟩ ⟨3, ![4, 9216, 1]⟩ ⟨3, ![4, M, 9216]⟩ where
  offsetDims := [1]
  collapsedSliceDims := [2]
  operandBatchingDims := [0]
  startIndicesBatchingDims := [0]
  startIndexMap := [2]
  indexVectorDim := 2
  sliceSizes := ![1, M, 1]
  wf := wf

/-- THE GATHER READ AT (b, r, n): the operand at (b, r, c), c the start index idx[b, n, 0] read signed and clamped into
    [0, 9215]. On the batching axis the operand coordinate is the batch coordinate, on the offset axis the offset
    coordinate, on the collapsed axis the clamped start. -/
theorem gather_cols_apply {M w : ℕ}
    (wf : GatherDims.WF ⟨3, ![4, M, 9216]⟩ ⟨3, ![4, 9216, 1]⟩ ⟨3, ![4, M, 9216]⟩ [1] [2] [0] [2] [0] 2 ![1, M, 1])
    (x : (⟨3, ![4, M, 9216]⟩ : Shape).Idx → α) (idx : IVec ⟨3, ![4, 9216, 1]⟩ w) (b : Fin 4) (r : Fin M) (n : Fin 9216) :
    Host.gather (colDims M wf) x idx (ix3 b r n)
      = x (ix3 b r ⟨min (idx (ix3 b n (0 : Fin 1))).toInt.toNat (9216 - 1), by omega⟩) := by
  unfold Host.gather
  congr 1
  funext a
  refine Fin.ext ?_
  have e0 : (colDims M wf).start (ix3 b r n) idx (0 : Fin 3) + (colDims M wf).batchCoord (ix3 b r n) (0 : Fin 3)
      + (colDims M wf).offCoord (ix3 b r n) (0 : Fin 3) = b.val := by
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  have e1 : (colDims M wf).start (ix3 b r n) idx (1 : Fin 3) + (colDims M wf).batchCoord (ix3 b r n) (1 : Fin 3)
      + (colDims M wf).offCoord (ix3 b r n) (1 : Fin 3) = r.val := by
    rw [GatherDims.batchCoord_eq_zero _ _ _ (show (1 : Fin 3) ∉ ([0] : List (Fin 3)) by decide)]
    unfold GatherDims.start
    rw [dif_neg (show (1 : Fin 3) ∉ ([2] : List (Fin 3)) by decide)]
    simp only [Nat.add_zero, Nat.zero_add]
    rfl
  have e2 : (colDims M wf).start (ix3 b r n) idx (2 : Fin 3) + (colDims M wf).batchCoord (ix3 b r n) (2 : Fin 3)
      + (colDims M wf).offCoord (ix3 b r n) (2 : Fin 3) = min (idx (ix3 b n (0 : Fin 1))).toInt.toNat (9216 - 1) := by
    rw [GatherDims.batchCoord_eq_zero _ _ _ (show (2 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (colDims M wf).startIndexMap from List.mem_singleton.mpr rfl)]
    have hsi : (colDims M wf).siIdx (ix3 b r n) ⟨List.idxOf (2 : Fin 3) (colDims M wf).startIndexMap,
        List.idxOf_lt_length_iff.2 (List.mem_singleton.mpr rfl)⟩ = ix3 b n (0 : Fin 1) := by
      funext c; refine Fin.ext ?_
      match c with
      | ⟨0, _⟩ => rfl
      | ⟨1, _⟩ => rfl
      | ⟨2, _⟩ => rfl
    rw [hsi]
    rfl
  match a with
  | ⟨0, _⟩ => exact e0
  | ⟨1, _⟩ => exact e1
  | ⟨2, _⟩ => exact e2

end Gather

section Take
variable {α : Type} {M : ℕ}

/-- A word in [0, 9216), read signed and clamped into [0, 9215], is its own value. -/
theorem clamp_of_signed {w : BitVec 32} (h0 : IntOp.cmpi .sge w 0#32 = 1#1) (h1 : IntOp.cmpi .slt w 9216#32 = 1#1) :
    min w.toInt.toNat (9216 - 1) = w.toNat := by
  rw [IntOp.cmpi_sge] at h0
  rw [IntOp.cmpi_slt] at h1
  have e0 : (0#32 : BitVec 32).toInt = 0 := by decide
  have e1 : (9216#32 : BitVec 32).toInt = 9216 := by decide
  rw [e0] at h0; rw [e1] at h1
  have := BitVec.toInt_eq_toNat_cond w
  split at this <;> omega

/-- THE WHOLE CHAIN: with every index word in [0, 9216) read signed, the masked, normalised, clamped gather is the
    column gather. -/
theorem take_cols
    (hb70 : (⟨2, ![4, 9216]⟩ : Shape).BroadcastsInDim ⟨3, ![4, 1, 9216]⟩ ![0, 2])
    (hbA : (⟨0, ![]⟩ : Shape).BroadcastsInDim ⟨3, ![4, 1, 9216]⟩ ![])
    (hsc : (⟨3, ![4, 1, 9216]⟩ : Shape).ShapeCasts ⟨3, ![4, 9216, 1]⟩)
    (hbB : (⟨0, ![]⟩ : Shape).BroadcastsInDim ⟨3, ![4, 9216, 1]⟩ ![])
    (hb8 : (⟨1, ![1]⟩ : Shape).BroadcastsInDim ⟨3, ![1, 1, 1]⟩ ![2])
    (hb9 : (⟨3, ![1, 1, 1]⟩ : Shape).BroadcastsInDim ⟨3, ![4, 9216, 1]⟩ ![0, 1, 2])
    (hred : (⟨3, ![4, 9216, 1]⟩ : Shape).ReducesTo [2] ⟨2, ![4, 9216]⟩)
    (hS : 0 < (⟨0, ![]⟩ : Shape).numel)
    (hb14 : (⟨2, ![4, 9216]⟩ : Shape).BroadcastsInDim ⟨3, ![4, M, 9216]⟩ ![0, 2])
    (hbT : (⟨0, ![]⟩ : Shape).BroadcastsInDim ⟨3, ![4, M, 9216]⟩ ![])
    (wf : GatherDims.WF ⟨3, ![4, M, 9216]⟩ ⟨3, ![4, 9216, 1]⟩ ⟨3, ![4, M, 9216]⟩ [1] [2] [0] [2] [0] 2 ![1, M, 1])
    (idx : IVec ⟨2, ![4, 9216]⟩ 32) (x : (⟨3, ![4, M, 9216]⟩ : Shape).Idx → α) (fill : (⟨0, ![]⟩ : Shape).Idx → α)
    (h0 : ∀ i, IntOp.cmpi .sge (idx i) 0#32 = 1#1) (h1 : ∀ i, IntOp.cmpi .slt (idx i) 9216#32 = 1#1) :
    let v70 : IVec ⟨3, ![4, 1, 9216]⟩ 32 := broadcastInDim ⟨3, ![4, 1, 9216]⟩ ![0, 2] hb70 idx
    let v5 : IVec ⟨3, ![4, 9216, 1]⟩ 32 := shapeCast ⟨3, ![4, 9216, 1]⟩
      (select (cmpi .slt v70 (broadcastInDim ⟨3, ![4, 1, 9216]⟩ ![] hbA (constantI ⟨0, ![]⟩ 32 0#32)))
        (addi v70 (broadcastInDim ⟨3, ![4, 1, 9216]⟩ ![] hbA (constantI ⟨0, ![]⟩ 32 9216#32))) v70) hsc
    let ok : IVec ⟨2, ![4, 9216]⟩ 1 := Host.reduce IntOp.andi
      (andi (cmpi .sge v5 (broadcastInDim ⟨3, ![4, 9216, 1]⟩ ![] hbB (constantI ⟨0, ![]⟩ 32 0#32)))
        (cmpi .sle v5 (broadcastInDim ⟨3, ![4, 9216, 1]⟩ ![0, 1, 2] hb9
          (broadcastInDim ⟨3, ![1, 1, 1]⟩ ![2] hb8 (constantI ⟨1, ![1]⟩ 32 9215#32)))))
      (constantI ⟨0, ![]⟩ 1 1#1) hred hS
    select (broadcastInDim ⟨3, ![4, M, 9216]⟩ ![0, 2] hb14 ok) (Host.gather (colDims M wf) x v5)
        (broadcastInDim ⟨3, ![4, M, 9216]⟩ ![] hbT fill)
      = Cert.Spec.gatherCols x (Cert.Spec.colOf (fun b n => idx (ix2 b n))
          (fun b n => Cert.Spec.toNat_lt_of_signed (h0 _) (h1 _))) := by
  intro v70 v5 ok
  -- the broadcast index array reads the index word
  have hv70 : ∀ (b : Fin 4) (n : Fin 9216), v70 (ix3 b (0 : Fin 1) n) = idx (ix2 b n) := fun b n =>
    broadcastInDim_apply _ _ _ _ (ix2 b n) (fun a => match a with | ⟨0, _⟩ => rfl | ⟨1, _⟩ => rfl)
  -- the normalised, reshaped index array reads it too: the word is not negative
  have hv5 : ∀ (b : Fin 4) (n : Fin 9216), v5 (ix3 b n (0 : Fin 1)) = idx (ix2 b n) := fun b n => by
    refine (shapeCast_apply _ _ (ix3 b n (0 : Fin 1)) (ix3 b (0 : Fin 1) n) ?_).trans ?_
    · rw [Shape.rowMajor_val_three, Shape.rowMajor_val_three]
      show ((b.val * 1 + 0) * 9216 + n.val) = ((b.val * 9216 + n.val) * 1 + 0)
      omega
    · show Scalar.select (IntOp.cmpi .slt (v70 (ix3 b (0 : Fin 1) n)) 0#32) (IntOp.addi (v70 (ix3 b (0 : Fin 1) n)) 9216#32)
        (v70 (ix3 b (0 : Fin 1) n)) = _
      rw [hv70]
      exact Scalar.select_wrap_of_nonneg (h0 _)
  -- the range mask is all ones
  have hok : ∀ i, ok i = 1#1 := fun i => Host.reduce_andi_of_all _ _ hred hS rfl (fun k => by
    obtain ⟨b', n', u, rfl⟩ : ∃ b' n' u, k = ix3 b' n' u := ⟨k 0, k 1, k 2, eq_ix3 k⟩
    obtain rfl : u = (0 : Fin 1) := Subsingleton.elim _ _
    show IntOp.andi (IntOp.cmpi .sge (v5 (ix3 b' n' (0 : Fin 1))) 0#32) (IntOp.cmpi .sle (v5 (ix3 b' n' (0 : Fin 1))) 9215#32) = 1#1
    rw [hv5]
    exact IntOp.andi_eq_one.2 ⟨h0 _, IntOp.sle_pred_of_slt (by decide) (h1 _)⟩) i
  clear_value ok v5 v70
  funext j
  obtain ⟨b, r, n, rfl⟩ : ∃ b r n, j = ix3 b r n := ⟨j 0, j 1, j 2, eq_ix3 j⟩
  have hm : broadcastInDim ⟨3, ![4, M, 9216]⟩ ![0, 2] hb14 ok (ix3 b r n) = 1#1 := by
    unfold broadcastInDim
    exact hok _
  refine (select_apply_of_one (broadcastInDim ⟨3, ![4, M, 9216]⟩ ![0, 2] hb14 ok) _ _ _ hm).trans ?_
  rw [gather_cols_apply, Cert.Spec.gatherCols_apply]
  refine congrArg x ?_
  congr 1
  refine Fin.ext ?_
  show min (v5 (ix3 b n (0 : Fin 1))).toInt.toNat (9216 - 1) = (idx (ix2 b n)).toNat
  rw [hv5]
  exact clamp_of_signed (h0 _) (h1 _)

end Take

section Run

set_option maxRecDepth 8192 in
set_option maxHeartbeats 1000000 in
/-- The second-level gather of the reference: on index words in [0, 9216) the stretch's result is the column gather
    of the second-level unfolded array. -/
theorem take_lv2 (WR : Valuation τ sig (Elt F))
    (h0 : ∀ i, IntOp.cmpi .sge ((WR (Proc.devRef .tc main_arg0) : (⟨2, ![4, 9216]⟩ : Shape).Idx → BitVec 32) i) 0#32 = 1#1)
    (h1 : ∀ i, IntOp.cmpi .slt ((WR (Proc.devRef .tc main_arg0) : (⟨2, ![4, 9216]⟩ : Shape).Idx → BitVec 32) i) 9216#32 = 1#1) :
    (StableHlo.after opsB2 WR (Proc.devRef .tc main_v71) : (⟨3, ![4, 1152, 9216]⟩ : Shape).Idx → F .f32)
      = Cert.Spec.gatherCols (M := 1152) (WR (Proc.devRef .tc main_v34))
          (Cert.Spec.colOf (fun b n => (WR (Proc.devRef .tc main_arg0) : (⟨2, ![4, 9216]⟩ : Shape).Idx → BitVec 32) (ix2 b n))
            (fun b n => Cert.Spec.toNat_lt_of_signed (h0 _) (h1 _))) := by
  after_results_simp
  -- a value stored at a buffer's type and read back at the value's own type is the value
  simp only [TRef.toBuf, TRef.ofBuf, cast_cast, cast_eq]
  exact take_cols bcast_S4x9216_S4x1x9216_0_2 bcast_S_S4x1x9216 shapeCasts_S4x1x9216_S4x9216x1 bcast_S_S4x9216x1
    bcast_S1_S1x1x1_2 bcast_S1x1x1_S4x9216x1_0_1_2 reducesTo_S4x9216x1_S4x9216_d2 h_S_ bcast_S4x9216_S4x1152x9216_0_2
    bcast_S_S4x1152x9216 gather_S4x1152x9216_S4x9216x1_S4x1152x9216_1_2_0_0_2_2_111521_wf
    (WR (Proc.devRef .tc main_arg0)) (WR (Proc.devRef .tc main_v34)) (constant S_ .f32 0x7FC00000#32) h0 h1

set_option maxRecDepth 8192 in
set_option maxHeartbeats 1000000 in
/-- The first-level gather of the reference: the same over the first-level unfolded array of 2304 rows. -/
theorem take_lv1 (WR : Valuation τ sig (Elt F))
    (h0 : ∀ i, IntOp.cmpi .sge ((WR (Proc.devRef .tc main_arg0) : (⟨2, ![4, 9216]⟩ : Shape).Idx → BitVec 32) i) 0#32 = 1#1)
    (h1 : ∀ i, IntOp.cmpi .slt ((WR (Proc.devRef .tc main_arg0) : (⟨2, ![4, 9216]⟩ : Shape).Idx → BitVec 32) i) 9216#32 = 1#1) :
    (StableHlo.after opsB1 WR (Proc.devRef .tc main_v73) : (⟨3, ![4, 2304, 9216]⟩ : Shape).Idx → F .f32)
      = Cert.Spec.gatherCols (M := 2304) (WR (Proc.devRef .tc main_v69))
          (Cert.Spec.colOf (fun b n => (WR (Proc.devRef .tc main_arg0) : (⟨2, ![4, 9216]⟩ : Shape).Idx → BitVec 32) (ix2 b n))
            (fun b n => Cert.Spec.toNat_lt_of_signed (h0 _) (h1 _))) := by
  after_results_simp
  simp only [TRef.toBuf, TRef.ofBuf, cast_cast, cast_eq]
  exact take_cols bcast_S4x9216_S4x1x9216_0_2 bcast_S_S4x1x9216 shapeCasts_S4x1x9216_S4x9216x1 bcast_S_S4x9216x1
    bcast_S1_S1x1x1_2 bcast_S1x1x1_S4x9216x1_0_1_2 reducesTo_S4x9216x1_S4x9216_d2 h_S_ bcast_S4x9216_S4x2304x9216_0_2
    bcast_S_S4x2304x9216 gather_S4x2304x9216_S4x9216x1_S4x2304x9216_1_2_0_0_2_2_123041_wf
    (WR (Proc.devRef .tc main_arg0)) (WR (Proc.devRef .tc main_v69)) (constant S_ .f32 0x7FC00000#32) h0 h1

set_option maxRecDepth 8192 in
/-- The second-level stretch writes only its own intermediate values and its result: the unfolded arrays and the
    index array keep their contents. -/
theorem takeB2_keeps (WR : Valuation τ sig (Elt F)) (b : Ref sig .tc)
    (hb : b = main_v34 ∨ b = main_v69 ∨ b = main_arg0) :
    StableHlo.after opsB2 WR (Proc.devRef .tc b) = WR (Proc.devRef .tc b) := by
  rcases hb with rfl | rfl | rfl <;>
  exact StableHlo.after_of_forall_not_mem _ _ (List.forall_iff_forall_mem.mp (by
    simp only [List.Forall, nullary_writes, unary_writes, binary_writes, ternary_writes, reshape_writes, Finset.mem_singleton]
    repeat' apply And.intro
    all_goals exact devRef_ne_of_ne (by decide)))

set_option maxRecDepth 8192 in
/-- The first-level stretch likewise leaves the second-level result and the index array alone. -/
theorem takeB1_keeps (WR : Valuation τ sig (Elt F)) (b : Ref sig .tc)
    (hb : b = main_v71 ∨ b = main_arg0) :
    StableHlo.after opsB1 WR (Proc.devRef .tc b) = WR (Proc.devRef .tc b) := by
  rcases hb with rfl | rfl <;>
  exact StableHlo.after_of_forall_not_mem _ _ (List.forall_iff_forall_mem.mp (by
    simp only [List.Forall, nullary_writes, unary_writes, binary_writes, ternary_writes, reshape_writes, Finset.mem_singleton]
    repeat' apply And.intro
    all_goals exact devRef_ne_of_ne (by decide)))

end Run

end Cert.Bridge

end
-- ==== Proof.PreDecode.lean ====
/-
  The precondition, read back. The precondition is a printed function of the four inputs whose result is one bit: the
  conjunction of five "all elements" reductions by "and" from the constant 1. Three say the float inputs are finite;
  the last two say every index word is not negative and is below 9216, compared as signed words. From "the result is 1"
  this file draws those last two facts at every position of the index array: a conjunction of bits is 1 only when both
  are, and a reduction by "and" over all axes that gives 1 met a 1 at every element. The constant an index word is
  compared with is a scalar broadcast over the array, which reads the scalar at every position.
-/
import proofs.«400157_j45320494907489_1_alg».proof.Proof.Gen.Pre_finite_inputs
import Idealize.ShloMosaic.Lib.ReduceAll

namespace Cert.PreDecode

open Idealize.ShloMosaic Cert.Pre_finite_inputs

/-- The shape with no axes has one index. -/
instance subsingleton_scalar_idx : Subsingleton S_.Idx := ⟨fun _ _ => funext fun d => d.elim0⟩

/-- Both index conjuncts of the precondition, as the two reductions they are: with the result 1, the conjunction
    splits, the outer one into (the first four conjuncts) and (all below 9216), the inner one into (the three
    finiteness conjuncts) and (all not negative). -/
theorem idx_both {F : FTy → Type} [FloatOps F] (x0 : IVec S4x9216 32) (x1 : FVec F S4x64x96x96 .f32)
    (x2 : FVec F S4x64x192x192 .f32) (x3 : FVec F S4x128x96x96 .f32)
    (h : fn (F := F) x0 x1 x2 x3 = fun _ => 1#1) :
    (∀ i, IntOp.cmpi .sge (x0 i) 0#32 = 1#1) ∧ ∀ i, IntOp.cmpi .slt (x0 i) 9216#32 = 1#1 := by
  have h0 := congrFun h (fun a => a.elim0)
  dsimp only [fn, fn_part1, andi] at h0
  obtain ⟨h1, hlt⟩ := IntOp.andi_eq_one.1 h0
  obtain ⟨_, hge⟩ := IntOp.andi_eq_one.1 h1
  exact ⟨fun i => Host.reduce_andi_all _ _ _ _ _ hge i, fun i => Host.reduce_andi_all _ _ _ _ _ hlt i⟩

/-- Under the precondition every index word is not negative (signed). -/
theorem idx_nonneg {F : FTy → Type} [FloatOps F] (x0 : IVec S4x9216 32) (x1 : FVec F S4x64x96x96 .f32)
    (x2 : FVec F S4x64x192x192 .f32) (x3 : FVec F S4x128x96x96 .f32)
    (h : fn (F := F) x0 x1 x2 x3 = fun _ => 1#1) : ∀ i, IntOp.cmpi .sge (x0 i) 0#32 = 1#1 :=
  (idx_both x0 x1 x2 x3 h).1

/-- Under the precondition every index word is below 9216 (signed). -/
theorem idx_lt {F : FTy → Type} [FloatOps F] (x0 : IVec S4x9216 32) (x1 : FVec F S4x64x96x96 .f32)
    (x2 : FVec F S4x64x192x192 .f32) (x3 : FVec F S4x128x96x96 .f32)
    (h : fn (F := F) x0 x1 x2 x3 = fun _ => 1#1) : ∀ i, IntOp.cmpi .slt (x0 i) 9216#32 = 1#1 :=
  (idx_both x0 x1 x2 x3 h).2

end Cert.PreDecode
-- ==== Proof.Assemble.lean ====
/-
  The two programs end with equal results. Under the precondition every index word lies in [0, 9216), so each
  gather call's output array is the plain column gather of its unfolded input, and so is what the reference's
  index-normalising gather produces; the unfolded inputs are the same functions of the arguments in both
  programs (a change of float format is the identity on extended reals), and so are the closing fold-backs of
  the gathered patches. Chaining these: the kernel's result buffers hold what the reference's fold computes.
-/
import proofs.«400157_j45320494907489_1_alg».proof.Defs
import proofs.«400157_j45320494907489_1_alg».proof.Proof.KernelIdeal.Run
import proofs.«400157_j45320494907489_1_alg».proof.Proof.KernelIdeal.Region0.Value
import proofs.«400157_j45320494907489_1_alg».proof.Proof.KernelIdeal.Region1.Value
import proofs.«400157_j45320494907489_1_alg».proof.Proof.Bridge.Head
import proofs.«400157_j45320494907489_1_alg».proof.Proof.Bridge.Tail
import proofs.«400157_j45320494907489_1_alg».proof.Proof.Bridge.Take
import proofs.«400157_j45320494907489_1_alg».proof.Proof.PreDecode
import proofs.«400157_j45320494907489_1_alg».proof.Proof.RefSide
import proofs.«400157_j45320494907489_1_alg».proof.Proof.Spec

noncomputable section

namespace Cert.Bridge

open Idealize.ShloMosaic Idealize.ShloMosaic.TcCoe Idealize.SL.Sem Idealize.ShloMosaic.StableHlo Idealize.ShloMosaic.ValueIdx
open Cert.KernelIdeal.Run Cert.ReferenceIdeal.Side

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two memories agree on the four arguments. -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- Equal index words name equal columns. -/
theorem colOf_congr (w w' : Fin 4 → Fin 9216 → BitVec 32) (h : ∀ b n, (w b n).toNat < 9216) (h' : ∀ b n, (w' b n).toNat < 9216)
    (e : ∀ b n, w b n = w' b n) : Cert.Spec.colOf w h = Cert.Spec.colOf w' h' := by
  funext b n
  apply Fin.ext
  show (w b n).toNat = (w' b n).toNat
  rw [e b n]

/-- Column gathers of equal arrays along equal columns are equal. -/
theorem gatherCols_congr {M : ℕ} (u u' : (⟨3, ![4, M, 9216]⟩ : Shape).Idx → EReal) (col col' : Fin 4 → Fin 9216 → Fin 9216)
    (hu : u = u') (hc : col = col') : Cert.Spec.gatherCols u col = Cert.Spec.gatherCols u' col' := by
  subst hu hc; rfl

section
variable (hpre : Cert.Pre_KernelIdeal (hPre_finite_inputs := Cert.Pre_finite_inputs.Gen.facts) m) (hag : Agree m m')
include ρ hpre hag

/-- The index row the calls read holds the argument's words, which lie in range. -/
theorem idx_inrange (c : Dev Cert.KernelIdeal.nD) (b : Fin 4) (n : Fin 9216) :
    (V1 m ρ c Cert.KernelIdeal.main_v72 (ix3 b (0 : Fin 1) n)).toNat < 9216 := by
  rw [show V1 m ρ c Cert.KernelIdeal.main_v72 (ix3 b (0 : Fin 1) n) = m ((c.tc : Thread Cert.KernelIdeal.nD Cert.KernelIdeal.τ).loc Cert.KernelIdeal.main_arg0) (ix2 b n) from head_idx m ρ c b n]
  exact Cert.Spec.toNat_lt_of_signed (Cert.PreDecode.idx_nonneg _ _ _ _ (hpre c) _) (Cert.PreDecode.idx_lt _ _ _ _ (hpre c) _)

abbrev S2 : Shape := ⟨3, ![4, 1152, 9216]⟩
abbrev S1 : Shape := ⟨3, ![4, 2304, 9216]⟩

/-- The index words both gathers use, as a function of batch and column. -/
abbrev wK (c : Dev Cert.KernelIdeal.nD) : Fin 4 → Fin 9216 → BitVec 32 := fun b n => V1 m ρ c Cert.KernelIdeal.main_v72 (ix3 b (0 : Fin 1) n)

/-- What the first call leaves in its output array, which the closing stretch reads: the column gather of the
    narrowed level-2 unfolded array. -/
theorem kernel_patches_lv2 (c : Dev Cert.KernelIdeal.nD) :
    (W4 m ρ c (Proc.devRef .tc Cert.KernelIdeal.main_v73) : S2.Idx → EReal)
      = Cert.Spec.gatherCols (M := 1152) (V1 m ρ c Cert.KernelIdeal.main_v70) (Cert.Spec.colOf (wK m ρ c) (idx_inrange m ρ m' hpre hag c)) :=
  (W4_of_ne m ρ c Cert.KernelIdeal.main_v73 (by decide)).trans
    ((W2_arr m ρ c 2).trans (Cert.KernelIdeal.Region0.arr_out_eq (V1 m ρ) c (idx_inrange m ρ m' hpre hag c)))

/-- The second call is entered with the index row and its own input as the first call found them. -/
theorem V2_v72 (c : Dev Cert.KernelIdeal.nD) : V2 m ρ c Cert.KernelIdeal.main_v72 = V1 m ρ c Cert.KernelIdeal.main_v72 :=
  (W2_arr m ρ c 1).trans (((Cert.KernelIdeal.Region0.dat (V1 m ρ) c).arrAt_in 1 rfl _).trans (Cert.KernelIdeal.Region0.A_eq (V1 m ρ) c 1))
theorem V2_v71 (c : Dev Cert.KernelIdeal.nD) : V2 m ρ c Cert.KernelIdeal.main_v71 = V1 m ρ c Cert.KernelIdeal.main_v71 :=
  W2_of_ne m ρ c Cert.KernelIdeal.main_v71 (by decide)

theorem idx_inrange2 (c : Dev Cert.KernelIdeal.nD) (b : Fin 4) (n : Fin 9216) :
    (V2 m ρ c Cert.KernelIdeal.main_v72 (ix3 b (0 : Fin 1) n)).toNat < 9216 := by
  rw [V2_v72 m ρ m' hpre hag c]; exact idx_inrange m ρ m' hpre hag c b n

/-- What the second call leaves in its output array: the column gather of the narrowed level-1 unfolded array. -/
theorem kernel_patches_lv1 (c : Dev Cert.KernelIdeal.nD) :
    (W4 m ρ c (Proc.devRef .tc Cert.KernelIdeal.main_v74) : S1.Idx → EReal)
      = Cert.Spec.gatherCols (M := 2304) (V1 m ρ c Cert.KernelIdeal.main_v71) (Cert.Spec.colOf (wK m ρ c) (idx_inrange m ρ m' hpre hag c)) := by
  refine ((W4_arr m ρ c 2).trans (Cert.KernelIdeal.Region1.arr_out_eq (V2 m ρ) c (idx_inrange2 m ρ m' hpre hag c))).trans ?_
  rw [V2_v71 m ρ m' hpre hag c]
  congr 1
  exact colOf_congr _ _ _ _ fun b n => congrFun (V2_v72 m ρ m' hpre hag c) _

/-! ## The reference's side -/

/-- The reference's unfolds leave the index argument as launched, which is the kernel's. -/
theorem ref_arg0 (c : Dev Cert.KernelIdeal.nD) : (RA m' c (Proc.devRef .tc Cert.ReferenceIdeal.main_arg0) : (⟨2, ![4, 9216]⟩ : Shape).Idx → BitVec 32) = m ((c.tc : Thread Cert.KernelIdeal.nD Cert.KernelIdeal.τ).loc Cert.KernelIdeal.main_arg0) :=
  (refA_arg0 m' c).trans (hag c).1

theorem ref_h0 (c : Dev Cert.KernelIdeal.nD) : ∀ i, IntOp.cmpi .sge ((RA m' c (Proc.devRef .tc Cert.ReferenceIdeal.main_arg0) : (⟨2, ![4, 9216]⟩ : Shape).Idx → BitVec 32) i) 0#32 = 1#1 := by
  intro i; rw [ref_arg0 m ρ m' hpre hag c]; exact Cert.PreDecode.idx_nonneg _ _ _ _ (hpre c) i
theorem ref_h1 (c : Dev Cert.KernelIdeal.nD) : ∀ i, IntOp.cmpi .slt ((RA m' c (Proc.devRef .tc Cert.ReferenceIdeal.main_arg0) : (⟨2, ![4, 9216]⟩ : Shape).Idx → BitVec 32) i) 9216#32 = 1#1 := by
  intro i; rw [ref_arg0 m ρ m' hpre hag c]; exact Cert.PreDecode.idx_lt _ _ _ _ (hpre c) i

/-- The first gather writes neither the index argument nor the level-1 unfolded array. -/
theorem RB2_arg0 (c : Dev Cert.KernelIdeal.nD) : (RB2 m' c (Proc.devRef .tc Cert.ReferenceIdeal.main_arg0) : (⟨2, ![4, 9216]⟩ : Shape).Idx → BitVec 32) = (RA m' c (Proc.devRef .tc Cert.ReferenceIdeal.main_arg0) : (⟨2, ![4, 9216]⟩ : Shape).Idx → BitVec 32) :=
  takeB2_keeps (RA m' c) Cert.ReferenceIdeal.main_arg0 (Or.inr (Or.inr rfl))
theorem ref_h0' (c : Dev Cert.KernelIdeal.nD) : ∀ i, IntOp.cmpi .sge ((RB2 m' c (Proc.devRef .tc Cert.ReferenceIdeal.main_arg0) : (⟨2, ![4, 9216]⟩ : Shape).Idx → BitVec 32) i) 0#32 = 1#1 := by
  intro i; rw [RB2_arg0 m ρ m' hpre hag c]; exact ref_h0 m ρ m' hpre hag c i
theorem ref_h1' (c : Dev Cert.KernelIdeal.nD) : ∀ i, IntOp.cmpi .slt ((RB2 m' c (Proc.devRef .tc Cert.ReferenceIdeal.main_arg0) : (⟨2, ![4, 9216]⟩ : Shape).Idx → BitVec 32) i) 9216#32 = 1#1 := by
  intro i; rw [RB2_arg0 m ρ m' hpre hag c]; exact ref_h1 m ρ m' hpre hag c i

/-! ## The gathered patches agree -/

/-- Level 2: what the first call wrote is what the reference's first gather produced. -/
theorem patches_lv2 (c : Dev Cert.KernelIdeal.nD) :
    (W4 m ρ c (Proc.devRef .tc Cert.KernelIdeal.main_v73) : S2.Idx → EReal) = RB1 m' c (Proc.devRef .tc Cert.ReferenceIdeal.main_v71) := by
  refine (kernel_patches_lv2 m ρ m' hpre hag c).trans (Eq.trans ?_ ((takeB1_keeps (RB2 m' c) Cert.ReferenceIdeal.main_v71 (Or.inl rfl)).trans
    (take_lv2 (RA m' c) (ref_h0 m ρ m' hpre hag c) (ref_h1 m ρ m' hpre hag c))).symm)
  refine gatherCols_congr _ _ _ _ (head_lv2 m ρ m' c (hag c).2.2.2) (colOf_congr _ _ _ _ fun b n => ?_)
  exact (head_idx m ρ c b n).trans (congrFun (ref_arg0 m ρ m' hpre hag c).symm _)

/-- Level 1: what the second call wrote is what the reference's second gather produced. -/
theorem patches_lv1 (c : Dev Cert.KernelIdeal.nD) :
    (W4 m ρ c (Proc.devRef .tc Cert.KernelIdeal.main_v74) : S1.Idx → EReal) = RB1 m' c (Proc.devRef .tc Cert.ReferenceIdeal.main_v73) := by
  refine (kernel_patches_lv1 m ρ m' hpre hag c).trans (Eq.trans ?_
    (take_lv1 (RB2 m' c) (ref_h0' m ρ m' hpre hag c) (ref_h1' m ρ m' hpre hag c)).symm)
  refine gatherCols_congr _ _ _ _ ((head_lv1 m ρ m' c (hag c).2.2.1).trans
    (takeB2_keeps (RA m' c) Cert.ReferenceIdeal.main_v69 (Or.inr (Or.inl rfl))).symm) (colOf_congr _ _ _ _ fun b n => ?_)
  exact (head_idx m ρ c b n).trans (congrFun ((RB2_arg0 m ρ m' hpre hag c).trans (ref_arg0 m ρ m' hpre hag c)).symm _)

/-! ## The results agree -/

/-- The kernel's first result is what the reference's fold leaves in its first result. -/
theorem value_lv2 (c : Dev Cert.KernelIdeal.nD) :
    (W5 m ρ c (Proc.devRef .tc Cert.KernelIdeal.main_v116) : (⟨4, ![4, 128, 96, 96]⟩ : Shape).Idx → EReal)
      = StableHlo.after Cert.ReferenceIdeal.Value.ops (launchContents m' c) (Proc.devRef .tc Cert.ReferenceIdeal.main_v115) :=
  (tail_lv2 (W4 m ρ c) (RB1 m' c) (patches_lv2 m ρ m' hpre hag c)).trans (after_ops m' c _).symm

/-- The kernel's second result is what the reference's fold leaves in its second result. -/
theorem value_lv1 (c : Dev Cert.KernelIdeal.nD) :
    (W5 m ρ c (Proc.devRef .tc Cert.KernelIdeal.main_v158) : (⟨4, ![4, 64, 192, 192]⟩ : Shape).Idx → EReal)
      = StableHlo.after Cert.ReferenceIdeal.Value.ops (launchContents m' c) (Proc.devRef .tc Cert.ReferenceIdeal.main_v157) :=
  (tail_lv1 (W4 m ρ c) (RB1 m' c) (patches_lv1 m ρ m' hpre hag c)).trans (after_ops m' c _).symm

end

end Cert.Bridge

end
-- ==== Proof.lean ====
/-
  A gather along the last axis, done two ways, between one unfold and one fold-back.

  Both programs unfold two image stacks into patch arrays u of shape [4, M, 9216] (M = 1152 and 2304), pick for
  every batch b and target column n the source column idx[b, n], and fold the picked patches back by overlap-add,
  dividing by 9. The kernel picks by a product with a one-hot matrix built from the index row, accumulated over
  four column blocks: the (b, r, n) entry is the sum over all 9216 source columns k of u[b, r, k] · [k = idx[b, n]].
  The reference picks with an index-normalising gather: negative words are increased by 9216, and a word still out
  of range gives a fill value. On extended reals 0 · x = 0 and 0 + x = x for every x, so when 0 ≤ idx[b, n] < 9216
  the kernel's sum is u[b, r, idx[b, n]] — exactly what the reference's gather reads, its normalisation and its
  range mask then doing nothing. The precondition says every float input is finite and every index word lies in
  [0, 9216) (outside that range the reference wraps or fills while the kernel's sum is zero, and the results
  differ). The unfold before and the fold-back after are the same operations in both programs, and the kernel's
  narrowing of the patch arrays to a shorter float format is the identity on extended reals.

  The three frame claims: each gather call runs point by point over its grid (k innermost), zeroing its
  accumulator at k = 0, adding the block product at every k, copying the accumulator out at k = 3; the host
  stretches around the calls are folds over the buffers; no operation writes an argument. The idealization
  rewrote nothing, so that claim is trivial. The value claim chains: kernel result = fold-back of the kernel's
  patches = fold-back of the reference's patches = reference result.
-/
import proofs.«400157_j45320494907489_1_alg».proof.Defs
import proofs.«400157_j45320494907489_1_alg».proof.Proof.Gen.Kernel
import proofs.«400157_j45320494907489_1_alg».proof.Proof.Gen.KernelIdeal
import proofs.«400157_j45320494907489_1_alg».proof.Proof.Gen.ReferenceIdeal
import proofs.«400157_j45320494907489_1_alg».proof.Proof.Gen.Pre_finite_inputs
import proofs.«400157_j45320494907489_1_alg».proof.Proof.Kernel.Run
import proofs.«400157_j45320494907489_1_alg».proof.Proof.KernelIdeal.Run
import proofs.«400157_j45320494907489_1_alg».proof.Proof.RefSide
import proofs.«400157_j45320494907489_1_alg».proof.Proof.Assemble

noncomputable section

namespace Cert.Proof

open Idealize.ShloMosaic Idealize.SL.Sem

/-- The word-level kernel runs to the end, faults nowhere, and leaves its arguments as launched. -/
theorem frame_k : Cert.frame_Kernel := fun m ρ _ => Cert.Kernel.Run.frame m ρ

/-- So does the kernel read over the extended reals. -/
theorem frame_ki : Cert.frame_KernelIdeal := fun m ρ _ => Cert.KernelIdeal.Run.frame m ρ

/-- So does the reference. -/
theorem frame_r : Cert.frame_ReferenceIdeal := fun m ρ _ => Cert.ReferenceIdeal.Side.frame m ρ

/-- The idealization rewrote no operation. -/
theorem preserves : Cert.preserves_Kernel_KernelIdeal := trivial

/-- From memories that agree on the arguments, with every index word in range, the two programs end with equal
    results: the kernel's result buffers, named by the fold of its closing stretch, are what the reference's fold
    of all its operations leaves. -/
theorem algebraic : Cert.algebraic_KernelIdeal_ReferenceIdeal := by
  intro m ρ m' ρ' hpre hag
  refine ⟨fun c => Cert.KernelIdeal.Run.W5 m ρ c (Proc.devRef .tc Cert.KernelIdeal.main_v116),
    fun c => Cert.KernelIdeal.Run.W5 m ρ c (Proc.devRef .tc Cert.KernelIdeal.main_v158), ?_, ?_⟩
  · exact (θ_run Cert.KernelIdeal.defs _ _).mono (fun r h c =>
      ⟨h c _ (Cert.KernelIdeal.Run.mem_uc Cert.KernelIdeal.main_v116 (by decide)),
       h c _ (Cert.KernelIdeal.Run.mem_uc Cert.KernelIdeal.main_v158 (by decide)),
       (h c _ (Cert.KernelIdeal.Run.mem_uc Cert.KernelIdeal.main_arg0 (by decide))).trans (Cert.KernelIdeal.Run.W5_main_arg0 m ρ c),
       (h c _ (Cert.KernelIdeal.Run.mem_uc Cert.KernelIdeal.main_arg1 (by decide))).trans (Cert.KernelIdeal.Run.W5_main_arg1 m ρ c),
       (h c _ (Cert.KernelIdeal.Run.mem_uc Cert.KernelIdeal.main_arg2 (by decide))).trans (Cert.KernelIdeal.Run.W5_main_arg2 m ρ c),
       (h c _ (Cert.KernelIdeal.Run.mem_uc Cert.KernelIdeal.main_arg3 (by decide))).trans (Cert.KernelIdeal.Run.W5_main_arg3 m ρ c)⟩)
      (Cert.KernelIdeal.Run.run_all (F := Ideal) m ρ)
  · exact (θ_run Cert.ReferenceIdeal.defs _ _).mono (fun r h c =>
      ⟨(h c).1.trans (Cert.Bridge.value_lv2 m ρ m' hpre hag c).symm,
       (h c).2.1.trans (Cert.Bridge.value_lv1 m ρ m' hpre hag c).symm,
       (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
